-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x8192 : Shape := ⟨2, ![2048, 8192]⟩
abbrev S8192 : Shape := ⟨1, ![8192]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg11 : FVec F S2048 .f32) (main_arg12 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  main_v63

def fn_part2 {F : FTy → Type} [FloatOps F] (main_arg7 : FVec F S8192 .f32) (main_arg8 : FVec F S8192 .f32) (main_arg9 : FVec F S2048 .f32) (main_arg10 : FVec F S2048 .f32) (main_arg11 : FVec F S2048 .f32) (main_arg12 : FVec F S2048 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  let main_v39 : FVec F S8192 .f32 := Host.absf main_arg8
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S2048x8192 .f32) (main_arg5 : FVec F S8192 .f32) (main_arg6 : FVec F S8192 .f32) (main_arg7 : FVec F S8192 .f32) (main_arg8 : FVec F S8192 .f32) (main_arg9 : FVec F S2048 .f32) (main_arg10 : FVec F S2048 .f32) (main_arg11 : FVec F S2048 .f32) (main_arg12 : FVec F S2048 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x2048 .f32) (main_arg1 : FVec F S4096x2048 .f32) (main_arg2 : FVec F S4096x2048 .f32) (main_arg3 : FVec F S2048x8192 .f32) (main_arg4 : FVec F S2048x8192 .f32) (main_arg5 : FVec F S8192 .f32) (main_arg6 : FVec F S8192 .f32) (main_arg7 : FVec F S8192 .f32) (main_arg8 : FVec F S8192 .f32) (main_arg9 : FVec F S2048 .f32) (main_arg10 : FVec F S2048 .f32) (main_arg11 : FVec F S2048 .f32) (main_arg12 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_arg5 main_arg6 main_arg7 main_arg8 main_arg9 main_arg10 main_arg11 main_arg12 main_v13 main_v16
-- ==== Kernel.lean ====
abbrev S4096x2048 : Shape := ⟨2, ![4096, 2048]⟩
abbrev S2048x8192 : Shape := ⟨2, ![2048, 8192]⟩
abbrev S8192 : Shape := ⟨1, ![8192]⟩
abbrev S2048 : Shape := ⟨1, ![2048]⟩
abbrev S1x8192 : Shape := ⟨2, ![1, 8192]⟩
abbrev S1x2048 : Shape := ⟨2, ![1, 2048]⟩
abbrev S64x2048 : Shape := ⟨2, ![64, 2048]⟩
abbrev S2048x1024 : Shape := ⟨2, ![2048, 1024]⟩
abbrev S1x1024 : Shape := ⟨2, ![1, 1024]⟩
abbrev S64x8192 : Shape := ⟨2, ![64, 8192]⟩
abbrev S64x1024 : Shape := ⟨2, ![64, 1024]⟩
abbrev S64 : Shape := ⟨1, ![64]⟩
abbrev S64x1 : Shape := ⟨2, ![64, 1]⟩

abbrev nBuf : Space → Nat
  | .hbm => 27
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x8192, .f32⟩
  | .hbm, ⟨4, _⟩ => ⟨S2048x8192, .f32⟩
  | .hbm, ⟨5, _⟩ => ⟨S8192, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S4096x2048, .bf16⟩
  | .hbm, ⟨14, _⟩ => ⟨S4096x2048, .bf16⟩
  | .hbm, ⟨15, _⟩ => ⟨S2048x8192, .bf16⟩
  | .hbm, ⟨16, _⟩ => ⟨S2048x8192, .bf16⟩
  | .hbm, ⟨17, _⟩ => ⟨S1x8192, .f32⟩
  | .hbm, ⟨18, _⟩ => ⟨S1x8192, .f32⟩
  | .hbm, ⟨19, _⟩ => ⟨S1x8192, .f32⟩
  | .hbm, ⟨20, _⟩ => ⟨S1x8192, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S4096x2048, .f32⟩
  | .hbm, ⟨26, _⟩ => ⟨S4096x2048, .f32⟩
  | .local _ .vmem, ⟨0, _⟩ => ⟨S64x2048, .bf16⟩
  | .local _ .vmem, ⟨1, _⟩ => ⟨S64x2048, .bf16⟩
  | .local _ .vmem, ⟨2, _⟩ => ⟨S64x2048, .bf16⟩
  | .local _ .vmem, ⟨3, _⟩ => ⟨S64x2048, .bf16⟩
  | .local _ .vmem, ⟨4, _⟩ => ⟨S64x2048, .f32⟩
  | .local _ .vmem, ⟨5, _⟩ => ⟨S64x2048, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x8192, .f32⟩
  | .local _ .vmem, ⟨15, _⟩ => ⟨S1x8192, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S64x2048, .f32⟩
  | .local _ .vmem, ⟨21, _⟩ => ⟨S64x2048, .f32⟩
  | .local _ .vmem, ⟨22, _⟩ => ⟨S64x2048, .f32⟩
  | .local _ .vmem, ⟨23, _⟩ => ⟨S64x2048, .f32⟩
  | .local _ .vmem, ⟨24, _⟩ => ⟨S64x8192, .f32⟩
  | .local _ .vmem, ⟨25, _⟩ => ⟨S64x8192, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![64, 8], ![false, false]⟩

def k0_mult1 (i : grid0.Coords) : BitVec 32 :=
  let arg1 : BitVec 32 := BitVec.ofNat 32 (i 1).val
  let c1024_i32 : BitVec 32 := 1024#32
  let v18 : BitVec 32 := Scalar.muli arg1 c1024_i32
  v18
def k0_off1 (i : grid0.Coords) : Fin 2 → Nat :=
  let c0_12 : Index := 0#32
  let arg1 : BitVec 32 := BitVec.ofNat 32 (i 1).val
  let c1024_i32 : BitVec 32 := 1024#32
  let v18 : BitVec 32 := Scalar.muli arg1 c1024_i32
  let v19 : BitVec 32 := v18
  let v20 : Index := Scalar.indexCast v19
  ![0, v20.toNat]
def k0_cond1 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32 : BitVec 32 := 0#32
  let v30 : BitVec 1 := Scalar.cmpi .ne v29 c0_i32
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S64x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S64x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

class Facts₀ : Prop where
  bitsLt_bf16_f32 : FTy.bits .bf16 < FTy.bits .f32
  shapeCasts_S8192_S1x8192 : S8192.ShapeCasts S1x8192
  shapeCasts_S2048_S1x2048 : S2048.ShapeCasts S1x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  h_S64x1024 : 0 < S64x1024.numel
  shapeCasts_S64x1024_S64x1024 : S64x1024.ShapeCasts S64x1024
  inb_S64x8192_S64x8192_0_0 : ∀ a, (![0, 0] : Fin 2 → Nat) a + S64x8192.size a ≤ S64x8192.size a
  h_S64x8192 : 0 < S64x8192.numel
  reduces_S64x8192_S64 : S64x8192.Reduces [1] S64
  shapeCasts_S64_S64x1 : S64.ShapeCasts S64x1
  broadcasts_S64x1_S64x8192 : S64x1.Broadcasts S64x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S64x8192 : S1x8192.Broadcasts S64x8192
  slices_S64x8192_o0_0_S64x2048 : S64x8192.Slices ![0, 0] S64x2048
  slices_S64x8192_o0_2048_S64x2048 : S64x8192.Slices ![0, 2048] S64x2048
  slices_S64x8192_o0_4096_S64x2048 : S64x8192.Slices ![0, 4096] S64x2048
  slices_S64x8192_o0_6144_S64x2048 : S64x8192.Slices ![0, 6144] S64x2048
  reduces_S64x2048_S64 : S64x2048.Reduces [1] S64
  broadcasts_S64x1_S64x2048 : S64x1.Broadcasts S64x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  dot_S64x2048_S2048x1024_S64x1024_1_0_0_1_n_n_wf : DotDims.WF S64x2048 S2048x1024 S64x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S64x1024.size a ≤ S64x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S4096x2048.size a
  hwx0_0 : ∀ i : grid0.Coords, EltTy.bits .bf16 = 32 ∨ (Rect.block (s := S4096x2048) S64x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S4096x2048.size a
  hwx0_1 : ∀ i : grid0.Coords, EltTy.bits .bf16 = 32 ∨ (Rect.block (s := S4096x2048) S64x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S4096x2048.size a
  hwx0_2 : ∀ i : grid0.Coords, EltTy.bits .f32 = 32 ∨ (Rect.block (s := S4096x2048) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x8192.size a
  hwx0_3 : ∀ i : grid0.Coords, EltTy.bits .bf16 = 32 ∨ (Rect.block (s := S2048x8192) S2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x8192.size a
  hwx0_4 : ∀ i : grid0.Coords, EltTy.bits .bf16 = 32 ∨ (Rect.block (s := S2048x8192) S2048x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x8192.size a
  hwx0_6 : ∀ i : grid0.Coords, EltTy.bits .f32 = 32 ∨ (Rect.block (s := S1x8192) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8192.size a ≤ S1x8192.size a
  hwx0_7 : ∀ i : grid0.Coords, EltTy.bits .f32 = 32 ∨ (Rect.block (s := S1x8192) S1x8192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8192.size a ≤ S1x8192.size a
  hwx0_8 : ∀ i : grid0.Coords, EltTy.bits .f32 = 32 ∨ (Rect.block (s := S1x8192) S1x8192.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2048.size a ≤ S1x2048.size a
  hwx0_11 : ∀ i : grid0.Coords, EltTy.bits .f32 = 32 ∨ (Rect.block (s := S1x2048) S1x2048.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2048.size a ≤ S1x2048.size a
  hwx0_12 : ∀ i : grid0.Coords, EltTy.bits .f32 = 32 ∨ (Rect.block (s := S1x2048) S1x2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S64x2048.size a ≤ S4096x2048.size a
  hwx0_13 : ∀ i : grid0.Coords, EltTy.bits .f32 = 32 ∨ (Rect.block (s := S4096x2048) S64x2048.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S64x2048.size a ≤ S4096x2048.size a
  hwx0_14 : ∀ i : grid0.Coords, EltTy.bits .f32 = 32 ∨ (Rect.block (s := S4096x2048) S64x2048.size (cc0_transform_14 i) (hinb0_14 i)).WholeWords (EltTy.packing .f32)

variable [Facts₀]

def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf

abbrev win0_0 : Pipeline.Window sig grid0 :=
  Pipeline.Window.ofSpec (Memref.whole main_v0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x8192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x8192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12_0) S64x2048.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v12_1) S64x2048.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond1 i == 1#1) | 14 => fun i => !(k0_cond1 i == 1#1) | ⟨_ + 15, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x8192 : Shape := ⟨2, ![2048, 8192]⟩
abbrev S8192 : Shape := ⟨1, ![8192]⟩
abbrev S2048 : Shape := ⟨1, ![2048]⟩
abbrev S4096x8192 : Shape := ⟨2, ![4096, 8192]⟩
abbrev S1x8192 : Shape := ⟨2, ![1, 8192]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 143
  | .vmem => 0
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S2048x8192, .f32⟩
  | 4 => ⟨S2048x8192, .f32⟩
  | 5 => ⟨S8192, .f32⟩
  | 6 => ⟨S8192, .f32⟩
  | 7 => ⟨S8192, .f32⟩
  | 8 => ⟨S8192, .f32⟩
  | 9 => ⟨S2048, .f32⟩
  | 10 => ⟨S2048, .f32⟩
  | 11 => ⟨S2048, .f32⟩
  | 12 => ⟨S2048, .f32⟩
  | 13 => ⟨S4096x8192, .f32⟩
  | 14 => ⟨S1x8192, .f32⟩
  | 15 => ⟨S4096x8192, .f32⟩
  | 16 => ⟨S4096x8192, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S4096x8192, .f32⟩
  | 24 => ⟨S4096x8192, .f32⟩
  | 25 => ⟨S4096x8192, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S4096x8192, .f32⟩
  | 33 => ⟨S4096x8192, .f32⟩
  | 34 => ⟨S_, .f32⟩
  | 35 => ⟨S4096x1, .f32⟩
  | 36 => ⟨S4096x1, .f32⟩
  | 37 => ⟨S4096x1, .f32⟩
  | 38 => ⟨S4096x8192, .f32⟩
  | 39 => ⟨S4096x8192, .f32⟩
  | 40 => ⟨S1x8192, .f32⟩
  | 41 => ⟨S4096x8192, .f32⟩
  | 42 => ⟨S4096x8192, .f32⟩
  | 43 => ⟨S1x8192, .f32⟩
  | 44 => ⟨S4096x8192, .f32⟩
  | 45 => ⟨S4096x8192, .f32⟩
  | 46 => ⟨S4096x8192, .f32⟩
  | 47 => ⟨S1x8192, .f32⟩
  | 48 => ⟨S4096x8192, .f32⟩
  | 49 => ⟨S4096x8192, .f32⟩
  | 50 => ⟨S4096x8192, .f32⟩
  | 51 => ⟨S4096x2048, .f32⟩
  | 52 => ⟨S4096x2048, .f32⟩
  | 53 => ⟨S4096x2048, .f32⟩
  | 54 => ⟨S4096x2048, .f32⟩
  | 55 => ⟨S4096x2048, .f32⟩
  | 56 => ⟨S4096x2048, .f32⟩
  | 57 => ⟨S_, .f32⟩
  | 58 => ⟨S4096x2048, .f32⟩
  | 59 => ⟨S4096x2048, .f32⟩
  | 60 => ⟨S_, .f32⟩
  | 61 => ⟨S4096x2048, .f32⟩
  | 62 => ⟨S4096x2048, .f32⟩
  | 63 => ⟨S4096x2048, .f32⟩
  | 64 => ⟨S4096x2048, .f32⟩
  | 65 => ⟨S_, .f32⟩
  | 66 => ⟨S4096x2048, .f32⟩
  | 67 => ⟨S4096x2048, .f32⟩
  | 68 => ⟨S_, .f32⟩
  | 69 => ⟨S4096x2048, .f32⟩
  | 70 => ⟨S4096x2048, .f32⟩
  | 71 => ⟨S4096x2048, .f32⟩
  | 72 => ⟨S4096x2048, .f32⟩
  | 73 => ⟨S4096x2048, .f32⟩
  | 74 => ⟨S_, .f32⟩
  | 75 => ⟨S4096x2048, .f32⟩
  | 76 => ⟨S4096x2048, .f32⟩
  | 77 => ⟨S_, .f32⟩
  | 78 => ⟨S4096x2048, .f32⟩
  | 79 => ⟨S4096x2048, .f32⟩
  | 80 => ⟨S4096x2048, .f32⟩
  | 81 => ⟨S4096x2048, .f32⟩
  | 82 => ⟨S4096x2048, .f32⟩
  | 83 => ⟨S_, .f32⟩
  | 84 => ⟨S4096, .f32⟩
  | 85 => ⟨S4096x1, .f32⟩
  | 86 => ⟨S_, .f32⟩
  | 87 => ⟨S4096x1, .f32⟩
  | 88 => ⟨S4096x1, .f32⟩
  | 89 => ⟨S4096x2048, .f32⟩
  | 90 => ⟨S4096x2048, .f32⟩
  | 91 => ⟨S4096x2048, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S4096x2048, .f32⟩
  | 99 => ⟨S4096x2048, .f32⟩
  | 100 => ⟨S_, .f32⟩
  | 101 => ⟨S4096x1, .f32⟩
  | 102 => ⟨S4096x1, .f32⟩
  | 103 => ⟨S4096x1, .f32⟩
  | 104 => ⟨S4096x2048, .f32⟩
  | 105 => ⟨S4096x2048, .f32⟩
  | 106 => ⟨S1x2048, .f32⟩
  | 107 => ⟨S4096x2048, .f32⟩
  | 108 => ⟨S4096x2048, .f32⟩
  | 109 => ⟨S1x2048, .f32⟩
  | 110 => ⟨S4096x2048, .f32⟩
  | 111 => ⟨S4096x2048, .f32⟩
  | 112 => ⟨S4096x2048, .f32⟩
  | 113 => ⟨S4096x2048, .f32⟩
  | 114 => ⟨S_, .f32⟩
  | 115 => ⟨S4096, .f32⟩
  | 116 => ⟨S4096x1, .f32⟩
  | 117 => ⟨S_, .f32⟩
  | 118 => ⟨S4096x1, .f32⟩
  | 119 => ⟨S4096x1, .f32⟩
  | 120 => ⟨S4096x2048, .f32⟩
  | 121 => ⟨S4096x2048, .f32⟩
  | 122 => ⟨S4096x2048, .f32⟩
  | 123 => ⟨S_, .f32⟩
  | 124 => ⟨S4096, .f32⟩
  | 125 => ⟨S4096x1, .f32⟩
  | 126 => ⟨S_, .f32⟩
  | 127 => ⟨S4096x1, .f32⟩
  | _ => ⟨S4096x2048, .f32⟩

abbrev hbmTy0_1 (i : Nat) : BufTy := match i % 128 with
  | 0 => ⟨S4096x1, .f32⟩
  | 1 => ⟨S4096x2048, .f32⟩
  | 2 => ⟨S4096x2048, .f32⟩
  | 3 => ⟨S_, .f32⟩
  | 4 => ⟨S4096x1, .f32⟩
  | 5 => ⟨S4096x1, .f32⟩
  | 6 => ⟨S4096x1, .f32⟩
  | 7 => ⟨S4096x2048, .f32⟩
  | 8 => ⟨S4096x2048, .f32⟩
  | 9 => ⟨S1x2048, .f32⟩
  | 10 => ⟨S4096x2048, .f32⟩
  | 11 => ⟨S4096x2048, .f32⟩
  | 12 => ⟨S1x2048, .f32⟩
  | 13 => ⟨S4096x2048, .f32⟩
  | 14 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_15 : Ref sig .tc := ⟨.hbm, 114, rfl⟩
abbrev main_v85 : Ref sig .tc := ⟨.hbm, 115, rfl⟩
abbrev main_v86 : Ref sig .tc := ⟨.hbm, 116, rfl⟩
abbrev main_cst_16 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_17 : Ref sig .tc := ⟨.hbm, 123, rfl⟩
abbrev main_v92 : Ref sig .tc := ⟨.hbm, 124, rfl⟩
abbrev main_v93 : Ref sig .tc := ⟨.hbm, 125, rfl⟩
abbrev main_cst_18 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_19 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  reducesTo_S4096x8192_S4096_d1 : S4096x8192.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  reducesTo_S4096x2048_S4096_d1 : S4096x2048.ReducesTo [1] S4096
  bcast_S4096x1_S4096x2048_0_1 : S4096x1.BroadcastsInDim S4096x2048 (![0, 1] : Fin 2 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.Kernel.Data.lean ====
import proofs.«145959_j42855183680049_1_alg».proof.Proof.Gen.Kernel.Frame
import proofs.«145959_j42855183680049_1_alg».proof.Proof.Gen.Kernel.Skeleton
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Idealize.ShloMosaic.ValueIdx

variable (m : (ℓ : Loc nD τ sig) → Buf (Elt F) ℓ) (ρ : Dev nD → PrngReg)

/-! ## The blocks the body reads, at their literal types -/

/-- Input window 0's block at point `t`. -/
abbrev b0 (c : Dev nD) (t : Fin cfg0.N) : Vec F S64x2048 .bf16 := iblk m c 0 t
/-- Input window 1's block at point `t`. -/
abbrev b1 (c : Dev nD) (t : Fin cfg0.N) : Vec F S64x2048 .bf16 := iblk m c 1 t
/-- Input window 2's block at point `t`. -/
abbrev b2 (c : Dev nD) (t : Fin cfg0.N) : Vec F S64x2048 .f32 := iblk m c 2 t
/-- Input window 3's block at point `t`. -/
abbrev b3 (c : Dev nD) (t : Fin cfg0.N) : Vec F S2048x1024 .bf16 := iblk m c 3 t
/-- Input window 4's block at point `t`. -/
abbrev b4 (c : Dev nD) (t : Fin cfg0.N) : Vec F S2048x1024 .bf16 := iblk m c 4 t
/-- Input window 5's block at point `t`. -/
abbrev b5 (c : Dev nD) (t : Fin cfg0.N) : Vec F S1x1024 .f32 := iblk m c 5 t
/-- Input window 6's block at point `t`. -/
abbrev b6 (c : Dev nD) (t : Fin cfg0.N) : Vec F S1x1024 .f32 := iblk m c 6 t
/-- Input window 7's block at point `t`. -/
abbrev b7 (c : Dev nD) (t : Fin cfg0.N) : Vec F S1x8192 .f32 := iblk m c 7 t
/-- Input window 8's block at point `t`. -/
abbrev b8 (c : Dev nD) (t : Fin cfg0.N) : Vec F S1x8192 .f32 := iblk m c 8 t
/-- Input window 9's block at point `t`. -/
abbrev b9 (c : Dev nD) (t : Fin cfg0.N) : Vec F S1x2048 .f32 := iblk m c 9 t
/-- Input window 10's block at point `t`. -/
abbrev b10 (c : Dev nD) (t : Fin cfg0.N) : Vec F S1x2048 .f32 := iblk m c 10 t
/-- Input window 11's block at point `t`. -/
abbrev b11 (c : Dev nD) (t : Fin cfg0.N) : Vec F S1x2048 .f32 := iblk m c 11 t
/-- Input window 12's block at point `t`. -/
abbrev b12 (c : Dev nD) (t : Fin cfg0.N) : Vec F S1x2048 .f32 := iblk m c 12 t

theorem N512 : cfg0.N = 512 := N_0

/-- The point of `t`'s row block whose column tile is `g`: the first point of the row block plus `g`. -/
def tileAt (t : Fin cfg0.N) (g : ℕ) (hg : g < 8) : Fin cfg0.N :=
  ⟨t.val - t.val % 8 + g, by have := t.isLt; have := N512; omega⟩

/-- The column tile of the input path a point computes and stores: `x`'s row block times `W_ih`'s column tile, plus the
    bias tile (the body's first store's payload). -/
def xTile (c : Dev nD) (t : Fin cfg0.N) : Vec F S64x1024 .f32 := k0_pay1 (b0 m c t) (b3 m c t) (b5 m c t)
/-- The column tile of the hidden path a point computes and stores (the body's second store's payload). -/
def hTile (c : Dev nD) (t : Fin cfg0.N) : Vec F S64x1024 .f32 := k0_pay2 (b1 m c t) (b4 m c t) (b6 m c t)

/-- The whole input-path row block of point `t`'s batch tile: column `q` is column `q % 1024` of the tile the point
    of column tile `q / 1024` stored. -/
def xFull (c : Dev nD) (t : Fin cfg0.N) : Vec F S64x8192 .f32 := fun y =>
  xTile m c (tileAt t ((y 1).val / 1024) (by have := idx2_lt1 y; omega))
    (ix2 (n0 := 64) (n1 := 1024) ⟨(y 0).val, idx2_lt0 y⟩ ⟨(y 1).val % 1024, Nat.mod_lt _ (by norm_num)⟩)
/-- The whole hidden-path row block, likewise. -/
def hFull (c : Dev nD) (t : Fin cfg0.N) : Vec F S64x8192 .f32 := fun y =>
  hTile m c (tileAt t ((y 1).val / 1024) (by have := idx2_lt1 y; omega))
    (ix2 (n0 := 64) (n1 := 1024) ⟨(y 0).val, idx2_lt0 y⟩ ⟨(y 1).val % 1024, Nat.mod_lt _ (by norm_num)⟩)

/-- The divisor 2048 as the body's first part hands it to the second. -/
abbrev c2048 : F .f32 := Scalar.ofBits .f32 0x45000000#32

/-- The new cell row block before its LayerNorm, from the full scratch row blocks. -/
def cNewBlk (c : Dev nD) (t : Fin cfg0.N) : FVec F S64x2048 .f32 :=
  k0_pay6 (xFull m c t) (b7 m c t) (b8 m c t) (hFull m c t) (b2 m c t)
/-- Its lane sums. -/
def cSumBlk (c : Dev nD) (t : Fin cfg0.N) : FVec F S64x1 .f32 :=
  k0_pay7 (xFull m c t) (b7 m c t) (b8 m c t) (hFull m c t) (b2 m c t)
/-- The output gate's sigmoid. -/
def oGateBlk (c : Dev nD) (t : Fin cfg0.N) : FVec F S64x2048 .f32 :=
  k0_pay5 (xFull m c t) (b7 m c t) (b8 m c t) (hFull m c t)

/-- What the body stores into the c_t output block at the last column tile of a row block. -/
def outC (c : Dev nD) (t : Fin cfg0.N) : Vec F S64x2048 .f32 :=
  k0_pay8 (cNewBlk m c t) (cSumBlk m c t) c2048 (b9 m c t) (b10 m c t)
/-- What the body stores into the h_t output block there. -/
def outH (c : Dev nD) (t : Fin cfg0.N) : Vec F S64x2048 .f32 :=
  k0_pay3 (k0_pay9 (oGateBlk m c t) (cNewBlk m c t) (cSumBlk m c t) c2048 (b9 m c t) (b10 m c t)) (k0_pay10 (b11 m c t)) (b12 m c t)

/-! ## What the two scratch buffers hold between points -/

/-- Before point `n` the input-path scratch holds, in each column tile the row block has already stored (tiles
    `g < n % 8`), the tile that point stored; nothing is said of the other columns. -/
def InvX (c : Dev nD) (n : ℕ) (hn : n ≤ cfg0.N) (s : Vec F S64x8192 .f32) : Prop :=
  ∀ (g : ℕ) (hg : g < n % 8) (r : Fin 64) (j : Fin 1024),
    s (ix2 (n0 := 64) (n1 := 8192) r ⟨1024 * g + j.val, by have := j.isLt; omega⟩)
      = xTile m c ⟨n - n % 8 + g, by have := N512; omega⟩ (ix2 r j)
/-- The same of the hidden-path scratch. -/
def InvH (c : Dev nD) (n : ℕ) (hn : n ≤ cfg0.N) (s : Vec F S64x8192 .f32) : Prop :=
  ∀ (g : ℕ) (hg : g < n % 8) (r : Fin 64) (j : Fin 1024),
    s (ix2 (n0 := 64) (n1 := 8192) r ⟨1024 * g + j.val, by have := j.isLt; omega⟩)
      = hTile m c ⟨n - n % 8 + g, by have := N512; omega⟩ (ix2 r j)

/-- The scratch operands as memrefs. -/
abbrev scX : Memref sig .tc .vmem S64x8192 .f32 := Memref.whole cc0_scratch0
abbrev scH : Memref sig .tc .vmem S64x8192 .f32 := Memref.whole cc0_scratch1

/-- The region invariant before point `n`: the two scratch buffers at contents that satisfy the tile facts, and the
    generator register at some state. -/
def PhiS (c : Dev nD) (n : ℕ) (hn : n ≤ cfg0.N) : sProp 𝕄 :=
  iprop(iprop(∃ sx sh, ⌜InvX m c n hn sx ∧ InvH m c n hn sh⌝ ∗ owns (c : Thread nD τ) scX fullShare sx ∗ owns (c : Thread nD τ) scH fullShare sh) ∗ (∃ r, prngReg c r))

/-- The class invariant with the scratch operands as memrefs owned at some contents. -/
theorem PhiA0_eq (c : Dev nD) :
    (Pipeline.ΦA spec0 c : sProp 𝕄)
      = iprop(iprop((∃ d, owns (c : Thread nD τ) scX fullShare d) ∗ (∃ d, owns (c : Thread nD τ) scH fullShare d)) ∗ (∃ r, prngReg c r)) := by
  unfold Pipeline.ΦA; rw [scopedRest0_eq]; simp only [scX, scH, owns_whole]; try rfl

/-! ## The pipeline's proof data -/

/-- The proof data on core `c`: the arrays as the region finds them; after the body each input's buffer at its block and
    the two outputs at the named blocks; the invariant the scratch facts; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outH m c t
    | ⟨14, _⟩ => outC m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = outH m c t := by dsimp only [dats]
theorem after0_14 (c : Dev nD) (t : Fin cfg0.N) : (dats m 0 c).after 14 t = outC m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

theorem Phi_castSucc (c : Dev nD) (t : Fin cfg0.N) :
    (dats m 0 c).Φ t.castSucc = PhiS m c t.val (Nat.le_of_lt t.isLt) := by
  dsimp only [dats]; simp only [Fin.coe_castSucc]

theorem Phi_succ (c : Dev nD) (t : Fin cfg0.N) :
    (dats m 0 c).Φ t.succ = PhiS m c (t.val + 1) t.isLt := rfl

end Cert.Kernel.Body

end
-- ==== Proof.Kernel.Cases.lean ====
import proofs.«145959_j42855183680049_1_alg».proof.Proof.Gen.Kernel.Launch
import proofs.«145959_j42855183680049_1_alg».proof.Proof.Gen.Kernel.Points

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-! ## Facts decided once over the 512 grid points -/

/-- The body's one branch: taken at the last column tile of a row block. -/
abbrev condLast (i : grid0.Coords) : Prop := k0_cond1 i = 1#1

/-- It holds exactly at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- The column offset of the two scratch stores at a point: 1024 times the point's column tile. -/
theorem off_eq : ∀ t : Fin cfg0.N, k0_off1 (grid0.coords t) = ![0, 1024 * (t.val % 8)] :=
  (by decide +kernel : ∀ t : Fin grid0.N, k0_off1 (grid0.coords t) = ![0, 1024 * (t.val % 8)])

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel

/-- Where the branch is not taken the two outputs are idle and not written back. -/
theorem idleAt0_13 : ∀ t : Fin cfg0.N, ¬condLast (grid0.coords t) → cfg0.idle 13 (grid0.coords t) = true := by decide +kernel
theorem idleAt0_14 : ∀ t : Fin cfg0.N, ¬condLast (grid0.coords t) → cfg0.idle 14 (grid0.coords t) = true := by decide +kernel
theorem noFlush0_13 : ∀ t : Fin cfg0.N, ¬condLast (grid0.coords t) → (cfg0.win 13).flush t = false := by decide +kernel
theorem noFlush0_14 : ∀ t : Fin cfg0.N, ¬condLast (grid0.coords t) → (cfg0.win 14).flush t = false := by decide +kernel
/-- Where it is taken they are live. -/
theorem liveAt0_13 : ∀ t : Fin cfg0.N, condLast (grid0.coords t) → cfg0.idle 13 (grid0.coords t) = false := by decide +kernel
theorem liveAt0_14 : ∀ t : Fin cfg0.N, condLast (grid0.coords t) → cfg0.idle 14 (grid0.coords t) = false := by decide +kernel

end Cert.Kernel.Body

end
-- ==== Proof.Kernel.RunA.lean ====
import proofs.«145959_j42855183680049_1_alg».proof.Proof.Gen.Kernel.Frame
import proofs.«145959_j42855183680049_1_alg».proof.Proof.Gen.Kernel.Skeleton
import proofs.«145959_j42855183680049_1_alg».proof.Proof.Kernel.Cases
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

theorem hz2 : (![0, 0] : Fin 2 → Nat) = fun _ => 0 := funext fun a => by fin_cases a <;> rfl

set_option maxHeartbeats 1000000 in
/-- The body where the branch is not taken (every column tile of a row block but the last): on whole staging memrefs,
    the inputs at their blocks, the two outputs at contents handed back untouched, the two scratch buffers at contents
    `xs0`, `xs1`, the body runs to the continuation holding the scratch buffers with its stores written over those
    contents. The lists of stores are the witness the run finds. -/
noncomputable def kernelRunA (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : ¬condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    Σ' (LS0 : List (View.Piece (Elt F) S64x8192 .f32)), { LS1 : List (View.Piece (Elt F) S64x8192 .f32) //
      ∀ (xi13 xi14 : Vec F S64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xi13 ∗ owns (c : Thread nD τ) arg16 fullShare xi14 ∗ owns (c : Thread nD τ) arg17 fullShare xs0 ∗ owns (c : Thread nD τ) arg18 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xi13 ∗ owns (c : Thread nD τ) arg16 fullShare xi14 ∗ (arg17.view.loc (c : Thread nD τ) ↦[arg17.view.set]{fullShare} arg17.view.writes (Elt F) (harg17.unread xs0) LS0) ∗ (arg18.view.loc (c : Thread nD τ) ↦[arg18.view.set]{fullShare} arg18.view.writes (Elt F) (harg18.unread xs1) LS1)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun xi13 xi14 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hfs0; obtain rfl := harg18.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [HS0]
    · iexact HS0
    iexact HS1

/-- The one store into the input-path scratch: the point's tile at its column offset. -/
theorem runA_X (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : ¬condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 xs1).1
      = [⟨Rect.unit (s := S64x8192) (k0_off1 i) S64x1024.size (Facts₀.k0_off1_inb i), k0_pay1 x0 x3 x5⟩] := by
  unfold kernelRunA
  dsimp only
  simp only [View.readAt_eq_ld, harg2.read_unread, harg5.read_unread, harg7.read_unread, View.ld_unit_zero (S := S64x2048) hz2, View.ld_unit_zero (S := S2048x1024) hz2, View.ld_unit_zero (S := S1x1024) hz2, View.ld_unit_zero (S := S1x8192) hz2, View.ld_unit_zero (S := S1x2048) hz2, View.ld_unit_zero (S := S64x8192) hz2]

/-- The one store into the hidden-path scratch. -/
theorem runA_H (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : ¬condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 xs1).2.1
      = [⟨Rect.unit (s := S64x8192) (k0_off1 i) S64x1024.size (Facts₀.k0_off1_inb i), k0_pay2 x1 x4 x6⟩] := by
  unfold kernelRunA
  dsimp only
  simp only [View.readAt_eq_ld, harg3.read_unread, harg6.read_unread, harg8.read_unread, View.ld_unit_zero (S := S64x2048) hz2, View.ld_unit_zero (S := S2048x1024) hz2, View.ld_unit_zero (S := S1x1024) hz2, View.ld_unit_zero (S := S1x8192) hz2, View.ld_unit_zero (S := S1x2048) hz2, View.ld_unit_zero (S := S64x8192) hz2]

end Cert.Kernel.Body

end
-- ==== Proof.Kernel.RunB.lean ====
import proofs.«145959_j42855183680049_1_alg».proof.Proof.Gen.Kernel.Frame
import proofs.«145959_j42855183680049_1_alg».proof.Proof.Gen.Kernel.Skeleton
import proofs.«145959_j42855183680049_1_alg».proof.Proof.Kernel.Cases
import Idealize.ShloMosaic.Lib.Pipeline.Value
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

theorem hz2' : (![0, 0] : Fin 2 → Nat) = fun _ => 0 := funext fun a => by fin_cases a <;> rfl

set_option maxHeartbeats 1000000 in
/-- The body where the branch is taken (the last column tile of a row block): the two scratch stores, then the whole
    scratch buffers read back, the LayerNorms and the gating, and one whole-block store into each output. The lists of
    stores are the witness the run finds. -/
noncomputable def kernelRunB (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    Σ' (L13 : List (View.Piece (Elt F) S64x2048 .f32)) (L14 : List (View.Piece (Elt F) S64x2048 .f32)) (LS0 : List (View.Piece (Elt F) S64x8192 .f32)), { LS1 : List (View.Piece (Elt F) S64x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ owns (c : Thread nD τ) arg17 fullShare xs0 ∗ owns (c : Thread nD τ) arg18 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, (arg15.view.loc (c : Thread nD τ) ↦[arg15.view.set]{fullShare} arg15.view.writes (Elt F) f L13)) ∗ (∃ f, (arg16.view.loc (c : Thread nD τ) ↦[arg16.view.set]{fullShare} arg16.view.writes (Elt F) f L14)) ∗ (arg17.view.loc (c : Thread nD τ) ↦[arg17.view.set]{fullShare} arg17.view.writes (Elt F) (harg17.unread xs0) LS0) ∗ (arg18.view.loc (c : Thread nD τ) ↦[arg18.view.set]{fullShare} arg18.view.writes (Elt F) (harg18.unread xs1) LS1)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0__lstm_kernel_eq_skeleton]; unfold cc0__lstm_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg17.eq_unread hfs0; obtain rfl := harg18.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; iexact H13
    isplitl [H14]
    · iexists _; iexact H14
    isplitl [HS0]
    · iexact HS0
    iexact HS1

/-- The store into the input-path scratch. -/
theorem runB_X (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 xs1).2.2.1
      = [⟨Rect.unit (s := S64x8192) (k0_off1 i) S64x1024.size (Facts₀.k0_off1_inb i), k0_pay1 x0 x3 x5⟩] := by
  unfold kernelRunB
  dsimp only
  sl_unfold_words
  simp only [View.readAt_eq_ld, harg2.read_unread, harg5.read_unread, harg7.read_unread, View.ld_unit_zero (S := S64x2048) hz2', View.ld_unit_zero (S := S2048x1024) hz2', View.ld_unit_zero (S := S1x1024) hz2', View.ld_unit_zero (S := S1x8192) hz2', View.ld_unit_zero (S := S1x2048) hz2', View.ld_unit_zero (S := S64x8192) hz2']

/-- The store into the hidden-path scratch. -/
theorem runB_H (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 xs1).2.2.2.1
      = [⟨Rect.unit (s := S64x8192) (k0_off1 i) S64x1024.size (Facts₀.k0_off1_inb i), k0_pay2 x1 x4 x6⟩] := by
  unfold kernelRunB
  dsimp only
  sl_unfold_words
  simp only [View.readAt_eq_ld, harg3.read_unread, harg6.read_unread, harg8.read_unread, View.ld_unit_zero (S := S64x2048) hz2', View.ld_unit_zero (S := S2048x1024) hz2', View.ld_unit_zero (S := S1x1024) hz2', View.ld_unit_zero (S := S1x8192) hz2', View.ld_unit_zero (S := S1x2048) hz2', View.ld_unit_zero (S := S64x8192) hz2']

/-- The one whole-block store into the h_t output: the payload over the scratch buffers read back after this point's stores. -/
theorem runB_13 (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 xs1).1
      = [⟨Rect.unit (s := S64x2048) ![0, 0] S64x2048.size inb_S64x2048_S64x2048_0_0,
          k0_pay3 (k0_pay9 (k0_pay5 (arg17.view.read (Elt F) (arg17.view.writes (Elt F) (harg17.unread xs0) [⟨Rect.unit (s := S64x8192) (k0_off1 i) S64x1024.size (Facts₀.k0_off1_inb i), k0_pay1 x0 x3 x5⟩])) x7 x8 (arg18.view.read (Elt F) (arg18.view.writes (Elt F) (harg18.unread xs1) [⟨Rect.unit (s := S64x8192) (k0_off1 i) S64x1024.size (Facts₀.k0_off1_inb i), k0_pay2 x1 x4 x6⟩]))) (k0_pay6 (arg17.view.read (Elt F) (arg17.view.writes (Elt F) (harg17.unread xs0) [⟨Rect.unit (s := S64x8192) (k0_off1 i) S64x1024.size (Facts₀.k0_off1_inb i), k0_pay1 x0 x3 x5⟩])) x7 x8 (arg18.view.read (Elt F) (arg18.view.writes (Elt F) (harg18.unread xs1) [⟨Rect.unit (s := S64x8192) (k0_off1 i) S64x1024.size (Facts₀.k0_off1_inb i), k0_pay2 x1 x4 x6⟩])) x2) (k0_pay7 (arg17.view.read (Elt F) (arg17.view.writes (Elt F) (harg17.unread xs0) [⟨Rect.unit (s := S64x8192) (k0_off1 i) S64x1024.size (Facts₀.k0_off1_inb i), k0_pay1 x0 x3 x5⟩])) x7 x8 (arg18.view.read (Elt F) (arg18.view.writes (Elt F) (harg18.unread xs1) [⟨Rect.unit (s := S64x8192) (k0_off1 i) S64x1024.size (Facts₀.k0_off1_inb i), k0_pay2 x1 x4 x6⟩])) x2) (Scalar.ofBits .f32 0x45000000#32) x9 x10) (k0_pay10 x11) x12⟩] := by
  unfold kernelRunB
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S64x2048) hz2', View.ld_unit_zero (S := S2048x1024) hz2', View.ld_unit_zero (S := S1x1024) hz2', View.ld_unit_zero (S := S1x8192) hz2', View.ld_unit_zero (S := S1x2048) hz2', View.ld_unit_zero (S := S64x8192) hz2']

/-- The one whole-block store into the c_t output. -/
theorem runB_14 (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 xs1).2.1
      = [⟨Rect.unit (s := S64x2048) ![0, 0] S64x2048.size inb_S64x2048_S64x2048_0_0,
          k0_pay8 (k0_pay6 (arg17.view.read (Elt F) (arg17.view.writes (Elt F) (harg17.unread xs0) [⟨Rect.unit (s := S64x8192) (k0_off1 i) S64x1024.size (Facts₀.k0_off1_inb i), k0_pay1 x0 x3 x5⟩])) x7 x8 (arg18.view.read (Elt F) (arg18.view.writes (Elt F) (harg18.unread xs1) [⟨Rect.unit (s := S64x8192) (k0_off1 i) S64x1024.size (Facts₀.k0_off1_inb i), k0_pay2 x1 x4 x6⟩])) x2) (k0_pay7 (arg17.view.read (Elt F) (arg17.view.writes (Elt F) (harg17.unread xs0) [⟨Rect.unit (s := S64x8192) (k0_off1 i) S64x1024.size (Facts₀.k0_off1_inb i), k0_pay1 x0 x3 x5⟩])) x7 x8 (arg18.view.read (Elt F) (arg18.view.writes (Elt F) (harg18.unread xs1) [⟨Rect.unit (s := S64x8192) (k0_off1 i) S64x1024.size (Facts₀.k0_off1_inb i), k0_pay2 x1 x4 x6⟩])) x2) (Scalar.ofBits .f32 0x45000000#32) x9 x10⟩] := by
  unfold kernelRunB
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S64x2048) hz2', View.ld_unit_zero (S := S2048x1024) hz2', View.ld_unit_zero (S := S1x1024) hz2', View.ld_unit_zero (S := S1x8192) hz2', View.ld_unit_zero (S := S1x2048) hz2', View.ld_unit_zero (S := S64x8192) hz2']

/-- One whole-block store reads back as its payload, whatever the buffer held. -/
theorem read_whole_store {κ : Kind} {sp : Space} (v : View sig κ sp S64x2048 .f32) (f : v.ty.Contents (Elt F)) (w : Vec F S64x2048 .f32) :
    v.read (Elt F) (v.writes (Elt F) f [⟨Rect.unit (s := S64x2048) ![0, 0] S64x2048.size inb_S64x2048_S64x2048_0_0, w⟩]) = w := by
  funext y
  have h := View.read_writes_cons_unit_of_mem v f (off := ![0, 0]) (off' := ![0, 0]) (size := S64x2048.size) inb_S64x2048_S64x2048_0_0 w [] y y rfl
    (fun a => by fin_cases a <;> simp)
  exact h

end Cert.Kernel.Body

end
-- ==== Proof.Kernel.Inv.lean ====
import proofs.«145959_j42855183680049_1_alg».proof.Proof.Kernel.Data
import proofs.«145959_j42855183680049_1_alg».proof.Proof.Kernel.Cases
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Idealize.ShloMosaic.ValueIdx

variable (m : (ℓ : Loc nD τ sig) → Buf (Elt F) ℓ)

/-- The piece a point's store into a scratch buffer leaves: a 64 × 1024 tile at the point's column offset. -/
abbrev tilePiece (i : grid0.Coords) (w : Vec F S64x1024 .f32) : View.Piece (Elt F) S64x8192 .f32 :=
  ⟨Rect.unit (s := S64x8192) (k0_off1 i) S64x1024.size (Facts₀.k0_off1_inb i), w⟩

/-! ## One store read at an index

The buffer after point `t`'s store is read through the list of writes, whose one piece is the point's tile at columns
`[1024 * (t % 8), 1024 * (t % 8) + 1024)`: under the piece the payload, beside it what the buffer held. -/

/-- Under the newest tile: column `1024 * (t % 8) + j` of the buffer after point `t`'s store is column `j` of the stored
tile. -/
theorem read_tile_new (t : Fin cfg0.N) (a : Memref sig .tc .vmem S64x8192 .f32) (ha : a.IsWhole)
    (s : Vec F S64x8192 .f32) (w : Vec F S64x1024 .f32) (r : Fin 64) (q : Fin 8192) (j : Fin 1024)
    (hq : q.val = 1024 * (t.val % 8) + j.val) :
    a.view.read (Elt F) (a.view.writes (Elt F) (ha.unread s) [tilePiece (grid0.coords t) w])
        (ix2 (n0 := 64) (n1 := 8192) r q)
      = w (ix2 r j) :=
  View.read_writes_cons_unit_of_mem a.view (ha.unread s) (Facts₀.k0_off1_inb (grid0.coords t)) w []
    (ix2 (n0 := 64) (n1 := 8192) r q) (ix2 r j) (off_eq t)
    (Fin.forall_fin_two.mpr ⟨(Nat.zero_add _).symm, hq⟩)

/-- Beside the newest tile: a column outside `[1024 * (t % 8), 1024 * (t % 8) + 1024)` keeps what the buffer held. -/
theorem read_tile_old (t : Fin cfg0.N) (a : Memref sig .tc .vmem S64x8192 .f32) (ha : a.IsWhole)
    (s : Vec F S64x8192 .f32) (w : Vec F S64x1024 .f32) (r : Fin 64) (q : Fin 8192)
    (hq : q.val < 1024 * (t.val % 8) ∨ 1024 * (t.val % 8) + 1024 ≤ q.val) :
    a.view.read (Elt F) (a.view.writes (Elt F) (ha.unread s) [tilePiece (grid0.coords t) w])
        (ix2 (n0 := 64) (n1 := 8192) r q)
      = s (ix2 r q) := by
  rw [View.read_writes_cons_unit_of_not_mem a.view (ha.unread s) (Facts₀.k0_off1_inb (grid0.coords t)) w []
    (ix2 (n0 := 64) (n1 := 8192) r q) (off_eq t) (1 : Fin 2) hq, View.writes_nil, ha.read_unread]

/-! ## The tile facts, for any family of tiles

Both scratch buffers are filled the same way, so the three facts are shown once for a family `T` of tiles, one per
point, and used at the input path's and at the hidden path's tiles. Within a row block the points are consecutive:
when `(t + 1) % 8 ≠ 0`, point `t + 1` has the same first point `t - t % 8` as point `t` and column tile `t % 8 + 1`. -/

/-- One point's store extends the tile facts by the point's own tile: column tile `t % 8` is read under the new piece,
the column tiles before it beside the piece, where the facts before the store speak. -/
theorem tile_step (T : Fin cfg0.N → Vec F S64x1024 .f32) (t : Fin cfg0.N)
    (a : Memref sig .tc .vmem S64x8192 .f32) (ha : a.IsWhole) (s : Vec F S64x8192 .f32)
    (h : ∀ (g : ℕ) (hg : g < t.val % 8) (r : Fin 64) (j : Fin 1024),
      s (ix2 (n0 := 64) (n1 := 8192) r ⟨1024 * g + j.val, by have := j.isLt; omega⟩)
        = T ⟨t.val - t.val % 8 + g, by have := t.isLt; have := N512; omega⟩ (ix2 r j))
    (g : ℕ) (hg : g < (t.val + 1) % 8) (r : Fin 64) (j : Fin 1024) :
    a.view.read (Elt F) (a.view.writes (Elt F) (ha.unread s) [tilePiece (grid0.coords t) (T t)])
        (ix2 (n0 := 64) (n1 := 8192) r ⟨1024 * g + j.val, by have := j.isLt; omega⟩)
      = T ⟨t.val + 1 - (t.val + 1) % 8 + g, by have := t.isLt; have := N512; omega⟩ (ix2 r j) := by
  by_cases hgt : g = t.val % 8
  · -- the point's own column tile
    refine (read_tile_new t a ha s (T t) r _ j (by show 1024 * g + j.val = 1024 * (t.val % 8) + j.val; omega)).trans ?_
    exact congrArg (fun u => T u (ix2 r j)) (Fin.ext (by show t.val = t.val + 1 - (t.val + 1) % 8 + g; omega))
  · -- an earlier column tile of the same row block
    have hlt : g < t.val % 8 := by omega
    refine (read_tile_old t a ha s (T t) r _ (Or.inl (by
      show 1024 * g + j.val < 1024 * (t.val % 8)
      have := j.isLt; omega))).trans ?_
    refine (h g hlt r j).trans ?_
    exact congrArg (fun u => T u (ix2 r j))
      (Fin.ext (by show t.val - t.val % 8 + g = t.val + 1 - (t.val + 1) % 8 + g; omega))

/-- At the last column tile of a row block, after the store, every column tile `g` holds the tile the point of that
column tile stored. -/
theorem tile_full_at (T : Fin cfg0.N → Vec F S64x1024 .f32) (t : Fin cfg0.N) (h7 : t.val % 8 = 7)
    (a : Memref sig .tc .vmem S64x8192 .f32) (ha : a.IsWhole) (s : Vec F S64x8192 .f32)
    (h : ∀ (g : ℕ) (hg : g < t.val % 8) (r : Fin 64) (j : Fin 1024),
      s (ix2 (n0 := 64) (n1 := 8192) r ⟨1024 * g + j.val, by have := j.isLt; omega⟩)
        = T ⟨t.val - t.val % 8 + g, by have := t.isLt; have := N512; omega⟩ (ix2 r j))
    (g : ℕ) (hg : g < 8) (r : Fin 64) (j : Fin 1024) :
    a.view.read (Elt F) (a.view.writes (Elt F) (ha.unread s) [tilePiece (grid0.coords t) (T t)])
        (ix2 (n0 := 64) (n1 := 8192) r ⟨1024 * g + j.val, by have := j.isLt; omega⟩)
      = T (tileAt t g hg) (ix2 r j) := by
  by_cases hg7 : g = 7
  · -- the last column tile is the point's own
    refine (read_tile_new t a ha s (T t) r _ j (by show 1024 * g + j.val = 1024 * (t.val % 8) + j.val; omega)).trans ?_
    exact congrArg (fun u => T u (ix2 r j)) (Fin.ext (by show t.val = t.val - t.val % 8 + g; omega))
  · -- the seven before it were stored by the row block's earlier points
    have hlt : g < t.val % 8 := by omega
    refine (read_tile_old t a ha s (T t) r _ (Or.inl (by
      show 1024 * g + j.val < 1024 * (t.val % 8)
      have := j.isLt; omega))).trans ?_
    exact h g hlt r j

/-- So the buffer after the store is, column by column, the tiles of the row block's eight points: column `q` lies in
column tile `q / 1024` at column `q % 1024`. -/
theorem tile_full (T : Fin cfg0.N → Vec F S64x1024 .f32) (t : Fin cfg0.N) (h7 : t.val % 8 = 7)
    (a : Memref sig .tc .vmem S64x8192 .f32) (ha : a.IsWhole) (s : Vec F S64x8192 .f32)
    (h : ∀ (g : ℕ) (hg : g < t.val % 8) (r : Fin 64) (j : Fin 1024),
      s (ix2 (n0 := 64) (n1 := 8192) r ⟨1024 * g + j.val, by have := j.isLt; omega⟩)
        = T ⟨t.val - t.val % 8 + g, by have := t.isLt; have := N512; omega⟩ (ix2 r j))
    (y : S64x8192.Idx) :
    a.view.read (Elt F) (a.view.writes (Elt F) (ha.unread s) [tilePiece (grid0.coords t) (T t)]) y
      = T (tileAt t ((y 1).val / 1024) (by have := idx2_lt1 y; omega))
          (ix2 (n0 := 64) (n1 := 1024) ⟨(y 0).val, idx2_lt0 y⟩ ⟨(y 1).val % 1024, Nat.mod_lt _ (by norm_num)⟩) := by
  have hy1 := idx2_lt1 y
  have hy : y = ix2 (n0 := 64) (n1 := 8192) ⟨(y 0).val, idx2_lt0 y⟩
      ⟨1024 * ((y 1).val / 1024) + (y 1).val % 1024, by omega⟩ := by
    funext d
    match d with
    | ⟨0, _⟩ => rfl
    | ⟨1, _⟩ => exact Fin.ext (by show (y 1).val = 1024 * ((y 1).val / 1024) + (y 1).val % 1024; omega)
  exact (congrArg (a.view.read (Elt F)
      (a.view.writes (Elt F) (ha.unread s) [tilePiece (grid0.coords t) (T t)])) hy).trans
    (tile_full_at T t h7 a ha s h ((y 1).val / 1024) (by omega) ⟨(y 0).val, idx2_lt0 y⟩
      ⟨(y 1).val % 1024, Nat.mod_lt _ (by norm_num)⟩)

/-! ## The two scratch buffers -/

/-- At the first column tile of a row block nothing is claimed of the scratch. -/
theorem InvX_zero (c : Dev nD) (n : ℕ) (hn : n ≤ cfg0.N) (h0 : n % 8 = 0) (s : Vec F S64x8192 .f32) : InvX m c n hn s := by
  intro g hg r j
  exact absurd hg (by omega)
theorem InvH_zero (c : Dev nD) (n : ℕ) (hn : n ≤ cfg0.N) (h0 : n % 8 = 0) (s : Vec F S64x8192 .f32) : InvH m c n hn s := by
  intro g hg r j
  exact absurd hg (by omega)

/-- One point's store extends the tile facts by the point's own tile. -/
theorem InvX_step (c : Dev nD) (t : Fin cfg0.N) (a : Memref sig .tc .vmem S64x8192 .f32) (ha : a.IsWhole) (s : Vec F S64x8192 .f32)
    (h : InvX m c t.val (Nat.le_of_lt t.isLt) s) :
    InvX m c (t.val + 1) t.isLt
      (a.view.read (Elt F) (a.view.writes (Elt F) (ha.unread s) [tilePiece (grid0.coords t) (xTile m c t)])) := by
  intro g hg r j
  exact tile_step (xTile m c) t a ha s h g hg r j
theorem InvH_step (c : Dev nD) (t : Fin cfg0.N) (a : Memref sig .tc .vmem S64x8192 .f32) (ha : a.IsWhole) (s : Vec F S64x8192 .f32)
    (h : InvH m c t.val (Nat.le_of_lt t.isLt) s) :
    InvH m c (t.val + 1) t.isLt
      (a.view.read (Elt F) (a.view.writes (Elt F) (ha.unread s) [tilePiece (grid0.coords t) (hTile m c t)])) := by
  intro g hg r j
  exact tile_step (hTile m c) t a ha s h g hg r j

/-- At the last column tile of a row block, after the point's store, the scratch IS the whole row block. -/
theorem xFull_of_inv (c : Dev nD) (t : Fin cfg0.N) (h7 : t.val % 8 = 7) (a : Memref sig .tc .vmem S64x8192 .f32) (ha : a.IsWhole)
    (s : Vec F S64x8192 .f32) (h : InvX m c t.val (Nat.le_of_lt t.isLt) s) :
    a.view.read (Elt F) (a.view.writes (Elt F) (ha.unread s) [tilePiece (grid0.coords t) (xTile m c t)]) = xFull m c t := by
  funext y
  exact tile_full (xTile m c) t h7 a ha s h y
theorem hFull_of_inv (c : Dev nD) (t : Fin cfg0.N) (h7 : t.val % 8 = 7) (a : Memref sig .tc .vmem S64x8192 .f32) (ha : a.IsWhole)
    (s : Vec F S64x8192 .f32) (h : InvH m c t.val (Nat.le_of_lt t.isLt) s) :
    a.view.read (Elt F) (a.view.writes (Elt F) (ha.unread s) [tilePiece (grid0.coords t) (hTile m c t)]) = hFull m c t := by
  funext y
  exact tile_full (hTile m c) t h7 a ha s h y

end Cert.Kernel.Body

end
-- ==== Proof.Kernel.Body.lean ====
import proofs.«145959_j42855183680049_1_alg».proof.Proof.Kernel.Data
import proofs.«145959_j42855183680049_1_alg».proof.Proof.Kernel.Cases
import proofs.«145959_j42855183680049_1_alg».proof.Proof.Kernel.RunA
import proofs.«145959_j42855183680049_1_alg».proof.Proof.Kernel.RunB
import proofs.«145959_j42855183680049_1_alg».proof.Proof.Kernel.Inv

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen Idealize.ShloMosaic.ValueIdx

variable (m : (ℓ : Loc nD τ sig) → Buf (Elt F) ℓ) (ρ : Dev nD → PrngReg)

/-! ## The staging memrefs the pipeline passes the body at a point -/

abbrev ms0_0 (t : Fin cfg0.N) : Memref sig .tc .vmem S64x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8192 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8192 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2048 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S64x2048 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S64x2048 .f32 := win0_14.stage (cfg0.slots t 14)
abbrev hs0_14 (t : Fin cfg0.N) : (ms0_14 t).IsWhole := hstage0_14 ((cfg0.slots t 14).cast nbuf0_14)

/-! ## The body obligation at a generic point -/

/-- What the body is called with at point `t`: the invariant, nothing owed, every window's current buffer at what the
    pipeline's bookkeeping says it holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 3200000 in
/-- The body at any point. The inputs' memrefs hold their blocks; the invariant hands the body the two scratch buffers at
    contents with the tile facts of the columns already stored in this row block. Where the point is not the last column
    tile of its row block the body only stores its two tiles, which extends the tile facts by one tile, and leaves the
    outputs untouched. At the last column tile the scratch buffers, read back after the stores, ARE the full row blocks,
    so what the body stores into the two outputs is the named blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [Phi_succ m c t, Phi_castSucc m c t]
  unfold PhiS
  by_cases h7 : t.val % 8 = 7
  · have hc : condLast (grid0.coords t) := (hcondLast t).mpr h7
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t hc], after0_13]
    rw [show (dats m 0 c).leavesExact 14 t = owns (c : Thread nD τ) (ms0_14 t) fullShare ((dats m 0 c).after 14 t) from by
      unfold Dat.leavesExact; rw [liveAt0_14 t hc], after0_14]
    iintro ⟨⟨⟨%sx, %sh, %hinv, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRunB c (grid0.coords t) _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) sx sh).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, H11, H12, ⟨%e13, H13⟩, ⟨%e14, H14⟩, HS0, HS1⟩
    isplitl [HS0 HS1 Hg]
    · isplitl [HS0 HS1]
      · iexists _, _
        isplitr
        swap
        · isplitl [HS0]
          · unfold owns; iexists _; isplitr
            swap; · iexact HS0
            ipureintro; rfl
          · unfold owns; iexists _; isplitr
            swap; · iexact HS1
            ipureintro; rfl
        ipureintro
        refine ⟨?_, ?_⟩
        · rw [runB_X]; exact InvX_step m c t _ _ sx hinv.1
        · rw [runB_H]; exact InvH_step m c t _ _ sh hinv.2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro
      rw [runB_13, read_whole_store]
      have hX := xFull_of_inv m c t h7 scX (Memref.isWhole_whole _) sx hinv.1
      have hH := hFull_of_inv m c t h7 scH (Memref.isWhole_whole _) sh hinv.2
      unfold tilePiece xTile at hX
      unfold tilePiece hTile at hH
      rw [hX, hH]
      rfl
    · unfold owns; iexists _; isplitr
      swap; · iexact H14
      ipureintro
      rw [runB_14, read_whole_store]
      have hX := xFull_of_inv m c t h7 scX (Memref.isWhole_whole _) sx hinv.1
      have hH := hFull_of_inv m c t h7 scH (Memref.isWhole_whole _) sh hinv.2
      unfold tilePiece xTile at hX
      unfold tilePiece hTile at hH
      rw [hX, hH]
      rfl
  · have hc : ¬condLast (grid0.coords t) := fun h => h7 ((hcondLast t).mp h)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [Dat.leavesExact_idle (dats m 0 c) 13 t (idleAt0_13 t hc) (noFlush0_13 t hc)]
    rw [Dat.leavesExact_idle (dats m 0 c) 14 t (idleAt0_14 t hc) (noFlush0_14 t hc)]
    iintro ⟨⟨⟨%sx, %sh, %hinv, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRunA c (grid0.coords t) _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) sx sh).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    iintro ⟨H0, H1, H2, H3, H4, H5, H6, H7, H8, H9, H10, H11, H12, H13, H14, HS0, HS1⟩
    isplitl [HS0 HS1 Hg]
    · isplitl [HS0 HS1]
      · iexists _, _
        isplitr
        swap
        · isplitl [HS0]
          · unfold owns; iexists _; isplitr
            swap; · iexact HS0
            ipureintro; rfl
          · unfold owns; iexists _; isplitr
            swap; · iexact HS1
            ipureintro; rfl
        ipureintro
        refine ⟨?_, ?_⟩
        · rw [runA_X]; exact InvX_step m c t _ _ sx hinv.1
        · rw [runA_H]; exact InvH_step m c t _ _ sh hinv.2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    iexists _; iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is claimed of the scratch there. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%sx, HS0⟩, ⟨%sh, HS1⟩⟩, Hg⟩
  isplitl [HS0 HS1]
  · iexists sx, sh
    isplitr
    · ipureintro; exact ⟨InvX_zero m c 0 _ rfl sx, InvH_zero m c 0 _ rfl sh⟩
    isplitl [HS0]
    · iexact HS0
    iexact HS1
  iexact Hg

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨⟨%sx, %sh, -, HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has every array of the pipeline at what the
    library computes from the proof data (an input its entry contents, an output those overwritten by the named blocks at
    each write-back) and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any float instance: the run's post read at the argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Body

end
-- ==== Proof.KernelIdeal.Data.lean ====
import proofs.«145959_j42855183680049_1_alg».proof.Proof.Gen.KernelIdeal.Frame
import proofs.«145959_j42855183680049_1_alg».proof.Proof.Gen.KernelIdeal.Skeleton
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Idealize.ShloMosaic.ValueIdx

variable (m : (ℓ : Loc nD τ sig) → Buf (Elt F) ℓ) (ρ : Dev nD → PrngReg)

/-! ## The blocks the body reads, at their literal types -/

/-- Input window 0's block at point `t`. -/
abbrev b0 (c : Dev nD) (t : Fin cfg0.N) : Vec F S64x2048 .bf16 := iblk m c 0 t
/-- Input window 1's block at point `t`. -/
abbrev b1 (c : Dev nD) (t : Fin cfg0.N) : Vec F S64x2048 .bf16 := iblk m c 1 t
/-- Input window 2's block at point `t`. -/
abbrev b2 (c : Dev nD) (t : Fin cfg0.N) : Vec F S64x2048 .f32 := iblk m c 2 t
/-- Input window 3's block at point `t`. -/
abbrev b3 (c : Dev nD) (t : Fin cfg0.N) : Vec F S2048x1024 .bf16 := iblk m c 3 t
/-- Input window 4's block at point `t`. -/
abbrev b4 (c : Dev nD) (t : Fin cfg0.N) : Vec F S2048x1024 .bf16 := iblk m c 4 t
/-- Input window 5's block at point `t`. -/
abbrev b5 (c : Dev nD) (t : Fin cfg0.N) : Vec F S1x1024 .f32 := iblk m c 5 t
/-- Input window 6's block at point `t`. -/
abbrev b6 (c : Dev nD) (t : Fin cfg0.N) : Vec F S1x1024 .f32 := iblk m c 6 t
/-- Input window 7's block at point `t`. -/
abbrev b7 (c : Dev nD) (t : Fin cfg0.N) : Vec F S1x8192 .f32 := iblk m c 7 t
/-- Input window 8's block at point `t`. -/
abbrev b8 (c : Dev nD) (t : Fin cfg0.N) : Vec F S1x8192 .f32 := iblk m c 8 t
/-- Input window 9's block at point `t`. -/
abbrev b9 (c : Dev nD) (t : Fin cfg0.N) : Vec F S1x2048 .f32 := iblk m c 9 t
/-- Input window 10's block at point `t`. -/
abbrev b10 (c : Dev nD) (t : Fin cfg0.N) : Vec F S1x2048 .f32 := iblk m c 10 t
/-- Input window 11's block at point `t`. -/
abbrev b11 (c : Dev nD) (t : Fin cfg0.N) : Vec F S1x2048 .f32 := iblk m c 11 t
/-- Input window 12's block at point `t`. -/
abbrev b12 (c : Dev nD) (t : Fin cfg0.N) : Vec F S1x2048 .f32 := iblk m c 12 t

theorem N512 : cfg0.N = 512 := N_0

/-- The point of `t`'s row block whose column tile is `g`: the first point of the row block plus `g`. -/
def tileAt (t : Fin cfg0.N) (g : ℕ) (hg : g < 8) : Fin cfg0.N :=
  ⟨t.val - t.val % 8 + g, by have := t.isLt; have := N512; omega⟩

/-- The column tile of the input path a point computes and stores: `x`'s row block times `W_ih`'s column tile, plus the
    bias tile (the body's first store's payload). -/
def xTile (c : Dev nD) (t : Fin cfg0.N) : Vec F S64x1024 .f32 := k0_pay1 (b0 m c t) (b3 m c t) (b5 m c t)
/-- The column tile of the hidden path a point computes and stores (the body's second store's payload). -/
def hTile (c : Dev nD) (t : Fin cfg0.N) : Vec F S64x1024 .f32 := k0_pay2 (b1 m c t) (b4 m c t) (b6 m c t)

/-- The whole input-path row block of point `t`'s batch tile: column `q` is column `q % 1024` of the tile the point
    of column tile `q / 1024` stored. -/
def xFull (c : Dev nD) (t : Fin cfg0.N) : Vec F S64x8192 .f32 := fun y =>
  xTile m c (tileAt t ((y 1).val / 1024) (by have := idx2_lt1 y; omega))
    (ix2 (n0 := 64) (n1 := 1024) ⟨(y 0).val, idx2_lt0 y⟩ ⟨(y 1).val % 1024, Nat.mod_lt _ (by norm_num)⟩)
/-- The whole hidden-path row block, likewise. -/
def hFull (c : Dev nD) (t : Fin cfg0.N) : Vec F S64x8192 .f32 := fun y =>
  hTile m c (tileAt t ((y 1).val / 1024) (by have := idx2_lt1 y; omega))
    (ix2 (n0 := 64) (n1 := 1024) ⟨(y 0).val, idx2_lt0 y⟩ ⟨(y 1).val % 1024, Nat.mod_lt _ (by norm_num)⟩)

/-- The divisor 2048 as the body's first part hands it to the second. -/
abbrev c2048 : F .f32 := Scalar.ofBits .f32 0x45000000#32

/-- The new cell row block before its LayerNorm, from the full scratch row blocks. -/
def cNewBlk (c : Dev nD) (t : Fin cfg0.N) : FVec F S64x2048 .f32 :=
  k0_pay6 (xFull m c t) (b7 m c t) (b8 m c t) (hFull m c t) (b2 m c t)
/-- Its lane sums. -/
def cSumBlk (c : Dev nD) (t : Fin cfg0.N) : FVec F S64x1 .f32 :=
  k0_pay7 (xFull m c t) (b7 m c t) (b8 m c t) (hFull m c t) (b2 m c t)
/-- The output gate's sigmoid. -/
def oGateBlk (c : Dev nD) (t : Fin cfg0.N) : FVec F S64x2048 .f32 :=
  k0_pay5 (xFull m c t) (b7 m c t) (b8 m c t) (hFull m c t)

/-- What the body stores into the c_t output block at the last column tile of a row block. -/
def outC (c : Dev nD) (t : Fin cfg0.N) : Vec F S64x2048 .f32 :=
  k0_pay8 (cNewBlk m c t) (cSumBlk m c t) c2048 (b9 m c t) (b10 m c t)
/-- What the body stores into the h_t output block there. -/
def outH (c : Dev nD) (t : Fin cfg0.N) : Vec F S64x2048 .f32 :=
  k0_pay3 (k0_pay9 (oGateBlk m c t) (cNewBlk m c t) (cSumBlk m c t) c2048 (b9 m c t) (b10 m c t)) (k0_pay10 (b11 m c t)) (b12 m c t)

/-! ## What the two scratch buffers hold between points -/

/-- Before point `n` the input-path scratch holds, in each column tile the row block has already stored (tiles
    `g < n % 8`), the tile that point stored; nothing is said of the other columns. -/
def InvX (c : Dev nD) (n : ℕ) (hn : n ≤ cfg0.N) (s : Vec F S64x8192 .f32) : Prop :=
  ∀ (g : ℕ) (hg : g < n % 8) (r : Fin 64) (j : Fin 1024),
    s (ix2 (n0 := 64) (n1 := 8192) r ⟨1024 * g + j.val, by have := j.isLt; omega⟩)
      = xTile m c ⟨n - n % 8 + g, by have := N512; omega⟩ (ix2 r j)
/-- The same of the hidden-path scratch. -/
def InvH (c : Dev nD) (n : ℕ) (hn : n ≤ cfg0.N) (s : Vec F S64x8192 .f32) : Prop :=
  ∀ (g : ℕ) (hg : g < n % 8) (r : Fin 64) (j : Fin 1024),
    s (ix2 (n0 := 64) (n1 := 8192) r ⟨1024 * g + j.val, by have := j.isLt; omega⟩)
      = hTile m c ⟨n - n % 8 + g, by have := N512; omega⟩ (ix2 r j)

/-- The scratch operands as memrefs. -/
abbrev scX : Memref sig .tc .vmem S64x8192 .f32 := Memref.whole cc0_scratch0
abbrev scH : Memref sig .tc .vmem S64x8192 .f32 := Memref.whole cc0_scratch1

/-- The region invariant before point `n`: the two scratch buffers at contents that satisfy the tile facts, and the
    generator register at some state. -/
def PhiS (c : Dev nD) (n : ℕ) (hn : n ≤ cfg0.N) : sProp 𝕄 :=
  iprop(iprop(∃ sx sh, ⌜InvX m c n hn sx ∧ InvH m c n hn sh⌝ ∗ owns (c : Thread nD τ) scX fullShare sx ∗ owns (c : Thread nD τ) scH fullShare sh) ∗ (∃ r, prngReg c r))

/-- The class invariant with the scratch operands as memrefs owned at some contents. -/
theorem PhiA0_eq (c : Dev nD) :
    (Pipeline.ΦA spec0 c : sProp 𝕄)
      = iprop(iprop((∃ d, owns (c : Thread nD τ) scX fullShare d) ∗ (∃ d, owns (c : Thread nD τ) scH fullShare d)) ∗ (∃ r, prngReg c r)) := by
  unfold Pipeline.ΦA; rw [scopedRest0_eq]; simp only [scX, scH, owns_whole]; try rfl

/-! ## The pipeline's proof data -/

/-- The proof data on core `c`: the arrays as the region finds them; after the body each input's buffer at its block and
    the two outputs at the named blocks; the invariant the scratch facts; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outH m c t
    | ⟨14, _⟩ => outC m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = outH m c t := by dsimp only [dats]
theorem after0_14 (c : Dev nD) (t : Fin cfg0.N) : (dats m 0 c).after 14 t = outC m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

theorem Phi_castSucc (c : Dev nD) (t : Fin cfg0.N) :
    (dats m 0 c).Φ t.castSucc = PhiS m c t.val (Nat.le_of_lt t.isLt) := by
  dsimp only [dats]; simp only [Fin.coe_castSucc]

theorem Phi_succ (c : Dev nD) (t : Fin cfg0.N) :
    (dats m 0 c).Φ t.succ = PhiS m c (t.val + 1) t.isLt := rfl

end Cert.KernelIdeal.Body

end
-- ==== Proof.KernelIdeal.Cases.lean ====
import proofs.«145959_j42855183680049_1_alg».proof.Proof.Gen.KernelIdeal.Launch
import proofs.«145959_j42855183680049_1_alg».proof.Proof.Gen.KernelIdeal.Points

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-! ## Facts decided once over the 512 grid points -/

/-- The body's one branch: taken at the last column tile of a row block. -/
abbrev condLast (i : grid0.Coords) : Prop := k0_cond1 i = 1#1

/-- It holds exactly at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- The column offset of the two scratch stores at a point: 1024 times the point's column tile. -/
theorem off_eq : ∀ t : Fin cfg0.N, k0_off1 (grid0.coords t) = ![0, 1024 * (t.val % 8)] :=
  (by decide +kernel : ∀ t : Fin grid0.N, k0_off1 (grid0.coords t) = ![0, 1024 * (t.val % 8)])

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel

/-- Where the branch is not taken the two outputs are idle and not written back. -/
theorem idleAt0_13 : ∀ t : Fin cfg0.N, ¬condLast (grid0.coords t) → cfg0.idle 13 (grid0.coords t) = true := by decide +kernel
theorem idleAt0_14 : ∀ t : Fin cfg0.N, ¬condLast (grid0.coords t) → cfg0.idle 14 (grid0.coords t) = true := by decide +kernel
theorem noFlush0_13 : ∀ t : Fin cfg0.N, ¬condLast (grid0.coords t) → (cfg0.win 13).flush t = false := by decide +kernel
theorem noFlush0_14 : ∀ t : Fin cfg0.N, ¬condLast (grid0.coords t) → (cfg0.win 14).flush t = false := by decide +kernel
/-- Where it is taken they are live. -/
theorem liveAt0_13 : ∀ t : Fin cfg0.N, condLast (grid0.coords t) → cfg0.idle 13 (grid0.coords t) = false := by decide +kernel
theorem liveAt0_14 : ∀ t : Fin cfg0.N, condLast (grid0.coords t) → cfg0.idle 14 (grid0.coords t) = false := by decide +kernel

end Cert.KernelIdeal.Body

end
-- ==== Proof.KernelIdeal.RunA.lean ====
import proofs.«145959_j42855183680049_1_alg».proof.Proof.Gen.KernelIdeal.Frame
import proofs.«145959_j42855183680049_1_alg».proof.Proof.Gen.KernelIdeal.Skeleton
import proofs.«145959_j42855183680049_1_alg».proof.Proof.KernelIdeal.Cases
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

theorem hz2 : (![0, 0] : Fin 2 → Nat) = fun _ => 0 := funext fun a => by fin_cases a <;> rfl

set_option maxHeartbeats 1000000 in
/-- The body where the branch is not taken (every column tile of a row block but the last): on whole staging memrefs,
    the inputs at their blocks, the two outputs at contents handed back untouched, the two scratch buffers at contents
    `xs0`, `xs1`, the body runs to the continuation holding the scratch buffers with its stores written over those
    contents. The lists of stores are the witness the run finds. -/
noncomputable def kernelRunA (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : ¬condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    Σ' (LS0 : List (View.Piece (Elt F) S64x8192 .f32)), { LS1 : List (View.Piece (Elt F) S64x8192 .f32) //
      ∀ (xi13 xi14 : Vec F S64x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xi13 ∗ owns (c : Thread nD τ) arg16 fullShare xi14 ∗ owns (c : Thread nD τ) arg17 fullShare xs0 ∗ owns (c : Thread nD τ) arg18 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare xi13 ∗ owns (c : Thread nD τ) arg16 fullShare xi14 ∗ (arg17.view.loc (c : Thread nD τ) ↦[arg17.view.set]{fullShare} arg17.view.writes (Elt F) (harg17.unread xs0) LS0) ∗ (arg18.view.loc (c : Thread nD τ) ↦[arg18.view.set]{fullShare} arg18.view.writes (Elt F) (harg18.unread xs1) LS1)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun xi13 xi14 E K => ?run⟩
  case run =>
    simp only [cc0__lstm_kernel_eq_skeleton]; unfold cc0__lstm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hfs0; obtain rfl := harg18.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [HS0]
    · iexact HS0
    iexact HS1

/-- The one store into the input-path scratch: the point's tile at its column offset. -/
theorem runA_X (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : ¬condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 xs1).1
      = [⟨Rect.unit (s := S64x8192) (k0_off1 i) S64x1024.size (Facts₀.k0_off1_inb i), k0_pay1 x0 x3 x5⟩] := by
  unfold kernelRunA
  dsimp only
  simp only [View.readAt_eq_ld, harg2.read_unread, harg5.read_unread, harg7.read_unread, View.ld_unit_zero (S := S64x2048) hz2, View.ld_unit_zero (S := S2048x1024) hz2, View.ld_unit_zero (S := S1x1024) hz2, View.ld_unit_zero (S := S1x8192) hz2, View.ld_unit_zero (S := S1x2048) hz2, View.ld_unit_zero (S := S64x8192) hz2]

/-- The one store into the hidden-path scratch. -/
theorem runA_H (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : ¬condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 xs1).2.1
      = [⟨Rect.unit (s := S64x8192) (k0_off1 i) S64x1024.size (Facts₀.k0_off1_inb i), k0_pay2 x1 x4 x6⟩] := by
  unfold kernelRunA
  dsimp only
  simp only [View.readAt_eq_ld, harg3.read_unread, harg6.read_unread, harg8.read_unread, View.ld_unit_zero (S := S64x2048) hz2, View.ld_unit_zero (S := S2048x1024) hz2, View.ld_unit_zero (S := S1x1024) hz2, View.ld_unit_zero (S := S1x8192) hz2, View.ld_unit_zero (S := S1x2048) hz2, View.ld_unit_zero (S := S64x8192) hz2]

end Cert.KernelIdeal.Body

end
-- ==== Proof.KernelIdeal.RunB.lean ====
import proofs.«145959_j42855183680049_1_alg».proof.Proof.Gen.KernelIdeal.Frame
import proofs.«145959_j42855183680049_1_alg».proof.Proof.Gen.KernelIdeal.Skeleton
import proofs.«145959_j42855183680049_1_alg».proof.Proof.KernelIdeal.Cases
import Idealize.ShloMosaic.Lib.Pipeline.Value
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

theorem hz2' : (![0, 0] : Fin 2 → Nat) = fun _ => 0 := funext fun a => by fin_cases a <;> rfl

set_option maxHeartbeats 1000000 in
/-- The body where the branch is taken (the last column tile of a row block): the two scratch stores, then the whole
    scratch buffers read back, the LayerNorms and the gating, and one whole-block store into each output. The lists of
    stores are the witness the run finds. -/
noncomputable def kernelRunB (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    Σ' (L13 : List (View.Piece (Elt F) S64x2048 .f32)) (L14 : List (View.Piece (Elt F) S64x2048 .f32)) (LS0 : List (View.Piece (Elt F) S64x8192 .f32)), { LS1 : List (View.Piece (Elt F) S64x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ owns (c : Thread nD τ) arg17 fullShare xs0 ∗ owns (c : Thread nD τ) arg18 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, (arg15.view.loc (c : Thread nD τ) ↦[arg15.view.set]{fullShare} arg15.view.writes (Elt F) f L13)) ∗ (∃ f, (arg16.view.loc (c : Thread nD τ) ↦[arg16.view.set]{fullShare} arg16.view.writes (Elt F) f L14)) ∗ (arg17.view.loc (c : Thread nD τ) ↦[arg17.view.set]{fullShare} arg17.view.writes (Elt F) (harg17.unread xs0) LS0) ∗ (arg18.view.loc (c : Thread nD τ) ↦[arg18.view.set]{fullShare} arg18.view.writes (Elt F) (harg18.unread xs1) LS1)) -∗ K ⟨⟩))
          ⊢ wp frame (wpE (defs₀ (F := F)) Variants.none c none) E (cc0__lstm_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0__lstm_kernel_eq_skeleton]; unfold cc0__lstm_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg17.eq_unread hfs0; obtain rfl := harg18.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; iexact H13
    isplitl [H14]
    · iexists _; iexact H14
    isplitl [HS0]
    · iexact HS0
    iexact HS1

/-- The store into the input-path scratch. -/
theorem runB_X (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 xs1).2.2.1
      = [⟨Rect.unit (s := S64x8192) (k0_off1 i) S64x1024.size (Facts₀.k0_off1_inb i), k0_pay1 x0 x3 x5⟩] := by
  unfold kernelRunB
  dsimp only
  sl_unfold_words
  simp only [View.readAt_eq_ld, harg2.read_unread, harg5.read_unread, harg7.read_unread, View.ld_unit_zero (S := S64x2048) hz2', View.ld_unit_zero (S := S2048x1024) hz2', View.ld_unit_zero (S := S1x1024) hz2', View.ld_unit_zero (S := S1x8192) hz2', View.ld_unit_zero (S := S1x2048) hz2', View.ld_unit_zero (S := S64x8192) hz2']

/-- The store into the hidden-path scratch. -/
theorem runB_H (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 xs1).2.2.2.1
      = [⟨Rect.unit (s := S64x8192) (k0_off1 i) S64x1024.size (Facts₀.k0_off1_inb i), k0_pay2 x1 x4 x6⟩] := by
  unfold kernelRunB
  dsimp only
  sl_unfold_words
  simp only [View.readAt_eq_ld, harg3.read_unread, harg6.read_unread, harg8.read_unread, View.ld_unit_zero (S := S64x2048) hz2', View.ld_unit_zero (S := S2048x1024) hz2', View.ld_unit_zero (S := S1x1024) hz2', View.ld_unit_zero (S := S1x8192) hz2', View.ld_unit_zero (S := S1x2048) hz2', View.ld_unit_zero (S := S64x8192) hz2']

/-- The one whole-block store into the h_t output: the payload over the scratch buffers read back after this point's stores. -/
theorem runB_13 (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 xs1).1
      = [⟨Rect.unit (s := S64x2048) ![0, 0] S64x2048.size inb_S64x2048_S64x2048_0_0,
          k0_pay3 (k0_pay9 (k0_pay5 (arg17.view.read (Elt F) (arg17.view.writes (Elt F) (harg17.unread xs0) [⟨Rect.unit (s := S64x8192) (k0_off1 i) S64x1024.size (Facts₀.k0_off1_inb i), k0_pay1 x0 x3 x5⟩])) x7 x8 (arg18.view.read (Elt F) (arg18.view.writes (Elt F) (harg18.unread xs1) [⟨Rect.unit (s := S64x8192) (k0_off1 i) S64x1024.size (Facts₀.k0_off1_inb i), k0_pay2 x1 x4 x6⟩]))) (k0_pay6 (arg17.view.read (Elt F) (arg17.view.writes (Elt F) (harg17.unread xs0) [⟨Rect.unit (s := S64x8192) (k0_off1 i) S64x1024.size (Facts₀.k0_off1_inb i), k0_pay1 x0 x3 x5⟩])) x7 x8 (arg18.view.read (Elt F) (arg18.view.writes (Elt F) (harg18.unread xs1) [⟨Rect.unit (s := S64x8192) (k0_off1 i) S64x1024.size (Facts₀.k0_off1_inb i), k0_pay2 x1 x4 x6⟩])) x2) (k0_pay7 (arg17.view.read (Elt F) (arg17.view.writes (Elt F) (harg17.unread xs0) [⟨Rect.unit (s := S64x8192) (k0_off1 i) S64x1024.size (Facts₀.k0_off1_inb i), k0_pay1 x0 x3 x5⟩])) x7 x8 (arg18.view.read (Elt F) (arg18.view.writes (Elt F) (harg18.unread xs1) [⟨Rect.unit (s := S64x8192) (k0_off1 i) S64x1024.size (Facts₀.k0_off1_inb i), k0_pay2 x1 x4 x6⟩])) x2) (Scalar.ofBits .f32 0x45000000#32) x9 x10) (k0_pay10 x11) x12⟩] := by
  unfold kernelRunB
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S64x2048) hz2', View.ld_unit_zero (S := S2048x1024) hz2', View.ld_unit_zero (S := S1x1024) hz2', View.ld_unit_zero (S := S1x8192) hz2', View.ld_unit_zero (S := S1x2048) hz2', View.ld_unit_zero (S := S64x8192) hz2']

/-- The one whole-block store into the c_t output. -/
theorem runB_14 (c : Dev nD) (i : grid0.Coords) (arg2 : Memref sig .tc .vmem S64x2048 .bf16) (harg2 : arg2.IsWhole) (arg3 : Memref sig .tc .vmem S64x2048 .bf16) (harg3 : arg3.IsWhole) (arg4 : Memref sig .tc .vmem S64x2048 .f32) (harg4 : arg4.IsWhole) (arg5 : Memref sig .tc .vmem S2048x1024 .bf16) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8192 .f32) (harg9 : arg9.IsWhole) (arg10 : Memref sig .tc .vmem S1x8192 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole) (arg15 : Memref sig .tc .vmem S64x2048 .f32) (harg15 : arg15.IsWhole) (arg16 : Memref sig .tc .vmem S64x2048 .f32) (harg16 : arg16.IsWhole) (arg17 : Memref sig .tc .vmem S64x8192 .f32) (harg17 : arg17.IsWhole) (arg18 : Memref sig .tc .vmem S64x8192 .f32) (harg18 : arg18.IsWhole) (hc0 : condLast i)
    (x0 : Vec F S64x2048 .bf16) (x1 : Vec F S64x2048 .bf16) (x2 : Vec F S64x2048 .f32) (x3 : Vec F S2048x1024 .bf16) (x4 : Vec F S2048x1024 .bf16) (x5 : Vec F S1x1024 .f32) (x6 : Vec F S1x1024 .f32) (x7 : Vec F S1x8192 .f32) (x8 : Vec F S1x8192 .f32) (x9 : Vec F S1x2048 .f32) (x10 : Vec F S1x2048 .f32) (x11 : Vec F S1x2048 .f32) (x12 : Vec F S1x2048 .f32) (xs0 xs1 : Vec F S64x8192 .f32) :
    (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 xs1).2.1
      = [⟨Rect.unit (s := S64x2048) ![0, 0] S64x2048.size inb_S64x2048_S64x2048_0_0,
          k0_pay8 (k0_pay6 (arg17.view.read (Elt F) (arg17.view.writes (Elt F) (harg17.unread xs0) [⟨Rect.unit (s := S64x8192) (k0_off1 i) S64x1024.size (Facts₀.k0_off1_inb i), k0_pay1 x0 x3 x5⟩])) x7 x8 (arg18.view.read (Elt F) (arg18.view.writes (Elt F) (harg18.unread xs1) [⟨Rect.unit (s := S64x8192) (k0_off1 i) S64x1024.size (Facts₀.k0_off1_inb i), k0_pay2 x1 x4 x6⟩])) x2) (k0_pay7 (arg17.view.read (Elt F) (arg17.view.writes (Elt F) (harg17.unread xs0) [⟨Rect.unit (s := S64x8192) (k0_off1 i) S64x1024.size (Facts₀.k0_off1_inb i), k0_pay1 x0 x3 x5⟩])) x7 x8 (arg18.view.read (Elt F) (arg18.view.writes (Elt F) (harg18.unread xs1) [⟨Rect.unit (s := S64x8192) (k0_off1 i) S64x1024.size (Facts₀.k0_off1_inb i), k0_pay2 x1 x4 x6⟩])) x2) (Scalar.ofBits .f32 0x45000000#32) x9 x10⟩] := by
  unfold kernelRunB
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S64x2048) hz2', View.ld_unit_zero (S := S2048x1024) hz2', View.ld_unit_zero (S := S1x1024) hz2', View.ld_unit_zero (S := S1x8192) hz2', View.ld_unit_zero (S := S1x2048) hz2', View.ld_unit_zero (S := S64x8192) hz2']

/-- One whole-block store reads back as its payload, whatever the buffer held. -/
theorem read_whole_store {κ : Kind} {sp : Space} (v : View sig κ sp S64x2048 .f32) (f : v.ty.Contents (Elt F)) (w : Vec F S64x2048 .f32) :
    v.read (Elt F) (v.writes (Elt F) f [⟨Rect.unit (s := S64x2048) ![0, 0] S64x2048.size inb_S64x2048_S64x2048_0_0, w⟩]) = w := by
  funext y
  have h := View.read_writes_cons_unit_of_mem v f (off := ![0, 0]) (off' := ![0, 0]) (size := S64x2048.size) inb_S64x2048_S64x2048_0_0 w [] y y rfl
    (fun a => by fin_cases a <;> simp)
  exact h

end Cert.KernelIdeal.Body

end
-- ==== Proof.KernelIdeal.Inv.lean ====
import proofs.«145959_j42855183680049_1_alg».proof.Proof.KernelIdeal.Data
import proofs.«145959_j42855183680049_1_alg».proof.Proof.KernelIdeal.Cases
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Idealize.ShloMosaic.ValueIdx

variable (m : (ℓ : Loc nD τ sig) → Buf (Elt F) ℓ)

/-- The piece a point's store into a scratch buffer leaves: a 64 × 1024 tile at the point's column offset. -/
abbrev tilePiece (i : grid0.Coords) (w : Vec F S64x1024 .f32) : View.Piece (Elt F) S64x8192 .f32 :=
  ⟨Rect.unit (s := S64x8192) (k0_off1 i) S64x1024.size (Facts₀.k0_off1_inb i), w⟩

/-! ## One store read at an index

The buffer after point `t`'s store is read through the list of writes, whose one piece is the point's tile at columns
`[1024 * (t % 8), 1024 * (t % 8) + 1024)`: under the piece the payload, beside it what the buffer held. -/

/-- Under the newest tile: column `1024 * (t % 8) + j` of the buffer after point `t`'s store is column `j` of the stored
tile. -/
theorem read_tile_new (t : Fin cfg0.N) (a : Memref sig .tc .vmem S64x8192 .f32) (ha : a.IsWhole)
    (s : Vec F S64x8192 .f32) (w : Vec F S64x1024 .f32) (r : Fin 64) (q : Fin 8192) (j : Fin 1024)
    (hq : q.val = 1024 * (t.val % 8) + j.val) :
    a.view.read (Elt F) (a.view.writes (Elt F) (ha.unread s) [tilePiece (grid0.coords t) w])
        (ix2 (n0 := 64) (n1 := 8192) r q)
      = w (ix2 r j) :=
  View.read_writes_cons_unit_of_mem a.view (ha.unread s) (Facts₀.k0_off1_inb (grid0.coords t)) w []
    (ix2 (n0 := 64) (n1 := 8192) r q) (ix2 r j) (off_eq t)
    (Fin.forall_fin_two.mpr ⟨(Nat.zero_add _).symm, hq⟩)

/-- Beside the newest tile: a column outside `[1024 * (t % 8), 1024 * (t % 8) + 1024)` keeps what the buffer held. -/
theorem read_tile_old (t : Fin cfg0.N) (a : Memref sig .tc .vmem S64x8192 .f32) (ha : a.IsWhole)
    (s : Vec F S64x8192 .f32) (w : Vec F S64x1024 .f32) (r : Fin 64) (q : Fin 8192)
    (hq : q.val < 1024 * (t.val % 8) ∨ 1024 * (t.val % 8) + 1024 ≤ q.val) :
    a.view.read (Elt F) (a.view.writes (Elt F) (ha.unread s) [tilePiece (grid0.coords t) w])
        (ix2 (n0 := 64) (n1 := 8192) r q)
      = s (ix2 r q) := by
  rw [View.read_writes_cons_unit_of_not_mem a.view (ha.unread s) (Facts₀.k0_off1_inb (grid0.coords t)) w []
    (ix2 (n0 := 64) (n1 := 8192) r q) (off_eq t) (1 : Fin 2) hq, View.writes_nil, ha.read_unread]

/-! ## The tile facts, for any family of tiles

Both scratch buffers are filled the same way, so the three facts are shown once for a family `T` of tiles, one per
point, and used at the input path's and at the hidden path's tiles. Within a row block the points are consecutive:
when `(t + 1) % 8 ≠ 0`, point `t + 1` has the same first point `t - t % 8` as point `t` and column tile `t % 8 + 1`. -/

/-- One point's store extends the tile facts by the point's own tile: column tile `t % 8` is read under the new piece,
the column tiles before it beside the piece, where the facts before the store speak. -/
theorem tile_step (T : Fin cfg0.N → Vec F S64x1024 .f32) (t : Fin cfg0.N)
    (a : Memref sig .tc .vmem S64x8192 .f32) (ha : a.IsWhole) (s : Vec F S64x8192 .f32)
    (h : ∀ (g : ℕ) (hg : g < t.val % 8) (r : Fin 64) (j : Fin 1024),
      s (ix2 (n0 := 64) (n1 := 8192) r ⟨1024 * g + j.val, by have := j.isLt; omega⟩)
        = T ⟨t.val - t.val % 8 + g, by have := t.isLt; have := N512; omega⟩ (ix2 r j))
    (g : ℕ) (hg : g < (t.val + 1) % 8) (r : Fin 64) (j : Fin 1024) :
    a.view.read (Elt F) (a.view.writes (Elt F) (ha.unread s) [tilePiece (grid0.coords t) (T t)])
        (ix2 (n0 := 64) (n1 := 8192) r ⟨1024 * g + j.val, by have := j.isLt; omega⟩)
      = T ⟨t.val + 1 - (t.val + 1) % 8 + g, by have := t.isLt; have := N512; omega⟩ (ix2 r j) := by
  by_cases hgt : g = t.val % 8
  · -- the point's own column tile
    refine (read_tile_new t a ha s (T t) r _ j (by show 1024 * g + j.val = 1024 * (t.val % 8) + j.val; omega)).trans ?_
    exact congrArg (fun u => T u (ix2 r j)) (Fin.ext (by show t.val = t.val + 1 - (t.val + 1) % 8 + g; omega))
  · -- an earlier column tile of the same row block
    have hlt : g < t.val % 8 := by omega
    refine (read_tile_old t a ha s (T t) r _ (Or.inl (by
      show 1024 * g + j.val < 1024 * (t.val % 8)
      have := j.isLt; omega))).trans ?_
    refine (h g hlt r j).trans ?_
    exact congrArg (fun u => T u (ix2 r j))
      (Fin.ext (by show t.val - t.val % 8 + g = t.val + 1 - (t.val + 1) % 8 + g; omega))

/-- At the last column tile of a row block, after the store, every column tile `g` holds the tile the point of that
column tile stored. -/
theorem tile_full_at (T : Fin cfg0.N → Vec F S64x1024 .f32) (t : Fin cfg0.N) (h7 : t.val % 8 = 7)
    (a : Memref sig .tc .vmem S64x8192 .f32) (ha : a.IsWhole) (s : Vec F S64x8192 .f32)
    (h : ∀ (g : ℕ) (hg : g < t.val % 8) (r : Fin 64) (j : Fin 1024),
      s (ix2 (n0 := 64) (n1 := 8192) r ⟨1024 * g + j.val, by have := j.isLt; omega⟩)
        = T ⟨t.val - t.val % 8 + g, by have := t.isLt; have := N512; omega⟩ (ix2 r j))
    (g : ℕ) (hg : g < 8) (r : Fin 64) (j : Fin 1024) :
    a.view.read (Elt F) (a.view.writes (Elt F) (ha.unread s) [tilePiece (grid0.coords t) (T t)])
        (ix2 (n0 := 64) (n1 := 8192) r ⟨1024 * g + j.val, by have := j.isLt; omega⟩)
      = T (tileAt t g hg) (ix2 r j) := by
  by_cases hg7 : g = 7
  · -- the last column tile is the point's own
    refine (read_tile_new t a ha s (T t) r _ j (by show 1024 * g + j.val = 1024 * (t.val % 8) + j.val; omega)).trans ?_
    exact congrArg (fun u => T u (ix2 r j)) (Fin.ext (by show t.val = t.val - t.val % 8 + g; omega))
  · -- the seven before it were stored by the row block's earlier points
    have hlt : g < t.val % 8 := by omega
    refine (read_tile_old t a ha s (T t) r _ (Or.inl (by
      show 1024 * g + j.val < 1024 * (t.val % 8)
      have := j.isLt; omega))).trans ?_
    exact h g hlt r j

/-- So the buffer after the store is, column by column, the tiles of the row block's eight points: column `q` lies in
column tile `q / 1024` at column `q % 1024`. -/
theorem tile_full (T : Fin cfg0.N → Vec F S64x1024 .f32) (t : Fin cfg0.N) (h7 : t.val % 8 = 7)
    (a : Memref sig .tc .vmem S64x8192 .f32) (ha : a.IsWhole) (s : Vec F S64x8192 .f32)
    (h : ∀ (g : ℕ) (hg : g < t.val % 8) (r : Fin 64) (j : Fin 1024),
      s (ix2 (n0 := 64) (n1 := 8192) r ⟨1024 * g + j.val, by have := j.isLt; omega⟩)
        = T ⟨t.val - t.val % 8 + g, by have := t.isLt; have := N512; omega⟩ (ix2 r j))
    (y : S64x8192.Idx) :
    a.view.read (Elt F) (a.view.writes (Elt F) (ha.unread s) [tilePiece (grid0.coords t) (T t)]) y
      = T (tileAt t ((y 1).val / 1024) (by have := idx2_lt1 y; omega))
          (ix2 (n0 := 64) (n1 := 1024) ⟨(y 0).val, idx2_lt0 y⟩ ⟨(y 1).val % 1024, Nat.mod_lt _ (by norm_num)⟩) := by
  have hy1 := idx2_lt1 y
  have hy : y = ix2 (n0 := 64) (n1 := 8192) ⟨(y 0).val, idx2_lt0 y⟩
      ⟨1024 * ((y 1).val / 1024) + (y 1).val % 1024, by omega⟩ := by
    funext d
    match d with
    | ⟨0, _⟩ => rfl
    | ⟨1, _⟩ => exact Fin.ext (by show (y 1).val = 1024 * ((y 1).val / 1024) + (y 1).val % 1024; omega)
  exact (congrArg (a.view.read (Elt F)
      (a.view.writes (Elt F) (ha.unread s) [tilePiece (grid0.coords t) (T t)])) hy).trans
    (tile_full_at T t h7 a ha s h ((y 1).val / 1024) (by omega) ⟨(y 0).val, idx2_lt0 y⟩
      ⟨(y 1).val % 1024, Nat.mod_lt _ (by norm_num)⟩)

/-! ## The two scratch buffers -/

/-- At the first column tile of a row block nothing is claimed of the scratch. -/
theorem InvX_zero (c : Dev nD) (n : ℕ) (hn : n ≤ cfg0.N) (h0 : n % 8 = 0) (s : Vec F S64x8192 .f32) : InvX m c n hn s := by
  intro g hg r j
  exact absurd hg (by omega)
theorem InvH_zero (c : Dev nD) (n : ℕ) (hn : n ≤ cfg0.N) (h0 : n % 8 = 0) (s : Vec F S64x8192 .f32) : InvH m c n hn s := by
  intro g hg r j
  exact absurd hg (by omega)

/-- One point's store extends the tile facts by the point's own tile. -/
theorem InvX_step (c : Dev nD) (t : Fin cfg0.N) (a : Memref sig .tc .vmem S64x8192 .f32) (ha : a.IsWhole) (s : Vec F S64x8192 .f32)
    (h : InvX m c t.val (Nat.le_of_lt t.isLt) s) :
    InvX m c (t.val + 1) t.isLt
      (a.view.read (Elt F) (a.view.writes (Elt F) (ha.unread s) [tilePiece (grid0.coords t) (xTile m c t)])) := by
  intro g hg r j
  exact tile_step (xTile m c) t a ha s h g hg r j
theorem InvH_step (c : Dev nD) (t : Fin cfg0.N) (a : Memref sig .tc .vmem S64x8192 .f32) (ha : a.IsWhole) (s : Vec F S64x8192 .f32)
    (h : InvH m c t.val (Nat.le_of_lt t.isLt) s) :
    InvH m c (t.val + 1) t.isLt
      (a.view.read (Elt F) (a.view.writes (Elt F) (ha.unread s) [tilePiece (grid0.coords t) (hTile m c t)])) := by
  intro g hg r j
  exact tile_step (hTile m c) t a ha s h g hg r j

/-- At the last column tile of a row block, after the point's store, the scratch IS the whole row block. -/
theorem xFull_of_inv (c : Dev nD) (t : Fin cfg0.N) (h7 : t.val % 8 = 7) (a : Memref sig .tc .vmem S64x8192 .f32) (ha : a.IsWhole)
    (s : Vec F S64x8192 .f32) (h : InvX m c t.val (Nat.le_of_lt t.isLt) s) :
    a.view.read (Elt F) (a.view.writes (Elt F) (ha.unread s) [tilePiece (grid0.coords t) (xTile m c t)]) = xFull m c t := by
  funext y
  exact tile_full (xTile m c) t h7 a ha s h y
theorem hFull_of_inv (c : Dev nD) (t : Fin cfg0.N) (h7 : t.val % 8 = 7) (a : Memref sig .tc .vmem S64x8192 .f32) (ha : a.IsWhole)
    (s : Vec F S64x8192 .f32) (h : InvH m c t.val (Nat.le_of_lt t.isLt) s) :
    a.view.read (Elt F) (a.view.writes (Elt F) (ha.unread s) [tilePiece (grid0.coords t) (hTile m c t)]) = hFull m c t := by
  funext y
  exact tile_full (hTile m c) t h7 a ha s h y

end Cert.KernelIdeal.Body

end
-- ==== Proof.KernelIdeal.Body.lean ====
import proofs.«145959_j42855183680049_1_alg».proof.Proof.KernelIdeal.Data
import proofs.«145959_j42855183680049_1_alg».proof.Proof.KernelIdeal.Cases
import proofs.«145959_j42855183680049_1_alg».proof.Proof.KernelIdeal.RunA
import proofs.«145959_j42855183680049_1_alg».proof.Proof.KernelIdeal.RunB
import proofs.«145959_j42855183680049_1_alg».proof.Proof.KernelIdeal.Inv

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Idealize.ShloMosaic.ValueIdx

variable (m : (ℓ : Loc nD τ sig) → Buf (Elt F) ℓ) (ρ : Dev nD → PrngReg)

/-! ## The staging memrefs the pipeline passes the body at a point -/

abbrev ms0_0 (t : Fin cfg0.N) : Memref sig .tc .vmem S64x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8192 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8192 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2048 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S64x2048 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S64x2048 .f32 := win0_14.stage (cfg0.slots t 14)
abbrev hs0_14 (t : Fin cfg0.N) : (ms0_14 t).IsWhole := hstage0_14 ((cfg0.slots t 14).cast nbuf0_14)

/-! ## The body obligation at a generic point -/

/-- What the body is called with at point `t`: the invariant, nothing owed, every window's current buffer at what the
    pipeline's bookkeeping says it holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 3200000 in
/-- The body at any point. The inputs' memrefs hold their blocks; the invariant hands the body the two scratch buffers at
    contents with the tile facts of the columns already stored in this row block. Where the point is not the last column
    tile of its row block the body only stores its two tiles, which extends the tile facts by one tile, and leaves the
    outputs untouched. At the last column tile the scratch buffers, read back after the stores, ARE the full row blocks,
    so what the body stores into the two outputs is the named blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [Phi_succ m c t, Phi_castSucc m c t]
  unfold PhiS
  by_cases h7 : t.val % 8 = 7
  · have hc : condLast (grid0.coords t) := (hcondLast t).mpr h7
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [show (dats m 0 c).leavesExact 13 t = owns (c : Thread nD τ) (ms0_13 t) fullShare ((dats m 0 c).after 13 t) from by
      unfold Dat.leavesExact; rw [liveAt0_13 t hc], after0_13]
    rw [show (dats m 0 c).leavesExact 14 t = owns (c : Thread nD τ) (ms0_14 t) fullShare ((dats m 0 c).after 14 t) from by
      unfold Dat.leavesExact; rw [liveAt0_14 t hc], after0_14]
    iintro ⟨⟨⟨%sx, %sh, %hinv, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRunB c (grid0.coords t) _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) sx sh).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, H11, H12, ⟨%e13, H13⟩, ⟨%e14, H14⟩, HS0, HS1⟩
    isplitl [HS0 HS1 Hg]
    · isplitl [HS0 HS1]
      · iexists _, _
        isplitr
        swap
        · isplitl [HS0]
          · unfold owns; iexists _; isplitr
            swap; · iexact HS0
            ipureintro; rfl
          · unfold owns; iexists _; isplitr
            swap; · iexact HS1
            ipureintro; rfl
        ipureintro
        refine ⟨?_, ?_⟩
        · rw [runB_X]; exact InvX_step m c t _ _ sx hinv.1
        · rw [runB_H]; exact InvH_step m c t _ _ sh hinv.2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro
      rw [runB_13, read_whole_store]
      have hX := xFull_of_inv m c t h7 scX (Memref.isWhole_whole _) sx hinv.1
      have hH := hFull_of_inv m c t h7 scH (Memref.isWhole_whole _) sh hinv.2
      unfold tilePiece xTile at hX
      unfold tilePiece hTile at hH
      rw [hX, hH]
      rfl
    · unfold owns; iexists _; isplitr
      swap; · iexact H14
      ipureintro
      rw [runB_14, read_whole_store]
      have hX := xFull_of_inv m c t h7 scX (Memref.isWhole_whole _) sx hinv.1
      have hH := hFull_of_inv m c t h7 scH (Memref.isWhole_whole _) sh hinv.2
      unfold tilePiece xTile at hX
      unfold tilePiece hTile at hH
      rw [hX, hH]
      rfl
  · have hc : ¬condLast (grid0.coords t) := fun h => h7 ((hcondLast t).mp h)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [liveAt0_8 t], after0_8]
    rw [show (dats m 0 c).leavesExact 9 t = owns (c : Thread nD τ) (ms0_9 t) fullShare ((dats m 0 c).after 9 t) from by
      unfold Dat.leavesExact; rw [liveAt0_9 t], after0_9]
    rw [show (dats m 0 c).leavesExact 10 t = owns (c : Thread nD τ) (ms0_10 t) fullShare ((dats m 0 c).after 10 t) from by
      unfold Dat.leavesExact; rw [liveAt0_10 t], after0_10]
    rw [show (dats m 0 c).leavesExact 11 t = owns (c : Thread nD τ) (ms0_11 t) fullShare ((dats m 0 c).after 11 t) from by
      unfold Dat.leavesExact; rw [liveAt0_11 t], after0_11]
    rw [show (dats m 0 c).leavesExact 12 t = owns (c : Thread nD τ) (ms0_12 t) fullShare ((dats m 0 c).after 12 t) from by
      unfold Dat.leavesExact; rw [liveAt0_12 t], after0_12]
    rw [Dat.leavesExact_idle (dats m 0 c) 13 t (idleAt0_13 t hc) (noFlush0_13 t hc)]
    rw [Dat.leavesExact_idle (dats m 0 c) 14 t (idleAt0_14 t hc) (noFlush0_14 t hc)]
    iintro ⟨⟨⟨%sx, %sh, %hinv, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((kernelRunA c (grid0.coords t) _ _ _ _ _ _ _ _ _ _ _ _ _ _ _ _ _ _ _ _ _ _ _ _ _ _ _ _ _ _ _ _ _ _ hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) sx sh).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    iintro ⟨H0, H1, H2, H3, H4, H5, H6, H7, H8, H9, H10, H11, H12, H13, H14, HS0, HS1⟩
    isplitl [HS0 HS1 Hg]
    · isplitl [HS0 HS1]
      · iexists _, _
        isplitr
        swap
        · isplitl [HS0]
          · unfold owns; iexists _; isplitr
            swap; · iexact HS0
            ipureintro; rfl
          · unfold owns; iexists _; isplitr
            swap; · iexact HS1
            ipureintro; rfl
        ipureintro
        refine ⟨?_, ?_⟩
        · rw [runA_X]; exact InvX_step m c t _ _ sx hinv.1
        · rw [runA_H]; exact InvH_step m c t _ _ sh hinv.2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    iexists _; iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is claimed of the scratch there. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%sx, HS0⟩, ⟨%sh, HS1⟩⟩, Hg⟩
  isplitl [HS0 HS1]
  · iexists sx, sh
    isplitr
    · ipureintro; exact ⟨InvX_zero m c 0 _ rfl sx, InvH_zero m c 0 _ rfl sh⟩
    isplitl [HS0]
    · iexact HS0
    iexact HS1
  iexact Hg

/-- After the last point the invariant gives the class invariant back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨⟨%sx, %sh, -, HS0, HS1⟩, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, and every final state has every array of the pipeline at what the
    library computes from the proof data (an input its entry contents, an output those overwritten by the named blocks at
    each write-back) and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim at any float instance: the run's post read at the argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Body

end
-- ==== Proof.Spec.lean ====
/-
  The mathematics both programs compute, one batch row at a time, on the extended reals.

  A LayerNorm-LSTM cell. For batch row R: the input path xg = x[R,:] · W_ih + b_ih and the hidden path
  hg = h_prev[R,:] · W_hh + b_hh are rows of 8192 entries; the input path alone is layer-normalised over its 8192
  entries (mean, variance with the divisor 8192, the shared epsilon word), scaled by γx and shifted by βx, and the hidden
  path is added: the gates' row. Its four quarters of 2048 are the input, forget, cell and output gates. The new cell row
  is sigmoid(forget) · c_prev + sigmoid(input) · tanh(cell), layer-normalised over its 2048 entries with (γc, βc): the
  result c_t. The hidden row is sigmoid(output) · tanh(c_t), layer-normalised with (γh, βh): the result h_t.
  Every operation is the exact one of the extended reals (PureOps/Ideal.lean); the three literals (8192, 2048, epsilon)
  are kept as the words both programs print.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The divisor of the 8192-entry mean, as printed. -/
abbrev w8192 : EReal := Ideal.ofBits .f32 0x46000000#32
/-- The divisor of the 2048-entry means, as printed. -/
abbrev w2048 : EReal := Ideal.ofBits .f32 0x45000000#32
/-- The epsilon added to a variance, as printed. -/
abbrev wEps : EReal := Ideal.ofBits .f32 0x3727C5AC#32

/-- The mean of a row with the divisor `N`. -/
def mean {n : ℕ} (N : EReal) (v : Fin n → EReal) : EReal := Ideal.div (∑ k : Fin n, v k) N

/-- The variance of a row about its mean, with the divisor `N`. -/
def var {n : ℕ} (N : EReal) (v : Fin n → EReal) : EReal :=
  Ideal.div (∑ k : Fin n, (v k - mean N v) * (v k - mean N v)) N

/-- LayerNorm of one row: `(v - mean) · rsqrt(var + ε) · γ + β`, in that order of operations. -/
def ln {n : ℕ} (N : EReal) (v γ β : Fin n → EReal) (j : Fin n) : EReal :=
  (v j - mean N v) * Ideal.rsqrt (var N v + wEps) * γ j + β j

/-- The gates' row: the input path layer-normalised, plus the hidden path. -/
def gates (xg hg γx βx : Fin 8192 → EReal) (g : Fin 8192) : EReal := ln w8192 xg γx βx g + hg g

/-- The new cell row before its LayerNorm: `σ(f) · c_prev + σ(i) · tanh(g)` of the gates' quarters. -/
def cNew (G : Fin 8192 → EReal) (cp : Fin 2048 → EReal) (j : Fin 2048) : EReal :=
  Ideal.logistic (G ⟨2048 + j.val, by omega⟩) * cp j + Ideal.logistic (G ⟨j.val, by omega⟩) * Ideal.tanh (G ⟨4096 + j.val, by omega⟩)

/-- The result row c_t. -/
def cRow (G : Fin 8192 → EReal) (cp γc βc : Fin 2048 → EReal) : Fin 2048 → EReal := ln w2048 (cNew G cp) γc βc

/-- The result row h_t. -/
def hRow (G : Fin 8192 → EReal) (cp γc βc γh βh : Fin 2048 → EReal) : Fin 2048 → EReal :=
  ln w2048 (fun j => Ideal.logistic (G ⟨6144 + j.val, by omega⟩) * Ideal.tanh (cRow G cp γc βc j)) γh βh

/-! ## Over whole arrays -/

/-- Row `R` of `a · W + b`: entry `g` is `∑ k, a[R,k] · W[k,g]`, plus `b[g]`. -/
def affRow (a : (⟨2, ![4096, 2048]⟩ : Shape).Idx → EReal) (W : (⟨2, ![2048, 8192]⟩ : Shape).Idx → EReal)
    (b : (⟨1, ![8192]⟩ : Shape).Idx → EReal) (R : Fin 4096) (g : Fin 8192) : EReal :=
  (∑ k : Fin 2048, a (ix2 R k) * W (ix2 k g)) + b (ix1 g)

/-- The gates' row of batch row `R`, from the argument arrays. -/
def gatesOf (x hp : (⟨2, ![4096, 2048]⟩ : Shape).Idx → EReal) (Wih Whh : (⟨2, ![2048, 8192]⟩ : Shape).Idx → EReal)
    (bih bhh gx bx : (⟨1, ![8192]⟩ : Shape).Idx → EReal) (R : Fin 4096) : Fin 8192 → EReal :=
  gates (affRow x Wih bih R) (affRow hp Whh bhh R) (fun g => gx (ix1 g)) (fun g => bx (ix1 g))

/-- The whole result c_t as one function of the argument arrays. -/
def Gc (x hp cp : (⟨2, ![4096, 2048]⟩ : Shape).Idx → EReal) (Wih Whh : (⟨2, ![2048, 8192]⟩ : Shape).Idx → EReal)
    (bih bhh gx bx : (⟨1, ![8192]⟩ : Shape).Idx → EReal) (gc bc : (⟨1, ![2048]⟩ : Shape).Idx → EReal) :
    (⟨2, ![4096, 2048]⟩ : Shape).Idx → EReal := fun i =>
  cRow (gatesOf x hp Wih Whh bih bhh gx bx (i 0)) (fun q => cp (ix2 (i 0) q)) (fun q => gc (ix1 q)) (fun q => bc (ix1 q)) (i 1)

/-- The whole result h_t as one function of the argument arrays. -/
def Gh (x hp cp : (⟨2, ![4096, 2048]⟩ : Shape).Idx → EReal) (Wih Whh : (⟨2, ![2048, 8192]⟩ : Shape).Idx → EReal)
    (bih bhh gx bx : (⟨1, ![8192]⟩ : Shape).Idx → EReal) (gc bc gh bh : (⟨1, ![2048]⟩ : Shape).Idx → EReal) :
    (⟨2, ![4096, 2048]⟩ : Shape).Idx → EReal := fun i =>
  hRow (gatesOf x hp Wih Whh bih bhh gx bx (i 0)) (fun q => cp (ix2 (i 0) q)) (fun q => gc (ix1 q)) (fun q => bc (ix1 q))
    (fun q => gh (ix1 q)) (fun q => bh (ix1 q)) (i 1)

end Cert.Spec

end
-- ==== Proof.PayloadValue.lean ====
import proofs.«145959_j42855183680049_1_alg».proof.Proof.Gen.KernelIdeal.Skeleton
import proofs.«145959_j42855183680049_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators
open Idealize.ShloMosaic Idealize.ShloMosaic.TcCoe Idealize.SL.Sem Idealize.ShloMosaic.ValueIdx

namespace Cert.KernelIdeal.PayloadValue

open Cert.KernelIdeal Cert.KernelIdeal.Gen

/-! ## The matrix product's operand indices

The product contracts the left operand's axis 1 with the right operand's axis 0. At output index `i` and contraction
index `q` the left operand is read at `(i 0, q)` and the right one at `(q, i 1)`: one equation per operand axis. -/

theorem lhs_mm_0 (i : S64x1024.Idx) (q : dot_S64x2048_S2048x1024_S64x1024_1_0_0_1_n_n.contr.Idx) :
    (dot_S64x2048_S2048x1024_S64x1024_1_0_0_1_n_n.lhsIdx i q 0).val = (i 0).val := by
  unfold DotDims.lhsIdx
  rw [dif_neg (show ¬(0 : Fin S64x2048.rank) ∈ dot_S64x2048_S2048x1024_S64x1024_1_0_0_1_n_n.lhsBatch by decide),
    dif_pos (show (0 : Fin S64x2048.rank) ∈ dot_S64x2048_S2048x1024_S64x1024_1_0_0_1_n_n.lhsNonContracting by decide)]
  rfl

theorem lhs_mm_1 (i : S64x1024.Idx) (q : dot_S64x2048_S2048x1024_S64x1024_1_0_0_1_n_n.contr.Idx) :
    (dot_S64x2048_S2048x1024_S64x1024_1_0_0_1_n_n.lhsIdx i q 1).val = (q ⟨0, by decide⟩).val :=
  dot_S64x2048_S2048x1024_S64x1024_1_0_0_1_n_n.lhsIdx_val_of_single rfl i q

theorem rhs_mm_0 (i : S64x1024.Idx) (q : dot_S64x2048_S2048x1024_S64x1024_1_0_0_1_n_n.contr.Idx) :
    (dot_S64x2048_S2048x1024_S64x1024_1_0_0_1_n_n.rhsIdx i q 0).val = (q ⟨0, by decide⟩).val :=
  dot_S64x2048_S2048x1024_S64x1024_1_0_0_1_n_n.rhsIdx_val_of_single rfl i q

theorem rhs_mm_1 (i : S64x1024.Idx) (q : dot_S64x2048_S2048x1024_S64x1024_1_0_0_1_n_n.contr.Idx) :
    (dot_S64x2048_S2048x1024_S64x1024_1_0_0_1_n_n.rhsIdx i q 1).val = (i 1).val := by
  unfold DotDims.rhsIdx
  rw [dif_neg (show ¬(1 : Fin S2048x1024.rank) ∈ dot_S64x2048_S2048x1024_S64x1024_1_0_0_1_n_n.rhsBatch by decide),
    dif_pos (show (1 : Fin S2048x1024.rank) ∈ dot_S64x2048_S2048x1024_S64x1024_1_0_0_1_n_n.rhsNonContracting by decide)]
  rfl

/-- The product into the zero accumulator, at `(r, j)`: the sum over the contracted coordinate `k` of
    `a (r, k) * W (k, j)`. -/
theorem mm_apply (a : FVec Ideal S64x2048 .bf16) (W : FVec Ideal S2048x1024 .bf16) (r : Fin 64) (j : Fin 1024) :
    FloatOps.matmul dot_S64x2048_S2048x1024_S64x1024_1_0_0_1_n_n none a W (constant S64x1024 .f32 0x00000000#32) (ix2 r j)
      = ∑ k : Fin 2048, a (ix2 r k) * W (ix2 k j) := by
  rw [Ideal.matmul_constant_zero_apply,
    ← Equiv.sum_comp (contrEquiv1 dot_S64x2048_S2048x1024_S64x1024_1_0_0_1_n_n 2048 rfl rfl).symm]
  refine Finset.sum_congr rfl fun k _ => ?_
  have hk := contrEquiv1_symm_val dot_S64x2048_S2048x1024_S64x1024_1_0_0_1_n_n 2048 rfl rfl k
  have el : dot_S64x2048_S2048x1024_S64x1024_1_0_0_1_n_n.lhsIdx (ix2 r j)
      ((contrEquiv1 dot_S64x2048_S2048x1024_S64x1024_1_0_0_1_n_n 2048 rfl rfl).symm k) = ix2 r k :=
    funext fun ax => Fin.ext (by
      match ax with
      | ⟨0, _⟩ => exact lhs_mm_0 _ _
      | ⟨1, _⟩ => exact (lhs_mm_1 _ _).trans hk)
  have er : dot_S64x2048_S2048x1024_S64x1024_1_0_0_1_n_n.rhsIdx (ix2 r j)
      ((contrEquiv1 dot_S64x2048_S2048x1024_S64x1024_1_0_0_1_n_n 2048 rfl rfl).symm k) = ix2 k j :=
    funext fun ax => Fin.ext (by
      match ax with
      | ⟨0, _⟩ => exact (rhs_mm_0 _ _).trans hk
      | ⟨1, _⟩ => exact rhs_mm_1 _ _)
  rw [el, er]

/-- A stored tile of the input path at an index: row `r` of the row block times column `j` of the weight tile, plus the bias. -/
theorem pay1_apply (a : Vec Ideal S64x2048 .bf16) (W : Vec Ideal S2048x1024 .bf16) (b : Vec Ideal S1x1024 .f32) (r : Fin 64) (j : Fin 1024) :
    k0_pay1 a W b (ix2 r j) = (∑ k : Fin 2048, a (ix2 r k) * W (ix2 k j)) + b (ix2 (0 : Fin 1) j) := by
  unfold k0_pay1
  simp only [shapeCast_self]
  rw [addf_apply, broadcastTo_1b_ab_apply]
  exact congrArg (· + b (ix2 (0 : Fin 1) j)) (mm_apply a W r j)

/-- The same of the hidden path's tile. -/
theorem pay2_apply (a : Vec Ideal S64x2048 .bf16) (W : Vec Ideal S2048x1024 .bf16) (b : Vec Ideal S1x1024 .f32) (r : Fin 64) (j : Fin 1024) :
    k0_pay2 a W b (ix2 r j) = (∑ k : Fin 2048, a (ix2 r k) * W (ix2 k j)) + b (ix2 (0 : Fin 1) j) := by
  unfold k0_pay2
  simp only [shapeCast_self]
  rw [addf_apply, broadcastTo_1b_ab_apply]
  exact congrArg (· + b (ix2 (0 : Fin 1) j)) (mm_apply a W r j)

/-! ## Layout forms of a kept-dimension reduction, read at an index given by coordinates -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the lanes of a `[64, n]` array, at row `r`: the sum over the row's entries. -/
theorem laneSum_apply {n : ℕ} (src : FVec Ideal ⟨2, ![64, n]⟩ .f32) (h : Shape.Reduces ⟨2, ![64, n]⟩ [1] S64)
    (hφ : FTy.f32 = FTy.f32 ∨ FTy.f32 = FTy.bf16) (hacc : (0x00000000#32 : BitVec 32) = 0x00000000#32) (r : Fin 64) :
    multiReduction .add [1] S64 src 0x00000000#32 h hφ hacc (ix1 r) = ∑ k : Fin n, src (ix2 r k) := by
  refine (Ideal.multiReduction_add_single src 0x00000000#32 h hφ hacc (ix1 r)).trans ?_
  refine Finset.sum_congr rfl fun k _ => congrArg src ?_
  funext ax
  match ax with
  | ⟨0, _⟩ => rfl
  | ⟨1, _⟩ => rfl

/-! ## The transcendental operations at an index, on the extended reals -/

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl
/-- A scalar constant is the extended real its word encodes. -/
theorem scalar_ofBits (φ : FTy) (b : BitVec φ.bits) : Scalar.ofBits (F := Ideal) φ b = Ideal.ofBits φ b := rfl

/-! ## The gates' row -/

/-- The gates' block at `(r, q)`: the input path's row `r` layer-normalised over its 8192 entries, plus the hidden path. -/
theorem pay4_apply (X H : Vec Ideal S64x8192 .f32) (g β : Vec Ideal S1x8192 .f32) (r : Fin 64) (q : Fin 8192) :
    k0_pay4 X g β H (ix2 r q)
      = Cert.Spec.gates (fun q => X (ix2 r q)) (fun q => H (ix2 r q)) (fun q => g (ix2 (0 : Fin 1) q)) (fun q => β (ix2 (0 : Fin 1) q)) q := by
  unfold k0_pay4
  simp only [addf_apply, mulf_apply, subf_apply, divf_apply, rsqrt_apply, logistic_apply, tanh_apply, broadcast_apply, shapeCast_self,
    broadcastTo_1b_ab_apply, broadcastTo_a1_ab_apply, shapeCast_a_a1_apply, scalar_ofBits]
  rw [laneSum_apply, laneSum_apply]
  simp only [addf_apply, mulf_apply, subf_apply, divf_apply, rsqrt_apply, logistic_apply, tanh_apply, broadcast_apply, shapeCast_self,
    broadcastTo_1b_ab_apply, broadcastTo_a1_ab_apply, shapeCast_a_a1_apply, scalar_ofBits]
  rw [laneSum_apply X]
  rfl

/-- The gates' row of row `r` of the scratch row blocks. -/
abbrev gRow (X H : Vec Ideal S64x8192 .f32) (g β : Vec Ideal S1x8192 .f32) (r : Fin 64) : Fin 8192 → EReal :=
  Cert.Spec.gates (fun q => X (ix2 r q)) (fun q => H (ix2 r q)) (fun q => g (ix2 (0 : Fin 1) q)) (fun q => β (ix2 (0 : Fin 1) q))

/-! ## The four gates and the new cell row -/

/-- The output gate at `(r, j)`: the logistic function of the gates' row at `6144 + j`. -/
theorem pay5_apply (X H : Vec Ideal S64x8192 .f32) (g β : Vec Ideal S1x8192 .f32) (r : Fin 64) (j : Fin 2048) :
    k0_pay5 X g β H (ix2 r j) = Ideal.logistic (gRow X H g β r ⟨6144 + j.val, by omega⟩) := by
  unfold k0_pay5
  simp only [logistic_apply]
  rw [slice2_axis1_eq, pay4_apply]

/-- The new cell block before its normalisation, at `(r, j)`: `σ(f) · c_prev + σ(i) · tanh(g)` of the gates' quarters. -/
theorem pay6_apply (X H : Vec Ideal S64x8192 .f32) (g β : Vec Ideal S1x8192 .f32) (cp : Vec Ideal S64x2048 .f32)
    (r : Fin 64) (j : Fin 2048) :
    k0_pay6 X g β H cp (ix2 r j) = Cert.Spec.cNew (gRow X H g β r) (fun q => cp (ix2 r q)) j := by
  unfold k0_pay6
  simp only [addf_apply, mulf_apply, logistic_apply, tanh_apply]
  rw [slice2_axis1_apply 0 (k0_pay4 X g β H) slices_S64x8192_o0_0_S64x2048 r j ⟨j.val, by omega⟩ (Nat.zero_add _).symm,
    slice2_axis1_eq 2048, slice2_axis1_eq 4096, pay4_apply, pay4_apply, pay4_apply]
  rfl

/-- The lane sum of the new cell block, at row `r`: the sum of the new cell row. -/
theorem pay7_apply (X H : Vec Ideal S64x8192 .f32) (g β : Vec Ideal S1x8192 .f32) (cp : Vec Ideal S64x2048 .f32) (r : Fin 64) :
    k0_pay7 X g β H cp (ix2 r (0 : Fin 1)) = ∑ k : Fin 2048, k0_pay6 X g β H cp (ix2 r k) := by
  unfold k0_pay7
  rw [shapeCast_a_a1_apply, laneSum_apply]

/-! ## LayerNorm of a `[64, 2048]` block, row by row -/

/-- The block `C` layer-normalised over its 2048 lanes with `(γ, β)`, given its lane sums `S`: at `(r, j)` the
    specification's LayerNorm of row `r`. -/
theorem pay8_apply (C : FVec Ideal S64x2048 .f32) (S : FVec Ideal S64x1 .f32) (gc βc : Vec Ideal S1x2048 .f32) (r : Fin 64)
    (hS : S (ix2 r (0 : Fin 1)) = ∑ k : Fin 2048, C (ix2 r k)) (j : Fin 2048) :
    k0_pay8 C S (Scalar.ofBits .f32 0x45000000#32) gc βc (ix2 r j)
      = Cert.Spec.ln Cert.Spec.w2048 (fun k => C (ix2 r k)) (fun k => gc (ix2 (0 : Fin 1) k)) (fun k => βc (ix2 (0 : Fin 1) k)) j := by
  unfold k0_pay8
  simp only [addf_apply, mulf_apply, subf_apply, divf_apply, rsqrt_apply, logistic_apply, tanh_apply, broadcast_apply, shapeCast_self,
    broadcastTo_1b_ab_apply, broadcastTo_a1_ab_apply, shapeCast_a_a1_apply, scalar_ofBits]
  rw [laneSum_apply]
  simp only [addf_apply, mulf_apply, subf_apply, divf_apply, rsqrt_apply, logistic_apply, tanh_apply, broadcast_apply, shapeCast_self,
    broadcastTo_1b_ab_apply, broadcastTo_a1_ab_apply, shapeCast_a_a1_apply, scalar_ofBits]
  rw [hS]
  rfl

/-- The c_t block the body stores, at an index: the specification's row function of row `r` of the scratch row blocks. -/
theorem outC_apply (X H : Vec Ideal S64x8192 .f32) (g β : Vec Ideal S1x8192 .f32) (cp : Vec Ideal S64x2048 .f32)
    (gc βc : Vec Ideal S1x2048 .f32) (r : Fin 64) (j : Fin 2048) :
    k0_pay8 (k0_pay6 X g β H cp) (k0_pay7 X g β H cp) (Scalar.ofBits .f32 0x45000000#32) gc βc (ix2 r j)
      = Cert.Spec.cRow (Cert.Spec.gates (fun q => X (ix2 r q)) (fun q => H (ix2 r q)) (fun q => g (ix2 (0 : Fin 1) q)) (fun q => β (ix2 (0 : Fin 1) q))) (fun q => cp (ix2 r q)) (fun q => gc (ix2 (0 : Fin 1) q)) (fun q => βc (ix2 (0 : Fin 1) q)) j := by
  refine (pay8_apply (k0_pay6 X g β H cp) (k0_pay7 X g β H cp) gc βc r (pay7_apply X H g β cp r) j).trans ?_
  have hrow : (fun k => k0_pay6 X g β H cp (ix2 r k)) = Cert.Spec.cNew (gRow X H g β r) (fun q => cp (ix2 r q)) :=
    funext fun k => pay6_apply X H g β cp r k
  rw [hrow]
  rfl

/-! ## The hidden row -/

/-- The output gate times `tanh` of the block `T`, normalised over its 2048 lanes (no scale, no shift): at `(r, j)` the
    row's entry minus the row's mean, times the reciprocal square root of the row's variance plus epsilon. -/
theorem pay9_apply (O C : FVec Ideal S64x2048 .f32) (S : FVec Ideal S64x1 .f32) (c : Ideal .f32) (gc βc : Vec Ideal S1x2048 .f32)
    (r : Fin 64) (j : Fin 2048) :
    k0_pay9 O C S c gc βc (ix2 r j)
      = ((fun k => O (ix2 r k) * Ideal.tanh (k0_pay8 C S c gc βc (ix2 r k))) j
          - Cert.Spec.mean Cert.Spec.w2048 (fun k => O (ix2 r k) * Ideal.tanh (k0_pay8 C S c gc βc (ix2 r k))))
        * Ideal.rsqrt (Cert.Spec.var Cert.Spec.w2048 (fun k => O (ix2 r k) * Ideal.tanh (k0_pay8 C S c gc βc (ix2 r k))) + Cert.Spec.wEps) := by
  unfold k0_pay9
  simp only [addf_apply, mulf_apply, subf_apply, divf_apply, rsqrt_apply, logistic_apply, tanh_apply, broadcast_apply, shapeCast_self,
    broadcastTo_1b_ab_apply, broadcastTo_a1_ab_apply, shapeCast_a_a1_apply, scalar_ofBits]
  rw [laneSum_apply, laneSum_apply]
  simp only [addf_apply, mulf_apply, subf_apply, divf_apply, rsqrt_apply, logistic_apply, tanh_apply, broadcast_apply, shapeCast_self,
    broadcastTo_1b_ab_apply, broadcastTo_a1_ab_apply, shapeCast_a_a1_apply, scalar_ofBits]
  rw [laneSum_apply]
  rfl

/-- The scale and shift of the hidden row's LayerNorm, at `(r, j)`. -/
theorem pay3_apply (N : FVec Ideal S64x2048 .f32) (γ : FVec Ideal S1x2048 .f32) (β : Vec Ideal S1x2048 .f32) (r : Fin 64) (j : Fin 2048) :
    k0_pay3 N γ β (ix2 r j) = N (ix2 r j) * γ (ix2 (0 : Fin 1) j) + β (ix2 (0 : Fin 1) j) := by
  unfold k0_pay3
  simp only [addf_apply, mulf_apply, subf_apply, divf_apply, rsqrt_apply, logistic_apply, tanh_apply, broadcast_apply, shapeCast_self,
    broadcastTo_1b_ab_apply, broadcastTo_a1_ab_apply, shapeCast_a_a1_apply, scalar_ofBits]

/-- The scale row as the body passes it on: a shape cast to its own shape. -/
theorem pay10_eq (gh : Vec Ideal S1x2048 .f32) : k0_pay10 gh = gh := by
  unfold k0_pay10
  exact shapeCast_self _ _

/-- The h_t block the body stores, at an index. -/
theorem outH_apply (X H : Vec Ideal S64x8192 .f32) (g β : Vec Ideal S1x8192 .f32) (cp : Vec Ideal S64x2048 .f32)
    (gc βc gh βh : Vec Ideal S1x2048 .f32) (r : Fin 64) (j : Fin 2048) :
    k0_pay3 (k0_pay9 (k0_pay5 X g β H) (k0_pay6 X g β H cp) (k0_pay7 X g β H cp) (Scalar.ofBits .f32 0x45000000#32) gc βc) (k0_pay10 gh) βh (ix2 r j)
      = Cert.Spec.hRow (Cert.Spec.gates (fun q => X (ix2 r q)) (fun q => H (ix2 r q)) (fun q => g (ix2 (0 : Fin 1) q)) (fun q => β (ix2 (0 : Fin 1) q))) (fun q => cp (ix2 r q)) (fun q => gc (ix2 (0 : Fin 1) q)) (fun q => βc (ix2 (0 : Fin 1) q))
          (fun q => gh (ix2 (0 : Fin 1) q)) (fun q => βh (ix2 (0 : Fin 1) q)) j := by
  rw [pay3_apply, pay10_eq, pay9_apply]
  have hrow : (fun k => k0_pay5 X g β H (ix2 r k)
        * Ideal.tanh (k0_pay8 (k0_pay6 X g β H cp) (k0_pay7 X g β H cp) (Scalar.ofBits .f32 0x45000000#32) gc βc (ix2 r k)))
      = fun k : Fin 2048 => Ideal.logistic (gRow X H g β r ⟨6144 + k.val, by omega⟩)
        * Ideal.tanh (Cert.Spec.cRow (gRow X H g β r) (fun q => cp (ix2 r q)) (fun q => gc (ix2 (0 : Fin 1) q)) (fun q => βc (ix2 (0 : Fin 1) q)) k) :=
    funext fun k => by rw [pay5_apply, outC_apply]
  rw [hrow]
  rfl

end Cert.KernelIdeal.PayloadValue

end
-- ==== Proof.BlockReads.lean ====
import proofs.«145959_j42855183680049_1_alg».proof.Proof.KernelIdeal.Data
import proofs.«145959_j42855183680049_1_alg».proof.Proof.KernelIdeal.Cases
import proofs.«145959_j42855183680049_1_alg».proof.Proof.PayloadValue
import proofs.«145959_j42855183680049_1_alg».proof.Proof.Spec
import Idealize.ShloMosaic.Lib.StableHlo.Run
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem Idealize.ShloMosaic.ValueIdx

namespace Cert.KernelIdeal.BlockReads

open Cert.KernelIdeal Cert.KernelIdeal.Gen Cert.KernelIdeal.Body

variable (m : (ℓ : Loc nD τ sig) → Buf (Elt Ideal) ℓ) (c : Dev nD)

/-- The batch row of the whole arrays that row `r` of point `t`'s row block is. -/
abbrev rowOf (t : Fin cfg0.N) (r : Fin 64) : Fin 4096 := ⟨64 * (t.val / 8) + r.val, by have := t.isLt; have := Cert.KernelIdeal.Body.N512; have := r.isLt; omega⟩

/-! ## The printed index maps at each of the 512 grid points (a finite check) -/

/-- The batch-row windows (x, h_prev, c_prev) sit at row block `t / 8`, column block 0. -/
theorem idxRow : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0 :=
  (by decide +kernel : ∀ t : Fin grid0.N, _)

/-- The weight and bias windows sit at row block 0, column tile `t % 8`. -/
theorem idxCol : ∀ t : Fin cfg0.N,
    win0_3.index t (0 : Fin 2) = 0 ∧ win0_3.index t (1 : Fin 2) = t.val % 8
    ∧ win0_4.index t (0 : Fin 2) = 0 ∧ win0_4.index t (1 : Fin 2) = t.val % 8
    ∧ win0_5.index t (0 : Fin 2) = 0 ∧ win0_5.index t (1 : Fin 2) = t.val % 8
    ∧ win0_6.index t (0 : Fin 2) = 0 ∧ win0_6.index t (1 : Fin 2) = t.val % 8 :=
  (by decide +kernel : ∀ t : Fin grid0.N, _)

/-- The six LayerNorm parameter rows are one block each, the same at every point. -/
theorem idxConst : ∀ t : Fin cfg0.N,
    win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-! ## The arrays the host operations wrote before the region

  The four conversions to the narrow format are the identity on the extended reals; a reshape `[n] → [1, n]` keeps
  the row-major position, so entry `(0, q)` is entry `q`. -/

theorem V0_eq : (V m c main_v0 : S4096x2048.Idx → EReal) = m ((c.tc : Thread nD τ).loc main_arg0) := by
  dsimp only [Gen.V, Gen.hostOps0]; after_results; rfl
theorem V1_eq : (V m c main_v1 : S4096x2048.Idx → EReal) = m ((c.tc : Thread nD τ).loc main_arg1) := by
  dsimp only [Gen.V, Gen.hostOps0]; after_results; rfl
theorem V2_eq : (V m c main_v2 : S2048x8192.Idx → EReal) = m ((c.tc : Thread nD τ).loc main_arg3) := by
  dsimp only [Gen.V, Gen.hostOps0]; after_results; rfl
theorem V3_eq : (V m c main_v3 : S2048x8192.Idx → EReal) = m ((c.tc : Thread nD τ).loc main_arg4) := by
  dsimp only [Gen.V, Gen.hostOps0]; after_results; rfl

theorem V4_apply (q : Fin 8192) : (V m c main_v4 : S1x8192.Idx → EReal) (ix2 (0 : Fin 1) q) = m ((c.tc : Thread nD τ).loc main_arg5) (ix1 q) := by
  have e : (V m c main_v4 : S1x8192.Idx → EReal) = shapeCast S1x8192 (m ((c.tc : Thread nD τ).loc main_arg5)) shapeCasts_S8192_S1x8192 := by
    dsimp only [Gen.V, Gen.hostOps0]; after_results; rfl
  rw [e]; exact shapeCast_a_1a_apply _ _ _ _
theorem V5_apply (q : Fin 8192) : (V m c main_v5 : S1x8192.Idx → EReal) (ix2 (0 : Fin 1) q) = m ((c.tc : Thread nD τ).loc main_arg6) (ix1 q) := by
  have e : (V m c main_v5 : S1x8192.Idx → EReal) = shapeCast S1x8192 (m ((c.tc : Thread nD τ).loc main_arg6)) shapeCasts_S8192_S1x8192 := by
    dsimp only [Gen.V, Gen.hostOps0]; after_results; rfl
  rw [e]; exact shapeCast_a_1a_apply _ _ _ _
theorem V6_apply (q : Fin 8192) : (V m c main_v6 : S1x8192.Idx → EReal) (ix2 (0 : Fin 1) q) = m ((c.tc : Thread nD τ).loc main_arg7) (ix1 q) := by
  have e : (V m c main_v6 : S1x8192.Idx → EReal) = shapeCast S1x8192 (m ((c.tc : Thread nD τ).loc main_arg7)) shapeCasts_S8192_S1x8192 := by
    dsimp only [Gen.V, Gen.hostOps0]; after_results; rfl
  rw [e]; exact shapeCast_a_1a_apply _ _ _ _
theorem V7_apply (q : Fin 8192) : (V m c main_v7 : S1x8192.Idx → EReal) (ix2 (0 : Fin 1) q) = m ((c.tc : Thread nD τ).loc main_arg8) (ix1 q) := by
  have e : (V m c main_v7 : S1x8192.Idx → EReal) = shapeCast S1x8192 (m ((c.tc : Thread nD τ).loc main_arg8)) shapeCasts_S8192_S1x8192 := by
    dsimp only [Gen.V, Gen.hostOps0]; after_results; rfl
  rw [e]; exact shapeCast_a_1a_apply _ _ _ _
theorem V8_apply (q : Fin 2048) : (V m c main_v8 : S1x2048.Idx → EReal) (ix2 (0 : Fin 1) q) = m ((c.tc : Thread nD τ).loc main_arg9) (ix1 q) := by
  have e : (V m c main_v8 : S1x2048.Idx → EReal) = shapeCast S1x2048 (m ((c.tc : Thread nD τ).loc main_arg9)) shapeCasts_S2048_S1x2048 := by
    dsimp only [Gen.V, Gen.hostOps0]; after_results; rfl
  rw [e]; exact shapeCast_a_1a_apply _ _ _ _
theorem V9_apply (q : Fin 2048) : (V m c main_v9 : S1x2048.Idx → EReal) (ix2 (0 : Fin 1) q) = m ((c.tc : Thread nD τ).loc main_arg10) (ix1 q) := by
  have e : (V m c main_v9 : S1x2048.Idx → EReal) = shapeCast S1x2048 (m ((c.tc : Thread nD τ).loc main_arg10)) shapeCasts_S2048_S1x2048 := by
    dsimp only [Gen.V, Gen.hostOps0]; after_results; rfl
  rw [e]; exact shapeCast_a_1a_apply _ _ _ _
theorem V10_apply (q : Fin 2048) : (V m c main_v10 : S1x2048.Idx → EReal) (ix2 (0 : Fin 1) q) = m ((c.tc : Thread nD τ).loc main_arg11) (ix1 q) := by
  have e : (V m c main_v10 : S1x2048.Idx → EReal) = shapeCast S1x2048 (m ((c.tc : Thread nD τ).loc main_arg11)) shapeCasts_S2048_S1x2048 := by
    dsimp only [Gen.V, Gen.hostOps0]; after_results; rfl
  rw [e]; exact shapeCast_a_1a_apply _ _ _ _
theorem V11_apply (q : Fin 2048) : (V m c main_v11 : S1x2048.Idx → EReal) (ix2 (0 : Fin 1) q) = m ((c.tc : Thread nD τ).loc main_arg12) (ix1 q) := by
  have e : (V m c main_v11 : S1x2048.Idx → EReal) = shapeCast S1x2048 (m ((c.tc : Thread nD τ).loc main_arg12)) shapeCasts_S2048_S1x2048 := by
    dsimp only [Gen.V, Gen.hostOps0]; after_results; rfl
  rw [e]; exact shapeCast_a_1a_apply _ _ _ _

/-! ## A block read at an index

  A block's coordinate in its array is the block index times the block's extent plus the coordinate inside the block. -/

/-- Row `r`, column `k` of the x block of point `t` is x at batch row `64 (t / 8) + r`. -/
theorem b0_read (t : Fin cfg0.N) (r : Fin 64) (k : Fin 2048) (R : Fin 4096) (hR : R.val = 64 * (t.val / 8) + r.val) :
    b0 (F := Ideal) m c t (ix2 r k) = m ((c.tc : Thread nD τ).loc main_arg0) (ix2 R k) := by
  obtain ⟨e0, e1, -⟩ := idxRow t
  refine Eq.trans ?_ (congrFun (V0_eq m c) (ix2 R k))
  show V m c main_v0 (((cfg0.win 0).blk t).view.emb (ix2 r k)) = V m c main_v0 (ix2 R k)
  refine congrArg _ (funext fun a => Fin.ext ?_)
  match a with
  | ⟨0, _⟩ => show win0_0.index t (0 : Fin 2) * 64 + 1 * r.val = R.val; omega
  | ⟨1, _⟩ => show win0_0.index t (1 : Fin 2) * 2048 + 1 * k.val = k.val; omega

/-- The same of the h_prev block. -/
theorem b1_read (t : Fin cfg0.N) (r : Fin 64) (k : Fin 2048) (R : Fin 4096) (hR : R.val = 64 * (t.val / 8) + r.val) :
    b1 (F := Ideal) m c t (ix2 r k) = m ((c.tc : Thread nD τ).loc main_arg1) (ix2 R k) := by
  obtain ⟨-, -, e0, e1, -⟩ := idxRow t
  refine Eq.trans ?_ (congrFun (V1_eq m c) (ix2 R k))
  show V m c main_v1 (((cfg0.win 1).blk t).view.emb (ix2 r k)) = V m c main_v1 (ix2 R k)
  refine congrArg _ (funext fun a => Fin.ext ?_)
  match a with
  | ⟨0, _⟩ => show win0_1.index t (0 : Fin 2) * 64 + 1 * r.val = R.val; omega
  | ⟨1, _⟩ => show win0_1.index t (1 : Fin 2) * 2048 + 1 * k.val = k.val; omega

/-- The same of the c_prev block, whose array is an argument as launched. -/
theorem b2_read (t : Fin cfg0.N) (r : Fin 64) (j : Fin 2048) (R : Fin 4096) (hR : R.val = 64 * (t.val / 8) + r.val) :
    b2 (F := Ideal) m c t (ix2 r j) = m ((c.tc : Thread nD τ).loc main_arg2) (ix2 R j) := by
  obtain ⟨-, -, -, -, e0, e1⟩ := idxRow t
  refine Eq.trans ?_ (congrFun (V_main_arg2 m c) (ix2 R j))
  show V m c main_arg2 (((cfg0.win 2).blk t).view.emb (ix2 r j)) = V m c main_arg2 (ix2 R j)
  refine congrArg _ (funext fun a => Fin.ext ?_)
  match a with
  | ⟨0, _⟩ => show win0_2.index t (0 : Fin 2) * 64 + 1 * r.val = R.val; omega
  | ⟨1, _⟩ => show win0_2.index t (1 : Fin 2) * 2048 + 1 * j.val = j.val; omega

/-- Row `k`, column `j` of the W_ih tile of point `t` is W_ih at column `1024 (t % 8) + j`. -/
theorem b3_read (t : Fin cfg0.N) (k : Fin 2048) (j : Fin 1024) (Q : Fin 8192) (hQ : Q.val = 1024 * (t.val % 8) + j.val) :
    b3 (F := Ideal) m c t (ix2 k j) = m ((c.tc : Thread nD τ).loc main_arg3) (ix2 k Q) := by
  obtain ⟨e0, e1, -⟩ := idxCol t
  refine Eq.trans ?_ (congrFun (V2_eq m c) (ix2 k Q))
  show V m c main_v2 (((cfg0.win 3).blk t).view.emb (ix2 k j)) = V m c main_v2 (ix2 k Q)
  refine congrArg _ (funext fun a => Fin.ext ?_)
  match a with
  | ⟨0, _⟩ => show win0_3.index t (0 : Fin 2) * 2048 + 1 * k.val = k.val; omega
  | ⟨1, _⟩ => show win0_3.index t (1 : Fin 2) * 1024 + 1 * j.val = Q.val; omega

/-- The same of the W_hh tile. -/
theorem b4_read (t : Fin cfg0.N) (k : Fin 2048) (j : Fin 1024) (Q : Fin 8192) (hQ : Q.val = 1024 * (t.val % 8) + j.val) :
    b4 (F := Ideal) m c t (ix2 k j) = m ((c.tc : Thread nD τ).loc main_arg4) (ix2 k Q) := by
  obtain ⟨-, -, e0, e1, -⟩ := idxCol t
  refine Eq.trans ?_ (congrFun (V3_eq m c) (ix2 k Q))
  show V m c main_v3 (((cfg0.win 4).blk t).view.emb (ix2 k j)) = V m c main_v3 (ix2 k Q)
  refine congrArg _ (funext fun a => Fin.ext ?_)
  match a with
  | ⟨0, _⟩ => show win0_4.index t (0 : Fin 2) * 2048 + 1 * k.val = k.val; omega
  | ⟨1, _⟩ => show win0_4.index t (1 : Fin 2) * 1024 + 1 * j.val = Q.val; omega

/-- Entry `j` of the b_ih tile of point `t` is b_ih at `1024 (t % 8) + j`. -/
theorem b5_read (t : Fin cfg0.N) (j : Fin 1024) (Q : Fin 8192) (hQ : Q.val = 1024 * (t.val % 8) + j.val) :
    b5 (F := Ideal) m c t (ix2 (0 : Fin 1) j) = m ((c.tc : Thread nD τ).loc main_arg5) (ix1 Q) := by
  obtain ⟨-, -, -, -, e0, e1, -⟩ := idxCol t
  refine Eq.trans ?_ (V4_apply m c Q)
  show V m c main_v4 (((cfg0.win 5).blk t).view.emb (ix2 (0 : Fin 1) j)) = V m c main_v4 (ix2 (0 : Fin 1) Q)
  refine congrArg _ (funext fun a => Fin.ext ?_)
  match a with
  | ⟨0, _⟩ => show win0_5.index t (0 : Fin 2) * 1 + 1 * 0 = 0; omega
  | ⟨1, _⟩ => show win0_5.index t (1 : Fin 2) * 1024 + 1 * j.val = Q.val; omega

/-- The same of the b_hh tile. -/
theorem b6_read (t : Fin cfg0.N) (j : Fin 1024) (Q : Fin 8192) (hQ : Q.val = 1024 * (t.val % 8) + j.val) :
    b6 (F := Ideal) m c t (ix2 (0 : Fin 1) j) = m ((c.tc : Thread nD τ).loc main_arg6) (ix1 Q) := by
  obtain ⟨-, -, -, -, -, -, e0, e1⟩ := idxCol t
  refine Eq.trans ?_ (V5_apply m c Q)
  show V m c main_v5 (((cfg0.win 6).blk t).view.emb (ix2 (0 : Fin 1) j)) = V m c main_v5 (ix2 (0 : Fin 1) Q)
  refine congrArg _ (funext fun a => Fin.ext ?_)
  match a with
  | ⟨0, _⟩ => show win0_6.index t (0 : Fin 2) * 1 + 1 * 0 = 0; omega
  | ⟨1, _⟩ => show win0_6.index t (1 : Fin 2) * 1024 + 1 * j.val = Q.val; omega

/-! ## The stored tiles and the full row blocks -/

/-- The input path's tile of point `t` at `(r, j)`: the affine row of the argument arrays at batch row
    `64 (t / 8) + r` and column `1024 (t % 8) + j`. -/
theorem xTile_apply (t : Fin cfg0.N) (r : Fin 64) (j : Fin 1024) (R : Fin 4096) (Q : Fin 8192)
    (hR : R.val = 64 * (t.val / 8) + r.val) (hQ : Q.val = 1024 * (t.val % 8) + j.val) :
    xTile (F := Ideal) m c t (ix2 r j) = Cert.Spec.affRow (m ((c.tc : Thread nD τ).loc main_arg0)) (m ((c.tc : Thread nD τ).loc main_arg3)) (m ((c.tc : Thread nD τ).loc main_arg5)) R Q := by
  unfold xTile Cert.Spec.affRow
  refine (PayloadValue.pay1_apply _ _ _ r j).trans ?_
  refine congrArg₂ (· + ·) (Finset.sum_congr rfl fun k _ => ?_) (b5_read m c t j Q hQ)
  exact congrArg₂ (· * ·) (b0_read m c t r k R hR) (b3_read m c t k j Q hQ)

/-- The hidden path's, likewise. -/
theorem hTile_apply (t : Fin cfg0.N) (r : Fin 64) (j : Fin 1024) (R : Fin 4096) (Q : Fin 8192)
    (hR : R.val = 64 * (t.val / 8) + r.val) (hQ : Q.val = 1024 * (t.val % 8) + j.val) :
    hTile (F := Ideal) m c t (ix2 r j) = Cert.Spec.affRow (m ((c.tc : Thread nD τ).loc main_arg1)) (m ((c.tc : Thread nD τ).loc main_arg4)) (m ((c.tc : Thread nD τ).loc main_arg6)) R Q := by
  unfold hTile Cert.Spec.affRow
  refine (PayloadValue.pay2_apply _ _ _ r j).trans ?_
  refine congrArg₂ (· + ·) (Finset.sum_congr rfl fun k _ => ?_) (b6_read m c t j Q hQ)
  exact congrArg₂ (· * ·) (b1_read m c t r k R hR) (b4_read m c t k j Q hQ)

/-- The input path's full row block at an index is the specification's affine row of the argument arrays. -/
theorem xFull_apply (t : Fin cfg0.N) (r : Fin 64) (q : Fin 8192) :
    xFull (F := Ideal) m c t (ix2 r q) = Cert.Spec.affRow (m ((c.tc : Thread nD τ).loc main_arg0)) (m ((c.tc : Thread nD τ).loc main_arg3)) (m ((c.tc : Thread nD τ).loc main_arg5)) (rowOf t r) q := by
  have ht := t.isLt
  have hN := Cert.KernelIdeal.Body.N512
  have hq := q.isLt
  have hg : q.val / 1024 < 8 := by omega
  show xTile m c (tileAt t (q.val / 1024) hg) (ix2 r ⟨q.val % 1024, Nat.mod_lt _ (by norm_num)⟩) = _
  refine xTile_apply m c _ r _ (rowOf t r) q ?_ ?_
  · show 64 * (t.val / 8) + r.val = 64 * ((t.val - t.val % 8 + q.val / 1024) / 8) + r.val
    omega
  · show q.val = 1024 * ((t.val - t.val % 8 + q.val / 1024) % 8) + q.val % 1024
    omega
/-- The hidden path's, likewise. -/
theorem hFull_apply (t : Fin cfg0.N) (r : Fin 64) (q : Fin 8192) :
    hFull (F := Ideal) m c t (ix2 r q) = Cert.Spec.affRow (m ((c.tc : Thread nD τ).loc main_arg1)) (m ((c.tc : Thread nD τ).loc main_arg4)) (m ((c.tc : Thread nD τ).loc main_arg6)) (rowOf t r) q := by
  have ht := t.isLt
  have hN := Cert.KernelIdeal.Body.N512
  have hq := q.isLt
  have hg : q.val / 1024 < 8 := by omega
  show hTile m c (tileAt t (q.val / 1024) hg) (ix2 r ⟨q.val % 1024, Nat.mod_lt _ (by norm_num)⟩) = _
  refine hTile_apply m c _ r _ (rowOf t r) q ?_ ?_
  · show 64 * (t.val / 8) + r.val = 64 * ((t.val - t.val % 8 + q.val / 1024) / 8) + r.val
    omega
  · show q.val = 1024 * ((t.val - t.val % 8 + q.val / 1024) % 8) + q.val % 1024
    omega
/-- The c_prev block at an index. -/
theorem b2_apply (t : Fin cfg0.N) (r : Fin 64) (j : Fin 2048) :
    b2 (F := Ideal) m c t (ix2 r j) = (m ((c.tc : Thread nD τ).loc main_arg2)) (ix2 (rowOf t r) j) :=
  b2_read m c t r j (rowOf t r) rfl
/-- The four 8192- and 2048-entry parameter rows at an index: the argument vector's entry. -/
theorem b7_apply (t : Fin cfg0.N) (q : Fin 8192) : b7 (F := Ideal) m c t (ix2 (0 : Fin 1) q) = (m ((c.tc : Thread nD τ).loc main_arg7)) (ix1 q) := by
  obtain ⟨e0, e1, -⟩ := idxConst t
  refine Eq.trans ?_ (V6_apply m c q)
  show V m c main_v6 (((cfg0.win 7).blk t).view.emb (ix2 (0 : Fin 1) q)) = V m c main_v6 (ix2 (0 : Fin 1) q)
  refine congrArg _ (funext fun a => Fin.ext ?_)
  match a with
  | ⟨0, _⟩ => show win0_7.index t (0 : Fin 2) * 1 + 1 * 0 = 0; omega
  | ⟨1, _⟩ => show win0_7.index t (1 : Fin 2) * 8192 + 1 * q.val = q.val; omega
theorem b8_apply (t : Fin cfg0.N) (q : Fin 8192) : b8 (F := Ideal) m c t (ix2 (0 : Fin 1) q) = (m ((c.tc : Thread nD τ).loc main_arg8)) (ix1 q) := by
  obtain ⟨-, -, e0, e1, -⟩ := idxConst t
  refine Eq.trans ?_ (V7_apply m c q)
  show V m c main_v7 (((cfg0.win 8).blk t).view.emb (ix2 (0 : Fin 1) q)) = V m c main_v7 (ix2 (0 : Fin 1) q)
  refine congrArg _ (funext fun a => Fin.ext ?_)
  match a with
  | ⟨0, _⟩ => show win0_8.index t (0 : Fin 2) * 1 + 1 * 0 = 0; omega
  | ⟨1, _⟩ => show win0_8.index t (1 : Fin 2) * 8192 + 1 * q.val = q.val; omega
theorem b9_apply (t : Fin cfg0.N) (q : Fin 2048) : b9 (F := Ideal) m c t (ix2 (0 : Fin 1) q) = (m ((c.tc : Thread nD τ).loc main_arg9)) (ix1 q) := by
  obtain ⟨-, -, -, -, e0, e1, -⟩ := idxConst t
  refine Eq.trans ?_ (V8_apply m c q)
  show V m c main_v8 (((cfg0.win 9).blk t).view.emb (ix2 (0 : Fin 1) q)) = V m c main_v8 (ix2 (0 : Fin 1) q)
  refine congrArg _ (funext fun a => Fin.ext ?_)
  match a with
  | ⟨0, _⟩ => show win0_9.index t (0 : Fin 2) * 1 + 1 * 0 = 0; omega
  | ⟨1, _⟩ => show win0_9.index t (1 : Fin 2) * 2048 + 1 * q.val = q.val; omega
theorem b10_apply (t : Fin cfg0.N) (q : Fin 2048) : b10 (F := Ideal) m c t (ix2 (0 : Fin 1) q) = (m ((c.tc : Thread nD τ).loc main_arg10)) (ix1 q) := by
  obtain ⟨-, -, -, -, -, -, e0, e1, -⟩ := idxConst t
  refine Eq.trans ?_ (V9_apply m c q)
  show V m c main_v9 (((cfg0.win 10).blk t).view.emb (ix2 (0 : Fin 1) q)) = V m c main_v9 (ix2 (0 : Fin 1) q)
  refine congrArg _ (funext fun a => Fin.ext ?_)
  match a with
  | ⟨0, _⟩ => show win0_10.index t (0 : Fin 2) * 1 + 1 * 0 = 0; omega
  | ⟨1, _⟩ => show win0_10.index t (1 : Fin 2) * 2048 + 1 * q.val = q.val; omega
theorem b11_apply (t : Fin cfg0.N) (q : Fin 2048) : b11 (F := Ideal) m c t (ix2 (0 : Fin 1) q) = (m ((c.tc : Thread nD τ).loc main_arg11)) (ix1 q) := by
  obtain ⟨-, -, -, -, -, -, -, -, e0, e1, -⟩ := idxConst t
  refine Eq.trans ?_ (V10_apply m c q)
  show V m c main_v10 (((cfg0.win 11).blk t).view.emb (ix2 (0 : Fin 1) q)) = V m c main_v10 (ix2 (0 : Fin 1) q)
  refine congrArg _ (funext fun a => Fin.ext ?_)
  match a with
  | ⟨0, _⟩ => show win0_11.index t (0 : Fin 2) * 1 + 1 * 0 = 0; omega
  | ⟨1, _⟩ => show win0_11.index t (1 : Fin 2) * 2048 + 1 * q.val = q.val; omega
theorem b12_apply (t : Fin cfg0.N) (q : Fin 2048) : b12 (F := Ideal) m c t (ix2 (0 : Fin 1) q) = (m ((c.tc : Thread nD τ).loc main_arg12)) (ix1 q) := by
  obtain ⟨-, -, -, -, -, -, -, -, -, -, e0, e1⟩ := idxConst t
  refine Eq.trans ?_ (V11_apply m c q)
  show V m c main_v11 (((cfg0.win 12).blk t).view.emb (ix2 (0 : Fin 1) q)) = V m c main_v11 (ix2 (0 : Fin 1) q)
  refine congrArg _ (funext fun a => Fin.ext ?_)
  match a with
  | ⟨0, _⟩ => show win0_12.index t (0 : Fin 2) * 1 + 1 * 0 = 0; omega
  | ⟨1, _⟩ => show win0_12.index t (1 : Fin 2) * 2048 + 1 * q.val = q.val; omega

end Cert.KernelIdeal.BlockReads

end
-- ==== Proof.KernelValue.lean ====
import proofs.«145959_j42855183680049_1_alg».proof.Proof.KernelIdeal.Data
import proofs.«145959_j42855183680049_1_alg».proof.Proof.KernelIdeal.Cases
import proofs.«145959_j42855183680049_1_alg».proof.Proof.PayloadValue
import proofs.«145959_j42855183680049_1_alg».proof.Proof.BlockReads
import proofs.«145959_j42855183680049_1_alg».proof.Proof.Spec
import Idealize.ShloMosaic.Lib.Pipeline.Value

set_option maxRecDepth 16384

noncomputable section

open scoped BigOperators
open Idealize.ShloMosaic Idealize.ShloMosaic.TcCoe Idealize.SL.Sem Idealize.ShloMosaic.ValueIdx

namespace Cert.KernelIdeal.KernelValue

open Cert.KernelIdeal Cert.KernelIdeal.Gen Cert.KernelIdeal.Body Cert.KernelIdeal.BlockReads

variable (m : (ℓ : Loc nD τ sig) → Buf (Elt Ideal) ℓ) (c : Dev nD)

/-- The specification's h_t array of the launch memory. -/
abbrev GhM : (⟨2, ![4096, 2048]⟩ : Shape).Idx → EReal :=
  Cert.Spec.Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
/-- The specification's c_t array of the launch memory. -/
abbrev GcM : (⟨2, ![4096, 2048]⟩ : Shape).Idx → EReal :=
  Cert.Spec.Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The gates' row of batch row `R`, from the launch memory. -/
abbrev gatesM (R : Fin 4096) : Fin 8192 → EReal :=
  Cert.Spec.gatesOf (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) R

/-- What the body stores into the h_t block at the last column tile, at row `r` and column `j` of the block: the
    specification's h_t row of batch row `64 · (t / 8) + r`, at `j`. -/
theorem outH_val (t : Fin cfg0.N) (r : Fin 64) (j : Fin 2048) :
    outH (F := Ideal) m c t (ix2 r j)
      = Cert.Spec.hRow (gatesM m c (rowOf t r)) (fun q => (m ((c.tc : Thread nD τ).loc main_arg2)) (ix2 (rowOf t r) q))
          (fun q => (m ((c.tc : Thread nD τ).loc main_arg9)) (ix1 q)) (fun q => (m ((c.tc : Thread nD τ).loc main_arg10)) (ix1 q))
          (fun q => (m ((c.tc : Thread nD τ).loc main_arg11)) (ix1 q)) (fun q => (m ((c.tc : Thread nD τ).loc main_arg12)) (ix1 q)) j := by
  unfold outH cNewBlk cSumBlk oGateBlk
  rw [PayloadValue.outH_apply]
  simp only [xFull_apply, hFull_apply, b2_apply, b7_apply, b8_apply, b9_apply, b10_apply, b11_apply, b12_apply]
  rfl

/-- The same of the c_t block. -/
theorem outC_val (t : Fin cfg0.N) (r : Fin 64) (j : Fin 2048) :
    outC (F := Ideal) m c t (ix2 r j)
      = Cert.Spec.cRow (gatesM m c (rowOf t r)) (fun q => (m ((c.tc : Thread nD τ).loc main_arg2)) (ix2 (rowOf t r) q))
          (fun q => (m ((c.tc : Thread nD τ).loc main_arg9)) (ix1 q)) (fun q => (m ((c.tc : Thread nD τ).loc main_arg10)) (ix1 q)) j := by
  unfold outC cNewBlk cSumBlk
  rw [PayloadValue.outC_apply]
  simp only [xFull_apply, hFull_apply, b2_apply, b7_apply, b8_apply, b9_apply, b10_apply]
  rfl

/-- The printed index map of the h_t window, decided over the grid: row block `t / 8`, the one column block. -/
theorem idx13 : ∀ t : Fin cfg0.N, win0_13.index t (0 : Fin 2) = t.val / 8 ∧ win0_13.index t (1 : Fin 2) = 0 :=
  (by decide +kernel : ∀ t : Fin grid0.N, _)
/-- The same of the c_t window. -/
theorem idx14 : ∀ t : Fin cfg0.N, win0_14.index t (0 : Fin 2) = t.val / 8 ∧ win0_14.index t (1 : Fin 2) = 0 :=
  (by decide +kernel : ∀ t : Fin grid0.N, _)

/-- Element `(r, j)` of the h_t block at point `t` sits in the array at batch row `64 · (t / 8) + r`, column `j`. -/
theorem emb13 (t : Fin cfg0.N) (r : Fin 64) (j : Fin 2048) :
    ((cfg0.win 13).blk t).view.emb (ix2 r j) = ix2 (rowOf t r) j := by
  obtain ⟨e0, e1⟩ := idx13 t
  funext a; apply Fin.ext
  match a with
  | ⟨0, _⟩ => show win0_13.index t (0 : Fin 2) * 64 + 1 * r.val = 64 * (t.val / 8) + r.val; omega
  | ⟨1, _⟩ => show win0_13.index t (1 : Fin 2) * 2048 + 1 * j.val = j.val; omega
/-- The same of the c_t block. -/
theorem emb14 (t : Fin cfg0.N) (r : Fin 64) (j : Fin 2048) :
    ((cfg0.win 14).blk t).view.emb (ix2 r j) = ix2 (rowOf t r) j := by
  obtain ⟨e0, e1⟩ := idx14 t
  funext a; apply Fin.ext
  match a with
  | ⟨0, _⟩ => show win0_14.index t (0 : Fin 2) * 64 + 1 * r.val = 64 * (t.val / 8) + r.val; omega
  | ⟨1, _⟩ => show win0_14.index t (1 : Fin 2) * 2048 + 1 * j.val = j.val; omega

/-- What a point writes back to the h_t array is its block of the specification's array. -/
theorem flushed13_eq (t : Fin cfg0.N) :
    (dats (F := Ideal) m 0 c).flushed 13 t = ((cfg0.win 13).blk t).view.read (Elt Ideal) (GhM m c) := by
  show (cfg0.win 13).cut (grid0.coords t) ((dats m 0 c).after 13 t) = _
  rw [after0_13]
  funext y
  show outH m c t y = GhM m c (((cfg0.win 13).blk t).view.emb y)
  obtain ⟨r, j, rfl⟩ : ∃ (r : Fin 64) (j : Fin 2048), y = ix2 r j := ⟨y 0, y 1, eq_ix2 y⟩
  rw [outH_val, emb13]
  rfl
/-- What a point writes back to the c_t array is its block of the specification's array. -/
theorem flushed14_eq (t : Fin cfg0.N) :
    (dats (F := Ideal) m 0 c).flushed 14 t = ((cfg0.win 14).blk t).view.read (Elt Ideal) (GcM m c) := by
  show (cfg0.win 14).cut (grid0.coords t) ((dats m 0 c).after 14 t) = _
  rw [after0_14]
  funext y
  show outC m c t y = GcM m c (((cfg0.win 14).blk t).view.emb y)
  obtain ⟨r, j, rfl⟩ : ∃ (r : Fin 64) (j : Fin 2048), y = ix2 r j := ⟨y 0, y 1, eq_ix2 y⟩
  rw [outC_val, emb14]
  rfl

/-- An index of the h_t array is in point `t`'s block iff each coordinate is in the block's range on its axis. -/
theorem mem_blk13 (t : Fin cfg0.N) (i : S4096x2048.Idx) :
    i ∈ ((cfg0.win 13).blk t).view.set ↔ ∀ a : Fin 2, win0_13.index t a * S64x2048.size a ≤ (i a).val ∧ (i a).val < win0_13.index t a * S64x2048.size a + S64x2048.size a := by
  show i ∈ ((View.whole main_v12_0).slice (win0_13.rect t)).set ↔ _
  rw [View.set_slice_whole, Rect.mem_set_unit]
  exact Iff.rfl
/-- The same of the c_t array. -/
theorem mem_blk14 (t : Fin cfg0.N) (i : S4096x2048.Idx) :
    i ∈ ((cfg0.win 14).blk t).view.set ↔ ∀ a : Fin 2, win0_14.index t a * S64x2048.size a ≤ (i a).val ∧ (i a).val < win0_14.index t a * S64x2048.size a + S64x2048.size a := by
  show i ∈ ((View.whole main_v12_1).slice (win0_14.rect t)).set ↔ _
  rw [View.set_slice_whole, Rect.mem_set_unit]
  exact Iff.rfl

/-- Every index of the h_t array is in the block some point writes back: batch row `R` is in row block `R / 64`, written
    back at that row block's last column tile, the point `8 · (R / 64) + 7`. -/
theorem cover13 (i : S4096x2048.Idx) :
    ∃ t : Fin cfg0.N, (cfg0.win 13).flush t = true ∧ i ∈ ((cfg0.win 13).blk t).view.set := by
  have hi0 : (i 0).val < 4096 := (i 0).isLt
  have hi1 : (i 1).val < 2048 := (i 1).isLt
  have hN : cfg0.N = 512 := N512
  obtain ⟨t, ht⟩ : ∃ t : Fin cfg0.N, t.val = 8 * ((i 0).val / 64) + 7 := ⟨⟨8 * ((i 0).val / 64) + 7, by omega⟩, rfl⟩
  obtain ⟨e0, e1⟩ := idx13 t
  refine ⟨t, (flush0_13 t).mpr (by omega), ?_⟩
  rw [mem_blk13]
  intro a
  match a with
  | ⟨0, _⟩ => show win0_13.index t (0 : Fin 2) * 64 ≤ (i 0).val ∧ (i 0).val < win0_13.index t (0 : Fin 2) * 64 + 64; omega
  | ⟨1, _⟩ => show win0_13.index t (1 : Fin 2) * 2048 ≤ (i 1).val ∧ (i 1).val < win0_13.index t (1 : Fin 2) * 2048 + 2048; omega
/-- The same of the c_t array. -/
theorem cover14 (i : S4096x2048.Idx) :
    ∃ t : Fin cfg0.N, (cfg0.win 14).flush t = true ∧ i ∈ ((cfg0.win 14).blk t).view.set := by
  have hi0 : (i 0).val < 4096 := (i 0).isLt
  have hi1 : (i 1).val < 2048 := (i 1).isLt
  have hN : cfg0.N = 512 := N512
  obtain ⟨t, ht⟩ : ∃ t : Fin cfg0.N, t.val = 8 * ((i 0).val / 64) + 7 := ⟨⟨8 * ((i 0).val / 64) + 7, by omega⟩, rfl⟩
  obtain ⟨e0, e1⟩ := idx14 t
  refine ⟨t, (flush0_14 t).mpr (by omega), ?_⟩
  rw [mem_blk14]
  intro a
  match a with
  | ⟨0, _⟩ => show win0_14.index t (0 : Fin 2) * 64 ≤ (i 0).val ∧ (i 0).val < win0_14.index t (0 : Fin 2) * 64 + 64; omega
  | ⟨1, _⟩ => show win0_14.index t (1 : Fin 2) * 2048 ≤ (i 1).val ∧ (i 1).val < win0_14.index t (1 : Fin 2) * 2048 + 2048; omega

/-- The h_t array after the run: every block written back at the last column tile of its row block, together the whole
    array function of the specification. -/
theorem final13 : (dats (F := Ideal) m 0 c).arrAt 13 cfg0.N = Cert.Spec.Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (dats (F := Ideal) m 0 c).arrAt_eq_of_cover 13 (GhM m c) (fun t _ => flushed13_eq m c t) cover13
/-- The c_t array after the run. -/
theorem final14 : (dats (F := Ideal) m 0 c).arrAt 14 cfg0.N = Cert.Spec.Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (dats (F := Ideal) m 0 c).arrAt_eq_of_cover 14 (GcM m c) (fun t _ => flushed14_eq m c t) cover14

end Cert.KernelIdeal.KernelValue

end
-- ==== Proof.KernelRun.lean ====
import proofs.«145959_j42855183680049_1_alg».proof.Proof.KernelIdeal.Body
import proofs.«145959_j42855183680049_1_alg».proof.Proof.KernelValue

set_option maxRecDepth 16384

noncomputable section

open scoped BigOperators
open Idealize.ShloMosaic Idealize.ShloMosaic.TcCoe Idealize.SL.Sem Idealize.ShloMosaic.ValueIdx

namespace Cert.KernelIdeal.KernelValue

open Cert.KernelIdeal Cert.KernelIdeal.Gen Cert.KernelIdeal.Body

/-- The idealized kernel's run with both results named: every weakly fair execution terminates with h_t and c_t at the
    specification's whole-array functions of the launch contents of the arguments, and the arguments unchanged — the frame
    run's post read at the two output arrays (the blocks written back cover them) and at the argument arrays. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12_0) = Cert.Spec.Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v12_1) = Cert.Spec.Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 13).trans (final13 m c), ((h c).1 14).trans (final14 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_main (F := Ideal) m ρ)

end Cert.KernelIdeal.KernelValue

end
-- ==== Proof.RefValue.lean ====
/-
  The reference program's run, read as the specification: each of its two results is the whole-array function of the
  argument arrays (Spec.lean's `Gh`, `Gc`), entry by entry.

  The road: each of the reference's operations is read at an index (a product as a sum over the contracted coordinate, a
  row sum as a sum over the row's entries, a broadcast or a slice as one entry of its operand); the reference's affine map,
  mean and LayerNorm are then read on arbitrary operands as the specification's `affRow`, `mean` and `ln`; the run's named
  intermediates follow bottom-up, one entry at a time; the two results are the last LayerNorms.
-/
import proofs.«145959_j42855183680049_1_alg».proof.Defs
import proofs.«145959_j42855183680049_1_alg».proof.Proof.Gen.ReferenceIdeal
import proofs.«145959_j42855183680049_1_alg».proof.Proof.Gen.ReferenceIdeal.Run
import proofs.«145959_j42855183680049_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Value

/-! ## Words -/

/-- The word the reference prints for the numerator and the summand of its sigmoids is the real one. -/
theorem one_f32 : Ideal.ofBits .f32 0x3F800000#32 = 1 := Ideal.ofBits_one_f32

/-! ## The host's pointwise functions at an index -/

section Pointwise
variable {s : Shape}

theorem hostRsqrt_apply (x : FVec Ideal s .f32) (i : s.Idx) : Host.rsqrt x i = Ideal.rsqrt (x i) := rfl
theorem hostExp_apply (x : FVec Ideal s .f32) (i : s.Idx) : Host.exp x i = Ideal.exp (x i) := rfl
theorem hostNegf_apply (x : FVec Ideal s .f32) (i : s.Idx) : Host.negf x i = -(x i) := rfl
theorem hostTanh_apply (x : FVec Ideal s .f32) (i : s.Idx) : Host.tanh x i = Ideal.tanh (x i) := rfl

/-- A scalar constant spread over any shape reads the extended real its word encodes. -/
theorem splat_apply (T : Shape) (h : S_.BroadcastsInDim T ![]) (w : BitVec 32) (j : T.Idx) :
    broadcastInDim T ![] h (constant (F := Ideal) S_ .f32 w) j = Ideal.ofBits .f32 w := rfl

end Pointwise

/-! ## The reference's layout operations at an index -/

section Layout
variable {α : Type}

/-- A vector of 8192 entries laid as one row and repeated down the 4096 rows reads, at `(R, g)`, its entry `g`. -/
theorem row8192_apply (b : S8192.Idx → α) (R : Fin 4096) (g : Fin 8192) :
    broadcastInDim S4096x8192 ![0, 1] bcast_S1x8192_S4096x8192_0_1
        (broadcastInDim S1x8192 ![1] bcast_S8192_S1x8192_1 b) (ix2 R g) = b (ix1 g) := by
  refine (broadcastInDim_apply _ _ _ (ix2 R g) (ix2 (0 : Fin 1) g) ?_).trans ?_
  · intro a
    match a with
    | ⟨0, _⟩ => rfl
    | ⟨1, _⟩ => rfl
  · refine broadcastInDim_apply _ _ _ (ix2 (0 : Fin 1) g) (ix1 g) ?_
    intro a
    match a with
    | ⟨0, _⟩ => rfl

/-- The same for a vector of 2048 entries. -/
theorem row2048_apply (b : S2048.Idx → α) (R : Fin 4096) (j : Fin 2048) :
    broadcastInDim S4096x2048 ![0, 1] bcast_S1x2048_S4096x2048_0_1
        (broadcastInDim S1x2048 ![1] bcast_S2048_S1x2048_1 b) (ix2 R j) = b (ix1 j) := by
  refine (broadcastInDim_apply _ _ _ (ix2 R j) (ix2 (0 : Fin 1) j) ?_).trans ?_
  · intro a
    match a with
    | ⟨0, _⟩ => rfl
    | ⟨1, _⟩ => rfl
  · refine broadcastInDim_apply _ _ _ (ix2 (0 : Fin 1) j) (ix1 j) ?_
    intro a
    match a with
    | ⟨0, _⟩ => rfl

/-- One value per row, kept as a column: row `R`'s value. -/
theorem col_apply (v : S4096.Idx → α) (R : Fin 4096) :
    broadcastInDim S4096x1 ![0] bcast_S4096_S4096x1_0 v (ix2 R (0 : Fin 1)) = v (ix1 R) :=
  broadcastInDim_apply _ _ _ _ (ix1 R) (fun a => by
    match a with
    | ⟨0, _⟩ => rfl)

/-- A column repeated along 8192 entries reads, at `(R, g)`, row `R`'s value. -/
theorem spread8192_apply (c : S4096x1.Idx → α) (R : Fin 4096) (g : Fin 8192) :
    broadcastInDim S4096x8192 ![0, 1] bcast_S4096x1_S4096x8192_0_1 c (ix2 R g) = c (ix2 R (0 : Fin 1)) :=
  broadcastInDim_apply _ _ _ _ (ix2 R (0 : Fin 1)) (fun a => by
    match a with
    | ⟨0, _⟩ => rfl
    | ⟨1, _⟩ => rfl)

/-- A column repeated along 2048 entries reads, at `(R, j)`, row `R`'s value. -/
theorem spread2048_apply (c : S4096x1.Idx → α) (R : Fin 4096) (j : Fin 2048) :
    broadcastInDim S4096x2048 ![0, 1] bcast_S4096x1_S4096x2048_0_1 c (ix2 R j) = c (ix2 R (0 : Fin 1)) :=
  broadcastInDim_apply _ _ _ _ (ix2 R (0 : Fin 1)) (fun a => by
    match a with
    | ⟨0, _⟩ => rfl
    | ⟨1, _⟩ => rfl)

/-- The four quarters of a row of 8192: entry `j` of the quarter cut from `o` is entry `o + j` of the row. -/
theorem quarter0_apply (X : S4096x8192.Idx → α) (R : Fin 4096) (j : Fin 2048) :
    extractStridedSlice S4096x2048 ![0, 0] X slices_S4096x8192_S4096x2048_0_0 (ix2 R j)
      = X (ix2 R ⟨j.val, by omega⟩) :=
  slice2_axis1_apply 0 X _ R j _ (Nat.zero_add _).symm
theorem quarter1_apply (X : S4096x8192.Idx → α) (R : Fin 4096) (j : Fin 2048) :
    extractStridedSlice S4096x2048 ![0, 2048] X slices_S4096x8192_S4096x2048_0_2048 (ix2 R j)
      = X (ix2 R ⟨2048 + j.val, by omega⟩) :=
  slice2_axis1_apply 2048 X _ R j _ rfl
theorem quarter2_apply (X : S4096x8192.Idx → α) (R : Fin 4096) (j : Fin 2048) :
    extractStridedSlice S4096x2048 ![0, 4096] X slices_S4096x8192_S4096x2048_0_4096 (ix2 R j)
      = X (ix2 R ⟨4096 + j.val, by omega⟩) :=
  slice2_axis1_apply 4096 X _ R j _ rfl
theorem quarter3_apply (X : S4096x8192.Idx → α) (R : Fin 4096) (j : Fin 2048) :
    extractStridedSlice S4096x2048 ![0, 6144] X slices_S4096x8192_S4096x2048_0_6144 (ix2 R j)
      = X (ix2 R ⟨6144 + j.val, by omega⟩) :=
  slice2_axis1_apply 6144 X _ R j _ rfl

end Layout

/-! ## The reference's sums along a row -/

/-- The host's sum of a 4096 × 8192 array along its rows, from the zero word: at row `R` the sum of the row's 8192 entries. -/
theorem rowSum8192_apply (X : FVec Ideal S4096x8192 .f32) (R : Fin 4096) :
    Host.reduceAdd X (constant (F := Ideal) S_ .f32 0x00000000#32) reducesTo_S4096x8192_S4096_d1 h_S_ (ix1 R)
      = ∑ k : Fin 8192, X (ix2 R k) := by
  rw [hostReduceAdd_apply, Ideal.hostReduceAdd_single reducesTo_S4096x8192_S4096_d1 (by decide), constant_apply,
    Ideal.ofBits_zero_f32, zero_add]
  refine Finset.sum_congr rfl fun k _ => congrArg X (funext fun a => Fin.ext ?_)
  match a with
  | ⟨0, _⟩ => rfl
  | ⟨1, _⟩ => rfl

/-- The same for a 4096 × 2048 array: the sum of the row's 2048 entries. -/
theorem rowSum2048_apply (X : FVec Ideal S4096x2048 .f32) (R : Fin 4096) :
    Host.reduceAdd X (constant (F := Ideal) S_ .f32 0x00000000#32) reducesTo_S4096x2048_S4096_d1 h_S_ (ix1 R)
      = ∑ k : Fin 2048, X (ix2 R k) := by
  rw [hostReduceAdd_apply, Ideal.hostReduceAdd_single reducesTo_S4096x2048_S4096_d1 (by decide), constant_apply,
    Ideal.ofBits_zero_f32, zero_add]
  refine Finset.sum_congr rfl fun k _ => congrArg X (funext fun a => Fin.ext ?_)
  match a with
  | ⟨0, _⟩ => rfl
  | ⟨1, _⟩ => rfl

/-! ## The reference's matrix product at an index

The product contracts the left operand's axis 1 with the right operand's axis 0. Each operand index is read one axis at a
time: a free axis reads the result index, the contracted axis reads the contraction index's one coordinate. -/

theorem lhs_axis0 (i : S4096x8192.Idx) (q : dot_S4096x2048_S2048x8192_S4096x8192_1_0_0_1_n_n.contr.Idx) :
    (dot_S4096x2048_S2048x8192_S4096x8192_1_0_0_1_n_n.lhsIdx i q 0).val = (i 0).val := by
  unfold DotDims.lhsIdx
  rw [dif_neg (show ¬(0 : Fin S4096x2048.rank) ∈ dot_S4096x2048_S2048x8192_S4096x8192_1_0_0_1_n_n.lhsBatch by decide),
    dif_pos (show (0 : Fin S4096x2048.rank) ∈ dot_S4096x2048_S2048x8192_S4096x8192_1_0_0_1_n_n.lhsNonContracting by decide)]
  rfl

theorem lhs_axis1 (i : S4096x8192.Idx) (q : dot_S4096x2048_S2048x8192_S4096x8192_1_0_0_1_n_n.contr.Idx) :
    (dot_S4096x2048_S2048x8192_S4096x8192_1_0_0_1_n_n.lhsIdx i q 1).val = (q ⟨0, by decide⟩).val :=
  dot_S4096x2048_S2048x8192_S4096x8192_1_0_0_1_n_n.lhsIdx_val_of_single rfl i q

theorem rhs_axis0 (i : S4096x8192.Idx) (q : dot_S4096x2048_S2048x8192_S4096x8192_1_0_0_1_n_n.contr.Idx) :
    (dot_S4096x2048_S2048x8192_S4096x8192_1_0_0_1_n_n.rhsIdx i q 0).val = (q ⟨0, by decide⟩).val :=
  dot_S4096x2048_S2048x8192_S4096x8192_1_0_0_1_n_n.rhsIdx_val_of_single rfl i q

theorem rhs_axis1 (i : S4096x8192.Idx) (q : dot_S4096x2048_S2048x8192_S4096x8192_1_0_0_1_n_n.contr.Idx) :
    (dot_S4096x2048_S2048x8192_S4096x8192_1_0_0_1_n_n.rhsIdx i q 1).val = (i 1).val := by
  unfold DotDims.rhsIdx
  rw [dif_neg (show ¬(1 : Fin S2048x8192.rank) ∈ dot_S4096x2048_S2048x8192_S4096x8192_1_0_0_1_n_n.rhsBatch by decide),
    dif_pos (show (1 : Fin S2048x8192.rank) ∈ dot_S4096x2048_S2048x8192_S4096x8192_1_0_0_1_n_n.rhsNonContracting by decide)]
  rfl

/-- Entry `(R, g)` of the product is the sum over `k` of `A[R, k] · B[k, g]`. -/
theorem dot_apply (A : FVec Ideal S4096x2048 .f32) (B : FVec Ideal S2048x8192 .f32) (R : Fin 4096) (g : Fin 8192) :
    Host.dotGeneral dot_S4096x2048_S2048x8192_S4096x8192_1_0_0_1_n_n none A B (ix2 R g)
      = ∑ k : Fin 2048, A (ix2 R k) * B (ix2 k g) := by
  show FloatOps.dotGeneral _ none _ A B (ix2 R g) = _
  rw [Ideal.dotGeneral_apply,
    ← Equiv.sum_comp (contrEquiv1 dot_S4096x2048_S2048x8192_S4096x8192_1_0_0_1_n_n 2048 rfl rfl).symm]
  refine Finset.sum_congr rfl fun k _ => ?_
  have hk := contrEquiv1_symm_val dot_S4096x2048_S2048x8192_S4096x8192_1_0_0_1_n_n 2048 rfl rfl k
  have el : dot_S4096x2048_S2048x8192_S4096x8192_1_0_0_1_n_n.lhsIdx (ix2 R g)
      ((contrEquiv1 dot_S4096x2048_S2048x8192_S4096x8192_1_0_0_1_n_n 2048 rfl rfl).symm k) = ix2 R k :=
    funext fun a => Fin.ext (by
      match a with
      | ⟨0, _⟩ => exact lhs_axis0 _ _
      | ⟨1, _⟩ => exact (lhs_axis1 _ _).trans hk)
  have er : dot_S4096x2048_S2048x8192_S4096x8192_1_0_0_1_n_n.rhsIdx (ix2 R g)
      ((contrEquiv1 dot_S4096x2048_S2048x8192_S4096x8192_1_0_0_1_n_n 2048 rfl rfl).symm k) = ix2 k g :=
    funext fun a => Fin.ext (by
      match a with
      | ⟨0, _⟩ => exact (rhs_axis0 _ _).trans hk
      | ⟨1, _⟩ => exact rhs_axis1 _ _)
  rw [el, er]

/-! ## The reference's sigmoid, affine map, mean and LayerNorm, on arbitrary operands -/

/-- The reference spells the sigmoid `1 / (1 + exp (-z))`, both ones the printed word: the logistic function. -/
theorem sigmoid_apply (z : FVec Ideal S4096x2048 .f32) (i : S4096x2048.Idx) :
    Host.divf (broadcastInDim S4096x2048 ![] bcast_S_S4096x2048 (constant (F := Ideal) S_ .f32 0x3F800000#32))
        (addf (broadcastInDim S4096x2048 ![] bcast_S_S4096x2048 (constant (F := Ideal) S_ .f32 0x3F800000#32))
          (Host.exp (Host.negf z))) i = Ideal.logistic (z i) := by
  rw [hostDivf_apply, addf_apply, splat_apply, hostExp_apply, hostNegf_apply, one_f32]
  rfl

/-- The product with a weight matrix plus the bias repeated down the rows: entry `(R, g)` is the specification's. -/
theorem aff_apply (A : FVec Ideal S4096x2048 .f32) (W : FVec Ideal S2048x8192 .f32) (b : FVec Ideal S8192 .f32)
    (R : Fin 4096) (g : Fin 8192) :
    addf (Host.dotGeneral dot_S4096x2048_S2048x8192_S4096x8192_1_0_0_1_n_n none A W)
        (broadcastInDim S4096x8192 ![0, 1] bcast_S1x8192_S4096x8192_0_1
          (broadcastInDim S1x8192 ![1] bcast_S8192_S1x8192_1 b)) (ix2 R g)
      = Cert.Spec.affRow A W b R g := by
  rw [addf_apply, dot_apply, row8192_apply]
  rfl

/-- The reference's mean of row `R` of a 4096 × 8192 array whose row `R` is `v`: the specification's mean of `v`. -/
theorem meanRef8192 (Y : FVec Ideal S4096x8192 .f32) (R : Fin 4096) (v : Fin 8192 → EReal)
    (hY : ∀ k, Y (ix2 R k) = v k) :
    Host.divf (broadcastInDim S4096x1 ![0] bcast_S4096_S4096x1_0
          (Host.reduceAdd Y (constant (F := Ideal) S_ .f32 0x00000000#32) reducesTo_S4096x8192_S4096_d1 h_S_))
        (broadcastInDim S4096x1 ![] bcast_S_S4096x1 (constant (F := Ideal) S_ .f32 0x46000000#32)) (ix2 R (0 : Fin 1))
      = Cert.Spec.mean Cert.Spec.w8192 v := by
  rw [hostDivf_apply, col_apply, rowSum8192_apply, splat_apply]
  unfold Cert.Spec.mean
  exact congrArg (Ideal.div · _) (Finset.sum_congr rfl fun k _ => hY k)

/-- The same for a 4096 × 2048 array. -/
theorem meanRef2048 (Y : FVec Ideal S4096x2048 .f32) (R : Fin 4096) (v : Fin 2048 → EReal)
    (hY : ∀ k, Y (ix2 R k) = v k) :
    Host.divf (broadcastInDim S4096x1 ![0] bcast_S4096_S4096x1_0
          (Host.reduceAdd Y (constant (F := Ideal) S_ .f32 0x00000000#32) reducesTo_S4096x2048_S4096_d1 h_S_))
        (broadcastInDim S4096x1 ![] bcast_S_S4096x1 (constant (F := Ideal) S_ .f32 0x45000000#32)) (ix2 R (0 : Fin 1))
      = Cert.Spec.mean Cert.Spec.w2048 v := by
  rw [hostDivf_apply, col_apply, rowSum2048_apply, splat_apply]
  unfold Cert.Spec.mean
  exact congrArg (Ideal.div · _) (Finset.sum_congr rfl fun k _ => hY k)

/-- The reference's LayerNorm of a 4096 × 8192 array `Y` whose row `R` is `v`, given its column of means `Mn` and its
    centred copy `C`: at `(R, g)` the specification's LayerNorm of `v` at `g`. -/
theorem lnRef8192 (Y C : FVec Ideal S4096x8192 .f32) (Mn : FVec Ideal S4096x1 .f32) (γ β : FVec Ideal S8192 .f32)
    (R : Fin 4096) (v : Fin 8192 → EReal) (hY : ∀ k, Y (ix2 R k) = v k)
    (hM : Mn (ix2 R (0 : Fin 1)) = Cert.Spec.mean Cert.Spec.w8192 v)
    (hC : ∀ k, C (ix2 R k) = v k - Cert.Spec.mean Cert.Spec.w8192 v) (g : Fin 8192) :
    addf (mulf (mulf (subf Y (broadcastInDim S4096x8192 ![0, 1] bcast_S4096x1_S4096x8192_0_1 Mn))
            (broadcastInDim S4096x8192 ![0, 1] bcast_S4096x1_S4096x8192_0_1
              (Host.rsqrt (addf (Host.divf (broadcastInDim S4096x1 ![0] bcast_S4096_S4096x1_0
                    (Host.reduceAdd (mulf C C) (constant (F := Ideal) S_ .f32 0x00000000#32) reducesTo_S4096x8192_S4096_d1 h_S_))
                  (broadcastInDim S4096x1 ![] bcast_S_S4096x1 (constant (F := Ideal) S_ .f32 0x46000000#32)))
                (broadcastInDim S4096x1 ![] bcast_S_S4096x1 (constant (F := Ideal) S_ .f32 0x3727C5AC#32))))))
          (broadcastInDim S4096x8192 ![0, 1] bcast_S1x8192_S4096x8192_0_1
            (broadcastInDim S1x8192 ![1] bcast_S8192_S1x8192_1 γ)))
        (broadcastInDim S4096x8192 ![0, 1] bcast_S1x8192_S4096x8192_0_1
          (broadcastInDim S1x8192 ![1] bcast_S8192_S1x8192_1 β)) (ix2 R g)
      = Cert.Spec.ln Cert.Spec.w8192 v (fun q => γ (ix1 q)) (fun q => β (ix1 q)) g := by
  have hs : ∑ k : Fin 8192, mulf C C (ix2 R k)
      = ∑ k : Fin 8192, (v k - Cert.Spec.mean Cert.Spec.w8192 v) * (v k - Cert.Spec.mean Cert.Spec.w8192 v) :=
    Finset.sum_congr rfl fun k _ => by rw [mulf_apply, hC]
  rw [addf_apply, mulf_apply, mulf_apply, subf_apply, spread8192_apply, spread8192_apply, row8192_apply, row8192_apply,
    hostRsqrt_apply, addf_apply, hostDivf_apply, col_apply, rowSum8192_apply, splat_apply, splat_apply, hY, hM, hs]
  rfl

/-- The same for a 4096 × 2048 array. -/
theorem lnRef2048 (Y C : FVec Ideal S4096x2048 .f32) (Mn : FVec Ideal S4096x1 .f32) (γ β : FVec Ideal S2048 .f32)
    (R : Fin 4096) (v : Fin 2048 → EReal) (hY : ∀ k, Y (ix2 R k) = v k)
    (hM : Mn (ix2 R (0 : Fin 1)) = Cert.Spec.mean Cert.Spec.w2048 v)
    (hC : ∀ k, C (ix2 R k) = v k - Cert.Spec.mean Cert.Spec.w2048 v) (j : Fin 2048) :
    addf (mulf (mulf (subf Y (broadcastInDim S4096x2048 ![0, 1] bcast_S4096x1_S4096x2048_0_1 Mn))
            (broadcastInDim S4096x2048 ![0, 1] bcast_S4096x1_S4096x2048_0_1
              (Host.rsqrt (addf (Host.divf (broadcastInDim S4096x1 ![0] bcast_S4096_S4096x1_0
                    (Host.reduceAdd (mulf C C) (constant (F := Ideal) S_ .f32 0x00000000#32) reducesTo_S4096x2048_S4096_d1 h_S_))
                  (broadcastInDim S4096x1 ![] bcast_S_S4096x1 (constant (F := Ideal) S_ .f32 0x45000000#32)))
                (broadcastInDim S4096x1 ![] bcast_S_S4096x1 (constant (F := Ideal) S_ .f32 0x3727C5AC#32))))))
          (broadcastInDim S4096x2048 ![0, 1] bcast_S1x2048_S4096x2048_0_1
            (broadcastInDim S1x2048 ![1] bcast_S2048_S1x2048_1 γ)))
        (broadcastInDim S4096x2048 ![0, 1] bcast_S1x2048_S4096x2048_0_1
          (broadcastInDim S1x2048 ![1] bcast_S2048_S1x2048_1 β)) (ix2 R j)
      = Cert.Spec.ln Cert.Spec.w2048 v (fun q => γ (ix1 q)) (fun q => β (ix1 q)) j := by
  have hs : ∑ k : Fin 2048, mulf C C (ix2 R k)
      = ∑ k : Fin 2048, (v k - Cert.Spec.mean Cert.Spec.w2048 v) * (v k - Cert.Spec.mean Cert.Spec.w2048 v) :=
    Finset.sum_congr rfl fun k _ => by rw [mulf_apply, hC]
  rw [addf_apply, mulf_apply, mulf_apply, subf_apply, spread2048_apply, spread2048_apply, row2048_apply, row2048_apply,
    hostRsqrt_apply, addf_apply, hostDivf_apply, col_apply, rowSum2048_apply, splat_apply, splat_apply, hY, hM, hs]
  rfl

/-! ## The reference's named intermediates, entry by entry

Over any valuation `V0` of the buffers (the run instantiates it at the launch contents). The arguments are named as the
cell names them; `gRow` is the gates' row of batch row `R`, `cpRow` the previous cell's row. -/

section Named
variable (V0 : Valuation τ sig (Elt Ideal))

abbrev argX : FVec Ideal S4096x2048 .f32 := V0 (Proc.devRef .tc main_arg0)
abbrev argHp : FVec Ideal S4096x2048 .f32 := V0 (Proc.devRef .tc main_arg1)
abbrev argCp : FVec Ideal S4096x2048 .f32 := V0 (Proc.devRef .tc main_arg2)
abbrev argWih : FVec Ideal S2048x8192 .f32 := V0 (Proc.devRef .tc main_arg3)
abbrev argWhh : FVec Ideal S2048x8192 .f32 := V0 (Proc.devRef .tc main_arg4)
abbrev argBih : FVec Ideal S8192 .f32 := V0 (Proc.devRef .tc main_arg5)
abbrev argBhh : FVec Ideal S8192 .f32 := V0 (Proc.devRef .tc main_arg6)
abbrev argGx : FVec Ideal S8192 .f32 := V0 (Proc.devRef .tc main_arg7)
abbrev argBx : FVec Ideal S8192 .f32 := V0 (Proc.devRef .tc main_arg8)
abbrev argGc : FVec Ideal S2048 .f32 := V0 (Proc.devRef .tc main_arg9)
abbrev argBc : FVec Ideal S2048 .f32 := V0 (Proc.devRef .tc main_arg10)
abbrev argGh : FVec Ideal S2048 .f32 := V0 (Proc.devRef .tc main_arg11)
abbrev argBh : FVec Ideal S2048 .f32 := V0 (Proc.devRef .tc main_arg12)

/-- The input path's row `R`. -/
abbrev xgRow (R : Fin 4096) : Fin 8192 → EReal := Cert.Spec.affRow (argX V0) (argWih V0) (argBih V0) R
/-- The gates' row `R`. -/
abbrev gRow (R : Fin 4096) : Fin 8192 → EReal :=
  Cert.Spec.gatesOf (argX V0) (argHp V0) (argWih V0) (argWhh V0) (argBih V0) (argBhh V0) (argGx V0) (argBx V0) R
/-- The previous cell's row `R`. -/
abbrev cpRow (R : Fin 4096) : Fin 2048 → EReal := fun q => argCp V0 (ix2 R q)
/-- The new cell's row `R` before its LayerNorm. -/
abbrev cnRow (R : Fin 4096) : Fin 2048 → EReal := Cert.Spec.cNew (gRow V0 R) (cpRow V0 R)
/-- The result c_t's row `R`. -/
abbrev ctRow (R : Fin 4096) : Fin 2048 → EReal :=
  Cert.Spec.cRow (gRow V0 R) (cpRow V0 R) (fun q => argGc V0 (ix1 q)) (fun q => argBc V0 (ix1 q))
/-- The hidden row `R` before its LayerNorm: `σ(o) · tanh(c_t)`. -/
abbrev hnRow (R : Fin 4096) : Fin 2048 → EReal :=
  fun j => Ideal.logistic (gRow V0 R ⟨6144 + j.val, by omega⟩) * Ideal.tanh (ctRow V0 R j)

/-- `main_v3`: the input path `x · W_ih + b_ih`. -/
theorem v3_apply (R : Fin 4096) (g : Fin 8192) : res_main_v3 (F := Ideal) V0 (ix2 R g) = xgRow V0 R g := by
  unfold res_main_v3
  exact aff_apply _ _ _ R g

/-- `main_v7`: the input path's row means, as a column. -/
theorem v7_apply (R : Fin 4096) :
    res_main_v7 (F := Ideal) V0 (ix2 R (0 : Fin 1)) = Cert.Spec.mean Cert.Spec.w8192 (xgRow V0 R) := by
  unfold res_main_v7
  exact meanRef8192 _ R _ (fun k => v3_apply V0 R k)

/-- `main_v9`: the input path centred. -/
theorem v9_apply (R : Fin 4096) (g : Fin 8192) :
    res_main_v9 (F := Ideal) V0 (ix2 R g) = xgRow V0 R g - Cert.Spec.mean Cert.Spec.w8192 (xgRow V0 R) := by
  unfold res_main_v9
  rw [subf_apply, spread8192_apply, v3_apply, v7_apply]

/-- `main_v32`: the gates, the input path layer-normalised plus the hidden path. -/
theorem v32_apply (R : Fin 4096) (g : Fin 8192) : res_main_v32 (F := Ideal) V0 (ix2 R g) = gRow V0 R g := by
  unfold res_main_v32
  refine (addf_apply _ _ _).trans ?_
  exact congrArg₂ (· + ·)
    (lnRef8192 _ _ _ _ _ R _ (fun k => v3_apply V0 R k) (v7_apply V0 R) (fun k => v9_apply V0 R k) g)
    (aff_apply _ _ _ R g)

/-- `main_v58`: the new cell before its LayerNorm, `σ(f) · c_prev + σ(i) · tanh(g)`. -/
theorem v58_apply (R : Fin 4096) (j : Fin 2048) : res_main_v58 (F := Ideal) V0 (ix2 R j) = cnRow V0 R j := by
  unfold res_main_v58
  rw [addf_apply, mulf_apply, mulf_apply, sigmoid_apply, sigmoid_apply, hostTanh_apply, quarter1_apply, quarter0_apply,
    quarter2_apply, v32_apply, v32_apply, v32_apply]
  rfl

/-- `main_v62`: the new cell's row means, as a column. -/
theorem v62_apply (R : Fin 4096) :
    res_main_v62 (F := Ideal) V0 (ix2 R (0 : Fin 1)) = Cert.Spec.mean Cert.Spec.w2048 (cnRow V0 R) := by
  unfold res_main_v62
  exact meanRef2048 _ R _ (fun k => v58_apply V0 R k)

/-- `main_v64`: the new cell centred. -/
theorem v64_apply (R : Fin 4096) (j : Fin 2048) :
    res_main_v64 (F := Ideal) V0 (ix2 R j) = cnRow V0 R j - Cert.Spec.mean Cert.Spec.w2048 (cnRow V0 R) := by
  unfold res_main_v64
  rw [subf_apply, spread2048_apply, v58_apply, v62_apply]

/-- `main_v84`: `σ(o) · tanh(c_t)`, c_t being the new cell layer-normalised. -/
theorem v84_apply (R : Fin 4096) (j : Fin 2048) : res_main_v84 (F := Ideal) V0 (ix2 R j) = hnRow V0 R j := by
  unfold res_main_v84
  rw [mulf_apply, sigmoid_apply, quarter3_apply, v32_apply, hostTanh_apply,
    lnRef2048 _ _ _ _ _ R _ (fun k => v58_apply V0 R k) (v62_apply V0 R) (fun k => v64_apply V0 R k) j]
  rfl

/-- `main_v88`: its row means, as a column. -/
theorem v88_apply (R : Fin 4096) :
    res_main_v88 (F := Ideal) V0 (ix2 R (0 : Fin 1)) = Cert.Spec.mean Cert.Spec.w2048 (hnRow V0 R) := by
  unfold res_main_v88
  exact meanRef2048 _ R _ (fun k => v84_apply V0 R k)

/-- `main_v90`: it centred. -/
theorem v90_apply (R : Fin 4096) (j : Fin 2048) :
    res_main_v90 (F := Ideal) V0 (ix2 R j) = hnRow V0 R j - Cert.Spec.mean Cert.Spec.w2048 (hnRow V0 R) := by
  unfold res_main_v90
  rw [subf_apply, spread2048_apply, v84_apply, v88_apply]

end Named

/-! ## The run -/

/-- Every weakly fair execution of the reference terminates with h_t and c_t at the specification's whole-array functions
    of the launch contents of the arguments, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v108) = Cert.Spec.Gh (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v82) = Cert.Spec.Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine (θ_run _ _ _).mono (fun r h c => ?_) (Cert.ReferenceIdeal.Value.run (F := Ideal) m ρ)
  obtain ⟨h108, h82, hargs⟩ := h c
  refine ⟨h108.trans (funext fun i => ?_), h82.trans (funext fun i => ?_), hargs⟩
  · obtain ⟨R, j, rfl⟩ : ∃ (R : Fin 4096) (j : Fin 2048), i = ix2 R j := ⟨i 0, i 1, eq_ix2 i⟩
    exact lnRef2048 _ _ _ _ _ R _ (fun k => v84_apply _ R k) (v88_apply _ R) (fun k => v90_apply _ R k) j
  · obtain ⟨R, j, rfl⟩ : ∃ (R : Fin 4096) (j : Fin 2048), i = ix2 R j := ⟨i 0, i 1, eq_ix2 i⟩
    exact lnRef2048 _ _ _ _ _ R _ (fun k => v58_apply _ R k) (v62_apply _ R) (fun k => v64_apply _ R k) j

end Cert.ReferenceIdeal.RefValue

end
-- ==== Proof.lean ====
/-
  The certificate of a LayerNorm-LSTM cell kernel against its plain reference.

  The kernel runs on a grid of 64 batch tiles by 8 column tiles. Each point computes one 64 × 1024 column tile of the input
  path x · W_ih + b_ih and of the hidden path h_prev · W_hh + b_hh into two 64 × 8192 scratch buffers; at the last column
  tile of a row block the scratch buffers hold the full rows, and the body layer-normalises the input path over its 8192
  entries, adds the hidden path, forms the four gates and the two layer-normalised results c_t and h_t, which are written
  back as the row block's 64 rows. The reference computes the same on whole arrays.

  Frames: the body's triple is proved once, generic in the float instance, for the two cases of its one branch; between
  points the invariant says which column tiles of the current row block the scratch buffers already hold. Values: at the
  exact instance both programs' results are, entry by entry, one function of the argument arrays (Spec.lean): the kernel's
  by reading its stored blocks at an index, the reference's by reading its host operations at an index; sigmoid as the
  kernel's one operation and as the reference's 1 / (1 + exp (-x)) are the same function there, a sum over lanes and a
  host sum are the same finite sum, and a change of float format is the identity. Nothing of the argument's finiteness is
  used: no law beyond the ones that hold on all extended reals joins the two sides.
-/
import proofs.«145959_j42855183680049_1_alg».proof.Defs
import proofs.«145959_j42855183680049_1_alg».proof.Proof.Gen.Kernel
import proofs.«145959_j42855183680049_1_alg».proof.Proof.Gen.KernelIdeal
import proofs.«145959_j42855183680049_1_alg».proof.Proof.Gen.ReferenceIdeal
import proofs.«145959_j42855183680049_1_alg».proof.Proof.Gen.Pre_finite_inputs
import proofs.«145959_j42855183680049_1_alg».proof.Proof.Kernel.Body
import proofs.«145959_j42855183680049_1_alg».proof.Proof.KernelIdeal.Body
import proofs.«145959_j42855183680049_1_alg».proof.Proof.KernelRun
import proofs.«145959_j42855183680049_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Body.frame m ρ

/-- So does the kernel read at the exact instance. -/
theorem frame_kernelIdeal : Cert.frame_KernelIdeal := fun m ρ _ => Cert.KernelIdeal.Body.frame m ρ

/-- So does the reference: its run with the results dropped. -/
theorem frame_reference : Cert.frame_ReferenceIdeal := fun m ρ _ =>
  (θ_run Cert.ReferenceIdeal.defs _ _).mono (fun _ h c => (h c).2.2) (Cert.ReferenceIdeal.RefValue.ref_run m ρ)

/-- From memories that agree on the thirteen arguments both programs end with h_t and c_t at the same functions of them. -/
theorem algebraic : Cert.algebraic_KernelIdeal_ReferenceIdeal := by
  intro m ρ m' ρ' _ hagree
  refine ⟨_, _, Cert.KernelIdeal.KernelValue.kernel_run m ρ, ?_⟩
  refine (θ_run Cert.ReferenceIdeal.defs _ _).mono (fun _ h c => ⟨(h c).1.trans ?_, (h c).2.1.trans ?_, (h c).2.2⟩)
    (Cert.ReferenceIdeal.RefValue.ref_run m' ρ')
  · obtain ⟨h0, h1, h2, h3, h4, h5, h6, h7, h8, h9, h10, h11, h12⟩ := hagree c
    rw [h0, h1, h2, h3, h4, h5, h6, h7, h8, h9, h10, h11, h12]
  · obtain ⟨h0, h1, h2, h3, h4, h5, h6, h7, h8, h9, h10, h11, h12⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
